-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S64x64 : Shape := ⟨2, ![64, 64]⟩
abbrev S384x256 : Shape := ⟨2, ![384, 256]⟩
abbrev S256 : Shape := ⟨1, ![256]⟩
abbrev S256x256 : Shape := ⟨2, ![256, 256]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S64x64 : S_.BroadcastsInDim S64x64 (![] : Fin 0 → Fin S64x64.rank)
  reducesTo_S64x64_S_d0_1 : S64x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg11 : FVec F S256 .f32) (main_arg12 : IVec S500000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S500000 32 := broadcastInDim S500000 ![] bcast_S_S500000 main_c_22
  let main_v60 : IVec S500000 1 := cmpi .sge main_arg12 main_v59
  let main_c_23 : IVec S_ 1 := constantI S_ 1 1#1
  let main_v61 : IVec S_ 1 := (fun x v => Host.reduce IntOp.andi x v reducesTo_S500000_S_d0 h_S_) main_v60 main_c_23
  let main_v62 : IVec S_ 1 := andi main_v58 main_v61
  let main_c_24 : IVec S_ 32 := constantI S_ 32 64#32
  let main_v63 : IVec S500000 32 := broadcastInDim S500000 ![] bcast_S_S500000 main_c_24
  let main_v64 : IVec S500000 1 := cmpi .slt main_arg12 main_v63
  let main_c_25 : IVec S_ 1 := constantI S_ 1 1#1
  let main_v65 : IVec S_ 1 := (fun x v => Host.reduce IntOp.andi x v reducesTo_S500000_S_d0 h_S_) main_v64 main_c_25
  let main_v66 : IVec S_ 1 := andi main_v62 main_v65
  main_v66

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : IVec S500000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S384x256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : IVec S500000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S384x256 .f32 := Host.absf main_arg4
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S500000x128 .f32) (main_arg1 : FVec F S500000x128 .f32) (main_arg2 : FVec F S500000x64 .f32) (main_arg3 : FVec F S64x64 .f32) (main_arg4 : FVec F S384x256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S500000x128 : Shape := ⟨2, ![500000, 128]⟩
abbrev S500000x64 : Shape := ⟨2, ![500000, 64]⟩
abbrev S64x64 : Shape := ⟨2, ![64, 64]⟩
abbrev S384x256 : Shape := ⟨2, ![384, 256]⟩
abbrev S256 : Shape := ⟨1, ![256]⟩
abbrev S256x256 : Shape := ⟨2, ![256, 256]⟩
abbrev S500000 : Shape := ⟨1, ![500000]⟩
abbrev S500000x1 : Shape := ⟨2, ![500000, 1]⟩
abbrev S128x256 : Shape := ⟨2, ![128, 256]⟩
abbrev S64x256 : Shape := ⟨2, ![64, 256]⟩
abbrev S1x256 : Shape := ⟨2, ![1, 256]⟩
abbrev S500000x256 : Shape := ⟨2, ![500000, 256]⟩
abbrev S50x1x256 : Shape := ⟨3, ![50, 1, 256]⟩
abbrev S10000x128 : Shape := ⟨2, ![10000, 128]⟩
abbrev S10000x64 : Shape := ⟨2, ![10000, 64]⟩
abbrev S10000x1 : Shape := ⟨2, ![10000, 1]⟩
abbrev S10000x256 : Shape := ⟨2, ![10000, 256]⟩
abbrev S1x1x256 : Shape := ⟨3, ![1, 1, 256]⟩
abbrev S_ : Shape := ⟨0, ![]⟩

abbrev nBuf : Space → Nat
  | .hbm => 69
  | .vmem => 38
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S64x64, .f32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S500000, .i32⟩
  | .hbm, ⟨13, _⟩ => ⟨S500000x1, .i32⟩
  | .hbm, ⟨14, _⟩ => ⟨S128x256, .f32⟩
  | .hbm, ⟨15, _⟩ => ⟨S128x256, .f32⟩
  | .hbm, ⟨16, _⟩ => ⟨S64x256, .f32⟩
  | .hbm, ⟨17, _⟩ => ⟨S64x256, .f32⟩
  | .hbm, ⟨18, _⟩ => ⟨S1x256, .f32⟩
  | .hbm, ⟨19, _⟩ => ⟨S1x256, .f32⟩
  | .hbm, ⟨20, _⟩ => ⟨S500000x256, .bf16⟩
  | .hbm, ⟨21, _⟩ => ⟨S50x1x256, .f32⟩
  | .hbm, ⟨22, _⟩ => ⟨S50x1x256, .f32⟩
  | .hbm, ⟨23, _⟩ => ⟨S_, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S500000x256, .f32⟩
  | .hbm, ⟨45, _⟩ => ⟨S50x1x256, .f32⟩
  | .hbm, ⟨46, _⟩ => ⟨S50x1x256, .f32⟩
  | .hbm, ⟨47, _⟩ => ⟨S_, .f32⟩
  | .hbm, ⟨48, _⟩ => ⟨S1x256, .f32⟩
  | .hbm, ⟨49, _⟩ => ⟨S_, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S500000x256, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x64, .f32⟩
  | .local _ .vmem, ⟨5, _⟩ => ⟨S10000x64, .f32⟩
  | .local _ .vmem, ⟨6, _⟩ => ⟨S10000x1, .i32⟩
  | .local _ .vmem, ⟨7, _⟩ => ⟨S10000x1, .i32⟩
  | .local _ .vmem, ⟨8, _⟩ => ⟨S64x64, .f32⟩
  | .local _ .vmem, ⟨9, _⟩ => ⟨S128x256, .f32⟩
  | .local _ .vmem, ⟨10, _⟩ => ⟨S128x256, .f32⟩
  | .local _ .vmem, ⟨11, _⟩ => ⟨S64x256, .f32⟩
  | .local _ .vmem, ⟨12, _⟩ => ⟨S64x256, .f32⟩
  | .local _ .vmem, ⟨13, _⟩ => ⟨S1x256, .f32⟩
  | .local _ .vmem, ⟨14, _⟩ => ⟨S10000x256, .bf16⟩
  | .local _ .vmem, ⟨15, _⟩ => ⟨S10000x256, .bf16⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S10000x256, .bf16⟩
  | .local _ .vmem, ⟨21, _⟩ => ⟨S10000x256, .bf16⟩
  | .local _ .vmem, ⟨22, _⟩ => ⟨S1x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S10000x256, .f32⟩
  | .local _ .vmem, ⟨27, _⟩ => ⟨S10000x256, .f32⟩
  | .local _ .vmem, ⟨28, _⟩ => ⟨S1x1x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S10000x256, .f32⟩
  | .local _ .vmem, ⟨33, _⟩ => ⟨S10000x256, .f32⟩
  | .local _ .vmem, ⟨34, _⟩ => ⟨S1x256, .f32⟩
  | .local _ .vmem, ⟨35, _⟩ => ⟨S1x256, .f32⟩
  | .local _ .vmem, ⟨36, _⟩ => ⟨S10000x256, .f32⟩
  | .local _ .vmem, ⟨37, _⟩ => ⟨S10000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_cst_4 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem3_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S500000_S500000x1 : S500000.ShapeCasts S500000x1
  slices_S384x256_S128x256_0_0 : S384x256.Slices ![0, 0] S128x256
  slices_S384x256_S128x256_128_0 : S384x256.Slices ![128, 0] S128x256
  slices_S384x256_S64x256_256_0 : S384x256.Slices ![256, 0] S64x256
  slices_S384x256_S64x256_320_0 : S384x256.Slices ![320, 0] S64x256
  shapeCasts_S256_S1x256 : S256.ShapeCasts S1x256
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  inb_S64x64_S64x64_0_0 : ∀ a, (![0, 0] : Fin 2 → Nat) a + S64x64.size a ≤ S64x64.size a
  h_S64x64 : 0 < S64x64.numel
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x64_S10000x64_0_0 : ∀ a, (![0, 0] : Fin 2 → Nat) a + S10000x64.size a ≤ S10000x64.size a
  h_S10000x64 : 0 < S10000x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  reduces_S10000x256_S256 : S10000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S50x1x256_S1x256_d0 : S50x1x256.ReducesTo [0] S1x256
  h_S_ : 0 < S_.numel
  bcast_S_S1x256 : S_.BroadcastsInDim S1x256 (![] : Fin 0 → Fin S1x256.rank)
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  dot_S10000x64_S64x64_S10000x64_1_0_0_1_n_n_wf : DotDims.WF S10000x64 S64x64 S10000x64 [1] [0] [0] [1] [] []
  dot_S10000x128_S128x256_S10000x256_1_0_0_1_n_n_wf : DotDims.WF S10000x128 S128x256 S10000x256 [1] [0] [0] [1] [] []
  dot_S10000x64_S64x256_S10000x256_1_0_0_1_n_n_wf : DotDims.WF S10000x64 S64x256 S10000x256 [1] [0] [0] [1] [] []
  dot_S10000x256_S256x256_S10000x256_1_0_0_1_n_n_wf : DotDims.WF S10000x256 S256x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S500000x1.size a
  hwx0_3 : ∀ i : grid0.Coords, EltTy.bits .i32 = 32 ∨ (Rect.block (s := S500000x1) S10000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .f32 = 32 ∨ (Rect.block (s := S64x256) S64x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x256.size a ≤ S500000x256.size a
  hwx0_10 : ∀ i : grid0.Coords, EltTy.bits .bf16 = 32 ∨ (Rect.block (s := S500000x256) S10000x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x256.size a ≤ S50x1x256.size a
  hwx0_11 : ∀ i : grid0.Coords, EltTy.bits .f32 = 32 ∨ (Rect.block (s := S50x1x256) S1x1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x256.size a ≤ S50x1x256.size a
  hwx0_12 : ∀ i : grid0.Coords, EltTy.bits .f32 = 32 ∨ (Rect.block (s := S50x1x256) S1x1x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S500000x256.size a
  hwx1_0 : ∀ i : grid1.Coords, EltTy.bits .bf16 = 32 ∨ (Rect.block (s := S500000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x256.size a ≤ S500000x256.size a
  hwx1_5 : ∀ i : grid1.Coords, EltTy.bits .f32 = 32 ∨ (Rect.block (s := S500000x256) S10000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x256.size a ≤ S50x1x256.size a
  hwx1_6 : ∀ i : grid1.Coords, EltTy.bits .f32 = 32 ∨ (Rect.block (s := S50x1x256) S1x1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x256.size a ≤ S50x1x256.size a
  hwx1_7 : ∀ i : grid1.Coords, EltTy.bits .f32 = 32 ∨ (Rect.block (s := S50x1x256) S1x1x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S500000x256.size a
  hwx2_0 : ∀ i : grid2.Coords, EltTy.bits .f32 = 32 ∨ (Rect.block (s := S500000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x256.size a ≤ S500000x256.size a
  hwx2_3 : ∀ i : grid2.Coords, EltTy.bits .f32 = 32 ∨ (Rect.block (s := S500000x256) S10000x256.size (cc2_transform_3 i) (hinb2_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S10000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S1x1x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_2) S1x1x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v7_0) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S10000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S1x1x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_2) S1x1x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v24_0) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S10000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S64x64 : Shape := ⟨2, ![64, 64]⟩
abbrev S384x256 : Shape := ⟨2, ![384, 256]⟩
abbrev S256 : Shape := ⟨1, ![256]⟩
abbrev S256x256 : Shape := ⟨2, ![256, 256]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S64x64, .f32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x64, .f32⟩
  | .hbm, ⟨22, _⟩ => ⟨S500000x384, .f32⟩
  | .hbm, ⟨23, _⟩ => ⟨S500000x256, .f32⟩
  | .hbm, ⟨24, _⟩ => ⟨S1x256, .f32⟩
  | .hbm, ⟨25, _⟩ => ⟨S500000x256, .f32⟩
  | .hbm, ⟨26, _⟩ => ⟨S500000x256, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S500000x256, .f32⟩
  | .hbm, ⟨34, _⟩ => ⟨S500000x256, .f32⟩
  | .hbm, ⟨35, _⟩ => ⟨S500000x256, .f32⟩
  | .hbm, ⟨36, _⟩ => ⟨S_, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S500000x256, .f32⟩
  | .hbm, ⟨43, _⟩ => ⟨S500000x256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S500000x256, .f32⟩
  | .hbm, ⟨51, _⟩ => ⟨S500000x256, .f32⟩
  | .hbm, ⟨52, _⟩ => ⟨S1x256, .f32⟩
  | .hbm, ⟨53, _⟩ => ⟨S500000x256, .f32⟩
  | .hbm, ⟨54, _⟩ => ⟨S500000x256, .f32⟩
  | .hbm, ⟨55, _⟩ => ⟨S_, .f32⟩
  | .hbm, ⟨56, _⟩ => ⟨S500000x256, .f32⟩
  | .hbm, ⟨57, _⟩ => ⟨S500000x256, .f32⟩
  | .hbm, ⟨58, _⟩ => ⟨S500000x256, .f32⟩
  | .hbm, ⟨59, _⟩ => ⟨S1x256, .f32⟩
  | .hbm, ⟨60, _⟩ => ⟨S500000x256, .f32⟩
  | .hbm, ⟨61, _⟩ => ⟨S500000x256, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S500000x256, .f32⟩
  | .hbm, ⟨69, _⟩ => ⟨S500000x256, .f32⟩
  | .hbm, ⟨70, _⟩ => ⟨S500000x256, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S500000x256, .f32⟩
  | .hbm, ⟨78, _⟩ => ⟨S500000x256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S1x256, .f32⟩
  | .hbm, ⟨85, _⟩ => ⟨S500000x256, .f32⟩
  | .hbm, ⟨86, _⟩ => ⟨S500000x256, .f32⟩
  | .hbm, ⟨87, _⟩ => ⟨S1x256, .f32⟩
  | .hbm, ⟨88, _⟩ => ⟨S500000x256, .f32⟩
  | .hbm, ⟨89, _⟩ => ⟨S500000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  reducesTo_S500000x256_S256_d0 : S500000x256.ReducesTo [0] S256
  h_S_ : 0 < S_.numel
  bcast_S_S256 : S_.BroadcastsInDim S256 (![] : Fin 0 → Fin S256.rank)
  bcast_S_S500000x256 : S_.BroadcastsInDim S500000x256 (![] : Fin 0 → Fin S500000x256.rank)
  gather_S64x64_S500000x1_S500000x64_1_0_n_n_0_1_164_wf : GatherDims.WF S64x64 S500000x1 S500000x64 [1] [0] [] [0] [] 1 ![1, 64]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []

variable [Facts₀]

def gather_S64x64_S500000x1_S500000x64_1_0_n_n_0_1_164 : GatherDims S64x64 S500000x1 S500000x64 where
  offsetDims := [1]
  collapsedSliceDims := [0]
  operandBatchingDims := []
  startIndicesBatchingDims := []
  startIndexMap := [0]
  indexVectorDim := 1
  sliceSizes := ![1, 64]
  wf := gather_S64x64_S500000x1_S500000x64_1_0_n_n_0_1_164_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.Forms.lean ====
/-
  The two programs' results as functions of the argument arrays, over the extended reals, index by index.

  An edge model: per edge `e` the features are the concatenation `[src e | dst e | ea e | u (graph e)]` (384 columns);
  a linear layer to 256 channels, batch normalisation over the 500000 edges (training mode, biased variance), ReLU,
  a second linear layer and a second batch normalisation.

  The kernel computes it in three passes over 50 tiles of 10000 edges: the gathered row `u (graph e)` as the product of
  a one-hot row with `u`; the first layer as four partial products over the four row blocks of `W1`; per tile the column
  sums of the layer's output and of its square; the normalisation as `x * scale + shift` with
  `scale = g / sqrt (E[x²] - (E x)² + eps)`, `shift = be - E x * scale`.
  The reference computes `(x - E x) * (g / sqrt (E[(x - E x)²] + eps)) + be` over the whole arrays.
  Arrays are curried: a matrix is `Fin a → Fin b → EReal`.
-/
import Idealize.ShloMosaic.PureOps.Ideal
import Idealize.ShloMosaic.Lib.ValueIdx

noncomputable section

namespace Cert.EdgeBN

open Idealize.ShloMosaic Idealize.ShloMosaic.ValueIdx

abbrev Mat (a b : Nat) : Type := Fin a → Fin b → EReal
abbrev Row (b : Nat) : Type := Fin b → EReal

/-- A rank-2 array read at explicit coordinates. -/
def cur2 {a b : Nat} (X : (⟨2, ![a, b]⟩ : Shape).Idx → EReal) : Mat a b := fun p q => X (ix2 p q)
/-- A rank-1 array read at an explicit coordinate. -/
def cur1 {a : Nat} (X : (⟨1, ![a]⟩ : Shape).Idx → EReal) : Row a := fun p => X (ix1 p)
/-- A rank-1 integer array read at an explicit coordinate. -/
def cur1i {a : Nat} (X : (⟨1, ![a]⟩ : Shape).Idx → BitVec 32) : Fin a → BitVec 32 := fun p => X (ix1 p)

/-- A `1 × b` array read as a row. -/
def row {b : Nat} (X : (⟨2, ![1, b]⟩ : Shape).Idx → EReal) : Row b := fun q => X (ix2 0 q)
/-- An `a × 1` integer array read as a column. -/
def colI {a : Nat} (X : (⟨2, ![a, 1]⟩ : Shape).Idx → BitVec 32) : Fin a → BitVec 32 := fun p => X (ix2 p 0)
/-- The sum over the 50 tiles of a `50 × 1 × 256` array of per-tile partial sums. -/
def tiles (X : (⟨3, ![50, 1, 256]⟩ : Shape).Idx → EReal) : Row 256 := fun j => ∑ t : Fin 50, X (ix3 t 0 j)

/-- Edge `r` of tile `t`: tiles are 10000 consecutive edges. -/
def tileRow (t : Fin 50) (r : Fin 10000) : Fin 500000 := ⟨10000 * t.val + r.val, by omega⟩

/-! ## The kernel's pieces -/

/-- The one-hot row of edge `e`'s graph id against the 64 graph ids. -/
def oneHot (bt : Fin 500000 → BitVec 32) (e : Fin 500000) (b : Fin 64) : EReal :=
  if bt e = BitVec.ofNat 32 b.val then 1 else 0

/-- The gathered global features as a one-hot product. -/
def gathK (u : Mat 64 64) (bt : Fin 500000 → BitVec 32) : Mat 500000 64 :=
  fun e k => ∑ b : Fin 64, oneHot bt e b * u b k

/-- The first layer as four partial products plus the bias. -/
def lin1K (src dst : Mat 500000 128) (ea ug : Mat 500000 64) (ws wd : Mat 128 256) (we wu : Mat 64 256) (b1 : Row 256) :
    Mat 500000 256 :=
  fun e j => ((((∑ k, src e k * ws k j) + ∑ k, dst e k * wd k j) + ∑ k, ea e k * we k j) + ∑ k, ug e k * wu k j) + b1 j

/-- A tile's column sum. -/
def tileSum (x : Mat 500000 256) (t : Fin 50) (j : Fin 256) : EReal := ∑ r : Fin 10000, x (tileRow t r) j

/-- The entrywise square. -/
def sq (x : Mat 500000 256) : Mat 500000 256 := fun e j => x e j * x e j

/-- The column sum as the sum of the tiles' sums. -/
def colSumK (x : Mat 500000 256) : Row 256 := fun j => ∑ t : Fin 50, tileSum x t j

def meanOf (S : Row 256) (n : EReal) : Row 256 := fun j => Ideal.div (S j) n

/-- The variance as the mean of squares minus the squared mean. -/
def varK (S Q : Row 256) (n : EReal) : Row 256 := fun j => Ideal.div (Q j) n - meanOf S n j * meanOf S n j

def scaleOf (g var : Row 256) (eps : EReal) : Row 256 := fun j => Ideal.div (g j) (Ideal.sqrt (var j + eps))

def shiftK (be mean scale : Row 256) : Row 256 := fun j => be j - mean j * scale j

/-- The normalisation's scale from the tiles' sums of `x` and of its square. -/
def scaleK (x : Mat 500000 256) (g : Row 256) (n eps : EReal) : Row 256 :=
  scaleOf g (varK (colSumK x) (colSumK (sq x)) n) eps

/-- The normalisation's shift. -/
def shiftOfK (x : Mat 500000 256) (g be : Row 256) (n eps : EReal) : Row 256 :=
  shiftK be (meanOf (colSumK x) n) (scaleK x g n eps)

def affine (x : Mat 500000 256) (sc sh : Row 256) : Mat 500000 256 := fun e j => x e j * sc j + sh j

def relu (x : Mat 500000 256) : Mat 500000 256 := fun e j => max (x e j) 0

/-- A linear layer of 256 inputs. -/
def lin2 (a : Mat 500000 256) (W2 : Mat 256 256) (b2 : Row 256) : Mat 500000 256 :=
  fun e j => (∑ k, a e k * W2 k j) + b2 j

/-- Rows `off … off + a - 1` of the first layer's weight. -/
def sliceRows {a : Nat} (W1 : Mat 384 256) (off : Nat) (h : off + a ≤ 384) : Mat a 256 :=
  fun k j => W1 ⟨off + k.val, by have := k.isLt; omega⟩ j

/-- The kernel's first layer from the arguments. -/
def h1K (src dst : Mat 500000 128) (ea : Mat 500000 64) (u : Mat 64 64) (W1 : Mat 384 256) (b1 : Row 256)
    (bt : Fin 500000 → BitVec 32) : Mat 500000 256 :=
  lin1K src dst ea (gathK u bt) (sliceRows W1 0 (by omega)) (sliceRows W1 128 (by omega)) (sliceRows W1 256 (by omega))
    (sliceRows W1 320 (by omega)) b1

/-- Batch normalisation as the kernel computes it: `x * scale + shift` from the tiles' sums. -/
def bnK (x : Mat 500000 256) (g be : Row 256) (n eps : EReal) : Mat 500000 256 :=
  affine x (scaleK x g n eps) (shiftOfK x g be n eps)

/-- The kernel's second layer from the first. -/
def h2K (h1 : Mat 500000 256) (g1 be1 : Row 256) (W2 : Mat 256 256) (b2 : Row 256) (n eps : EReal) : Mat 500000 256 :=
  lin2 (relu (bnK h1 g1 be1 n eps)) W2 b2

/-- The kernel's result. -/
def outK (src dst : Mat 500000 128) (ea : Mat 500000 64) (u : Mat 64 64) (W1 : Mat 384 256) (b1 g1 be1 : Row 256)
    (W2 : Mat 256 256) (b2 g2 be2 : Row 256) (bt : Fin 500000 → BitVec 32) (n eps : EReal) : Mat 500000 256 :=
  bnK (h2K (h1K src dst ea u W1 b1 bt) g1 be1 W2 b2 n eps) g2 be2 n eps

/-! ## The reference's pieces -/

/-- The concatenated features. -/
def featsR (src dst : Mat 500000 128) (ea ug : Mat 500000 64) : Mat 500000 384 :=
  fun e k =>
    if h : k.val < 128 then src e ⟨k.val, h⟩
    else if h2 : k.val < 256 then dst e ⟨k.val - 128, by omega⟩
    else if h3 : k.val < 320 then ea e ⟨k.val - 256, by omega⟩
    else ug e ⟨k.val - 320, by have := k.isLt; omega⟩

def lin1R (src dst : Mat 500000 128) (ea ug : Mat 500000 64) (W1 : Mat 384 256) (b1 : Row 256) : Mat 500000 256 :=
  fun e j => (∑ k : Fin 384, featsR src dst ea ug e k * W1 k j) + b1 j

def colSumR (x : Mat 500000 256) : Row 256 := fun j => ∑ e : Fin 500000, x e j

/-- The variance as the mean of the squared deviations. -/
def varR (x : Mat 500000 256) (n : EReal) : Row 256 :=
  fun j => Ideal.div (∑ e : Fin 500000, (x e j - meanOf (colSumR x) n j) * (x e j - meanOf (colSumR x) n j)) n

/-- Batch normalisation as the reference writes it. -/
def bnR (x : Mat 500000 256) (g be : Row 256) (n eps : EReal) : Mat 500000 256 :=
  fun e j => (x e j - meanOf (colSumR x) n j) * scaleOf g (varR x n) eps j + be j

/-- The reference's result, from the gathered features `ug`. -/
def outR (src dst : Mat 500000 128) (ea ug : Mat 500000 64) (W1 : Mat 384 256) (b1 g1 be1 : Row 256)
    (W2 : Mat 256 256) (b2 g2 be2 : Row 256) (n eps : EReal) : Mat 500000 256 :=
  bnR (lin2 (relu (bnR (lin1R src dst ea ug W1 b1) g1 be1 n eps)) W2 b2) g2 be2 n eps

/-! ## Finiteness -/

/-- Every entry of a matrix is a real number. -/
def FinM {a b : Nat} (X : Mat a b) : Prop := ∀ p q, ∃ r : ℝ, X p q = (r : EReal)
/-- Every entry of a row is a real number. -/
def FinR {b : Nat} (X : Row b) : Prop := ∀ q, ∃ r : ℝ, X q = (r : EReal)

/-- The number of edges and the variance's epsilon, as the programs' float words. -/
abbrev nW : EReal := Ideal.ofBits .f32 0x48F42400#32
abbrev epsW : EReal := Ideal.ofBits .f32 0x3727C5AC#32

end Cert.EdgeBN

end
-- ==== Proof.Pay0.lean ====
/-
  The first pass's arithmetic at an index, over a tile's blocks: entry `(r, j)` of the layer's output is the four
  partial products at row `r`, column `j` — the gathered row itself a product of the one-hot row of the graph id with
  `u` — plus the bias; the two statistics rows are the column sums of the output and of its square.
-/
import proofs.«421816_j83562883711137_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay0

open Idealize.ShloMosaic Idealize.ShloMosaic.TcCoe Idealize.ShloMosaic.ValueIdx Idealize.SL.Sem
open Cert.KernelIdeal Cert.KernelIdeal.Gen

/-! ## The products -/

/-! ### The product `[10000, 64] × [64, 64]` into a zero accumulator, read at `(r, j)` -/

/-- The left operand's index keeps the output's row … -/
theorem lhs_gath_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and takes the contraction coordinate as its column. -/
theorem lhs_gath_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's index takes the contraction coordinate as its row … -/
theorem rhs_gath_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and keeps the output's column. -/
theorem rhs_gath_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry `(r, j)` of the product is `∑ k, l (r, k) * w (k, j)`. -/
theorem mm_gath (l : FVec Ideal S10000x64 .f32) (w : FVec Ideal S64x64 .f32) (r : Fin 10000) (j : Fin 64) :
    FloatOps.matmul dot_S10000x64_S64x64_S10000x64_1_0_0_1_n_n (some .fp32) l w (constant (F := Ideal) S10000x64 .f32 0x00000000#32) (ix2 r j)
      = ∑ k : Fin 64, l (ix2 r k) * w (ix2 k j) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_gath_0 _ _
    | ⟨1, _⟩ => exact (lhs_gath_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_gath_0 _ _).trans hk
    | ⟨1, _⟩ => exact rhs_gath_1 _ _)
  rw [el, er]

/-! ### The product `[10000, 128] × [128, 256]` into a zero accumulator, read at `(r, j)` -/

/-- The left operand's index keeps the output's row … -/
theorem lhs_wide_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
/-- … and takes the contraction coordinate as its column. -/
theorem lhs_wide_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
/-- The right operand's index takes the contraction coordinate as its row … -/
theorem rhs_wide_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
/-- … and keeps the output's column. -/
theorem rhs_wide_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- Entry `(r, j)` of the product is `∑ k, l (r, k) * w (k, j)`. -/
theorem mm_wide (l : FVec Ideal S10000x128 .f32) (w : FVec Ideal S128x256 .f32) (r : Fin 10000) (j : Fin 256) :
    FloatOps.matmul dot_S10000x128_S128x256_S10000x256_1_0_0_1_n_n (some .fp32) l w (constant (F := Ideal) S10000x256 .f32 0x00000000#32) (ix2 r j)
      = ∑ k : Fin 128, l (ix2 r k) * w (ix2 k j) := by
  rw [Ideal.matmul_constant_zero_apply, ← Equiv.sum_comp (contrEquiv1 dot_S10000x128_S128x256_S10000x256_1_0_0_1_n_n 128 rfl rfl).symm]
  refine Finset.sum_congr rfl fun k _ => ?_
  have hk := contrEquiv1_symm_val dot_S10000x128_S128x256_S10000x256_1_0_0_1_n_n 128 rfl rfl k
  have el : dot_S10000x128_S128x256_S10000x256_1_0_0_1_n_n.lhsIdx (ix2 r j) ((contrEquiv1 dot_S10000x128_S128x256_S10000x256_1_0_0_1_n_n 128 rfl rfl).symm k) = ix2 r k := funext fun a => Fin.ext (by
    match a with
    | ⟨0, _⟩ => exact lhs_wide_0 _ _
    | ⟨1, _⟩ => exact (lhs_wide_1 _ _).trans hk)
  have er : dot_S10000x128_S128x256_S10000x256_1_0_0_1_n_n.rhsIdx (ix2 r j) ((contrEquiv1 dot_S10000x128_S128x256_S10000x256_1_0_0_1_n_n 128 rfl rfl).symm k) = ix2 k j := funext fun a => Fin.ext (by
    match a with
    | ⟨0, _⟩ => exact (rhs_wide_0 _ _).trans hk
    | ⟨1, _⟩ => exact rhs_wide_1 _ _)
  rw [el, er]

/-! ### The product `[10000, 64] × [64, 256]` into a zero accumulator, read at `(r, j)` -/

/-- The left operand's index keeps the output's row … -/
theorem lhs_narrow_0 (i : S10000x256.Idx) (q : dot_S10000x64_S64x256_S10000x256_1_0_0_1_n_n.contr.Idx) :
    (dot_S10000x64_S64x256_S10000x256_1_0_0_1_n_n.lhsIdx i q 0).val = (i 0).val := by
  unfold DotDims.lhsIdx
  rw [dif_neg (show ¬(0 : Fin S10000x64.rank) ∈ dot_S10000x64_S64x256_S10000x256_1_0_0_1_n_n.lhsBatch by decide), dif_pos (show (0 : Fin S10000x64.rank) ∈ dot_S10000x64_S64x256_S10000x256_1_0_0_1_n_n.lhsNonContracting by decide)]
  rfl
/-- … and takes the contraction coordinate as its column. -/
theorem lhs_narrow_1 (i : S10000x256.Idx) (q : dot_S10000x64_S64x256_S10000x256_1_0_0_1_n_n.contr.Idx) :
    (dot_S10000x64_S64x256_S10000x256_1_0_0_1_n_n.lhsIdx i q 1).val = (q ⟨0, by decide⟩).val :=
  dot_S10000x64_S64x256_S10000x256_1_0_0_1_n_n.lhsIdx_val_of_single rfl i q
/-- The right operand's index takes the contraction coordinate as its row … -/
theorem rhs_narrow_0 (i : S10000x256.Idx) (q : dot_S10000x64_S64x256_S10000x256_1_0_0_1_n_n.contr.Idx) :
    (dot_S10000x64_S64x256_S10000x256_1_0_0_1_n_n.rhsIdx i q 0).val = (q ⟨0, by decide⟩).val :=
  dot_S10000x64_S64x256_S10000x256_1_0_0_1_n_n.rhsIdx_val_of_single rfl i q
/-- … and keeps the output's column. -/
theorem rhs_narrow_1 (i : S10000x256.Idx) (q : dot_S10000x64_S64x256_S10000x256_1_0_0_1_n_n.contr.Idx) :
    (dot_S10000x64_S64x256_S10000x256_1_0_0_1_n_n.rhsIdx i q 1).val = (i 1).val := by
  unfold DotDims.rhsIdx
  rw [dif_neg (show ¬(1 : Fin S64x256.rank) ∈ dot_S10000x64_S64x256_S10000x256_1_0_0_1_n_n.rhsBatch by decide), dif_pos (show (1 : Fin S64x256.rank) ∈ dot_S10000x64_S64x256_S10000x256_1_0_0_1_n_n.rhsNonContracting by decide)]
  rfl

/-- Entry `(r, j)` of the product is `∑ k, l (r, k) * w (k, j)`. -/
theorem mm_narrow (l : FVec Ideal S10000x64 .f32) (w : FVec Ideal S64x256 .f32) (r : Fin 10000) (j : Fin 256) :
    FloatOps.matmul dot_S10000x64_S64x256_S10000x256_1_0_0_1_n_n (some .fp32) l w (constant (F := Ideal) S10000x256 .f32 0x00000000#32) (ix2 r j)
      = ∑ k : Fin 64, l (ix2 r k) * w (ix2 k j) := by
  rw [Ideal.matmul_constant_zero_apply, ← Equiv.sum_comp (contrEquiv1 dot_S10000x64_S64x256_S10000x256_1_0_0_1_n_n 64 rfl rfl).symm]
  refine Finset.sum_congr rfl fun k _ => ?_
  have hk := contrEquiv1_symm_val dot_S10000x64_S64x256_S10000x256_1_0_0_1_n_n 64 rfl rfl k
  have el : dot_S10000x64_S64x256_S10000x256_1_0_0_1_n_n.lhsIdx (ix2 r j) ((contrEquiv1 dot_S10000x64_S64x256_S10000x256_1_0_0_1_n_n 64 rfl rfl).symm k) = ix2 r k := funext fun a => Fin.ext (by
    match a with
    | ⟨0, _⟩ => exact lhs_narrow_0 _ _
    | ⟨1, _⟩ => exact (lhs_narrow_1 _ _).trans hk)
  have er : dot_S10000x64_S64x256_S10000x256_1_0_0_1_n_n.rhsIdx (ix2 r j) ((contrEquiv1 dot_S10000x64_S64x256_S10000x256_1_0_0_1_n_n 64 rfl rfl).symm k) = ix2 k j := funext fun a => Fin.ext (by
    match a with
    | ⟨0, _⟩ => exact (rhs_narrow_0 _ _).trans hk
    | ⟨1, _⟩ => exact rhs_narrow_1 _ _)
  rw [el, er]

/-! ## The one-hot row -/

/-- The test `x = y` on words, widened to 32 bits and read as a signed number, is the indicator of `x = y`. -/
theorem indicator_word (x y : BitVec 32) :
    (FloatOps.sitofp (F := Ideal) .f32 ((IntOp.cmpi .eq x y).setWidth 32) : EReal) = if x = y then 1 else 0 := by
  show (((((BitVec.ofBool (x == y)).setWidth 32).toInt : ℝ)) : EReal) = _
  by_cases h : x = y
  · rw [if_pos h, beq_iff_eq.mpr h]
    show (((((1#1 : BitVec 1).setWidth 32).toInt : ℝ)) : EReal) = 1
    rw [show ((1#1 : BitVec 1).setWidth 32).toInt = 1 by decide]
    simp
  · rw [if_neg h, beq_eq_false_iff_ne.mpr h]
    show (((((0#1 : BitVec 1).setWidth 32).toInt : ℝ)) : EReal) = 0
    rw [show ((0#1 : BitVec 1).setWidth 32).toInt = 0 by decide]
    simp

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(r, b)` of the one-hot row: `1` where row `r`'s graph id is `b`, else `0`. -/
theorem oneHot_entry (v0 : IVec S10000x1 32) (r : Fin 10000) (b : Fin 64) :
    (sitofp (F := Ideal) .f32 (extui 32 (cmpi .eq (broadcastTo S10000x64 v0 broadcasts_S10000x1_S10000x64)
        (iota .tc S10000x64 32 [1] iota_S10000x64_d1_w32)) natLt_1_32) : FVec Ideal S10000x64 .f32) (ix2 r b)
      = if v0 (ix2 r 0) = BitVec.ofNat 32 b.val then (1 : EReal) else 0 := by
  rw [sitofp_apply, extui_apply]
  show FloatOps.sitofp (F := Ideal) .f32 ((IntOp.cmpi .eq (broadcastTo S10000x64 v0 broadcasts_S10000x1_S10000x64 (ix2 r b))
    (iota .tc S10000x64 32 [1] iota_S10000x64_d1_w32 (ix2 r b))).setWidth 32) = _
  rw [broadcastTo_a1_ab_apply, iota_single_apply, indicator_word]

/-- Entry `(r, k)` of the gathered row: the one-hot row of `r`'s graph id times `u`. -/
theorem gath_apply (v0 : IVec S10000x1 32) (v7 : FVec Ideal S64x64 .f32) (r : Fin 10000) (k : Fin 64) :
    FloatOps.matmul dot_S10000x64_S64x64_S10000x64_1_0_0_1_n_n (some .fp32)
        (sitofp (F := Ideal) .f32 (extui 32 (cmpi .eq (broadcastTo S10000x64 v0 broadcasts_S10000x1_S10000x64)
          (iota .tc S10000x64 32 [1] iota_S10000x64_d1_w32)) natLt_1_32) : FVec Ideal S10000x64 .f32)
        v7 (constant (F := Ideal) S10000x64 .f32 0x00000000#32) (ix2 r k)
      = ∑ b : Fin 64, (if v0 (ix2 r 0) = BitVec.ofNat 32 b.val then (1 : EReal) else 0) * v7 (ix2 b k) := by
  rw [mm_gath]
  exact Finset.sum_congr rfl fun b _ => congrArg (· * v7 (ix2 b k)) (oneHot_entry v0 r b)

/-! ## The column sums, laid out `[1, 1, 256]` -/

/-- The sum over the rows of a `[10000, 256]` array, viewed `[1, 1, 256]`, at column `j`. -/
theorem colSum_apply (x : FVec Ideal S10000x256 .f32) (hacc : (0x00000000#32 : BitVec 32) = 0x00000000#32) (j : Fin 256) :
    shapeCast S1x1x256 (shapeCast S1x256
        (multiReduction (F := Ideal) .add [0] S256 x 0x00000000#32 reduces_S10000x256_S256 (.inl rfl) hacc)
        shapeCasts_S256_S1x256) shapeCasts_S1x256_S1x1x256 (ix3 0 0 j)
      = ∑ r : Fin 10000, x (ix2 r j) := by
  rw [shapeCast_apply _ shapeCasts_S1x256_S1x1x256 (ix3 0 0 j) (ix2 0 j)
    (by rw [Shape.rowMajor_val_two, Shape.rowMajor_val_three]; rfl)]
  rw [shapeCast_a_1a_apply]
  refine (Ideal.multiReduction_add_single x 0x00000000#32 reduces_S10000x256_S256 (.inl rfl) hacc (ix1 j)).trans ?_
  refine Finset.sum_congr rfl fun r _ => congrArg x (funext fun a => Fin.ext ?_)
  match a with
  | ⟨0, _⟩ => rfl
  | ⟨1, _⟩ => rfl

/-! ## The payloads -/

/-- The layer's output at `(r, j)`. -/
theorem pay3_apply (v0 : IVec S10000x1 32) (v7 : Vec Ideal S64x64 .f32) (v9 : Vec Ideal S10000x128 .f32)
    (v10 : Vec Ideal S128x256 .f32) (v13 : Vec Ideal S10000x128 .f32) (v14 : Vec Ideal S128x256 .f32)
    (v18 : Vec Ideal S10000x64 .f32) (v19 v23 : Vec Ideal S64x256 .f32) (v27 : Vec Ideal S1x256 .f32)
    (r : Fin 10000) (j : Fin 256) :
    k0_pay3 (F := Ideal) v0 v7 v9 v10 v13 v14 v18 v19 v23 v27 (ix2 r j)
      = ((((∑ k : Fin 128, v9 (ix2 r k) * v10 (ix2 k j)) + ∑ k : Fin 128, v13 (ix2 r k) * v14 (ix2 k j))
            + ∑ k : Fin 64, v18 (ix2 r k) * v19 (ix2 k j))
          + ∑ k : Fin 64, (∑ b : Fin 64, (if v0 (ix2 r 0) = BitVec.ofNat 32 b.val then (1 : EReal) else 0) * v7 (ix2 b k))
              * v23 (ix2 k j))
        + v27 (ix2 0 j) := by
  unfold k0_pay3
  simp only [addf_apply, matmul, shapeCast_self]
  rw [mm_wide, mm_wide, mm_narrow, mm_narrow, broadcastTo_1b_ab_apply]
  exact congrArg (· + v27 (ix2 0 j)) (congrArg (_ + ·)
    (Finset.sum_congr rfl fun k _ => congrArg (· * v23 (ix2 k j)) (gath_apply v0 v7 r k)))

/-- The stored (narrowed) output is the output: a change of format is the identity. -/
theorem pay4_eq (v0 : IVec S10000x1 32) (v7 : Vec Ideal S64x64 .f32) (v9 : Vec Ideal S10000x128 .f32)
    (v10 : Vec Ideal S128x256 .f32) (v13 : Vec Ideal S10000x128 .f32) (v14 : Vec Ideal S128x256 .f32)
    (v18 : Vec Ideal S10000x64 .f32) (v19 v23 : Vec Ideal S64x256 .f32) (v27 : Vec Ideal S1x256 .f32) (i : S10000x256.Idx) :
    k0_pay4 (F := Ideal) v0 v7 v9 v10 v13 v14 v18 v19 v23 v27 i = k0_pay3 (F := Ideal) v0 v7 v9 v10 v13 v14 v18 v19 v23 v27 i := by
  unfold k0_pay4
  exact truncf_apply (k0_pay3 (F := Ideal) v0 v7 v9 v10 v13 v14 v18 v19 v23 v27) bitsLt_bf16_f32 i

/-- The column sums of a tile. -/
theorem pay1_apply (v30 : Vec Ideal S10000x256 .f32) (j : Fin 256) :
    k0_pay1 (F := Ideal) v30 (ix3 0 0 j) = ∑ r : Fin 10000, v30 (ix2 r j) := by
  unfold k0_pay1
  exact colSum_apply v30 rfl j

/-- The column sums of a tile's squares. -/
theorem pay2_apply (v30 : Vec Ideal S10000x256 .f32) (j : Fin 256) :
    k0_pay2 (F := Ideal) v30 (ix3 0 0 j) = ∑ r : Fin 10000, v30 (ix2 r j) * v30 (ix2 r j) := by
  unfold k0_pay2
  exact (colSum_apply (mulf v30 v30) rfl j).trans (Finset.sum_congr rfl fun r _ => mulf_apply v30 v30 (ix2 r j))

end Cert.KernelIdeal.Pay0

end
-- ==== Proof.Region0.lean ====
/-
  The first pass, at any contents `V` of the buffers when it is entered: per tile, the gathered global features as a
  one-hot product, the first layer as four partial products plus the bias, and that tile's column sums of the result
  and of its square.
-/
import proofs.«421816_j83562883711137_2_alg».proof.Proof.Gen.KernelIdeal.Frame
import proofs.«421816_j83562883711137_2_alg».proof.Proof.Forms
import proofs.«421816_j83562883711137_2_alg».proof.Proof.Pay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.EdgeBN
variable (V : (c : Dev nD) → (b : Ref sig .tc) → Buf (Elt Ideal) ((c : Thread nD τ).loc b))

abbrev asrc (c : Dev nD) : Vec Ideal S500000x128 .f32 := V c main_arg0
abbrev adst (c : Dev nD) : Vec Ideal S500000x128 .f32 := V c main_arg1
abbrev aea (c : Dev nD) : Vec Ideal S500000x64 .f32 := V c main_arg2
abbrev abt (c : Dev nD) : IVec S500000x1 32 := V c main_v0
abbrev au (c : Dev nD) : Vec Ideal S64x64 .f32 := V c main_arg3
abbrev aws (c : Dev nD) : Vec Ideal S128x256 .f32 := V c main_v1
abbrev awd (c : Dev nD) : Vec Ideal S128x256 .f32 := V c main_v2
abbrev awe (c : Dev nD) : Vec Ideal S64x256 .f32 := V c main_v3
abbrev awu (c : Dev nD) : Vec Ideal S64x256 .f32 := V c main_v4
abbrev ab1 (c : Dev nD) : Vec Ideal S1x256 .f32 := V c main_v5

/-- The first layer's output as a function of the arrays the pass finds. -/
def h1 (c : Dev nD) : Mat 500000 256 :=
  lin1K (cur2 (asrc V c)) (cur2 (adst V c)) (cur2 (aea V c)) (gathK (cur2 (au V c)) (colI (abt V c)))
    (cur2 (aws V c)) (cur2 (awd V c)) (cur2 (awe V c)) (cur2 (awu V c)) (row (ab1 V c))

/-- A grid point as a tile number: the grid has 50 points. -/
def pt (t : Fin cfg0.N) : Fin 50 := ⟨t.val, t.isLt.trans_eq (show cfg0.N = 50 from N_0)⟩

/-- The row-tiled operands' block index at point `t` is `(t, 0)`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The whole-array operands' block index is `(0, 0)` at every point. -/
theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The results' block index at point `t`: `(t, 0)` for the layer's output, `(t, 0, 0)` for the two statistics. -/
theorem idx_out : ∀ t : Fin cfg0.N,
    (win0_10.index t (0 : Fin 2) = t.val ∧ win0_10.index t (1 : Fin 2) = 0)
    ∧ (win0_11.index t (0 : Fin 3) = t.val ∧ win0_11.index t (1 : Fin 3) = 0 ∧ win0_11.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-! ## The operands' blocks at a point -/

/-- Rows `10000 t … 10000 t + 9999` of the source features. -/
theorem blk0_apply (c : Dev nD) (t : Fin cfg0.N) (r : Fin 10000) (k : Fin 128) :
    (iblk0 (F := Ideal) V c 0 t : Vec Ideal S10000x128 .f32) (ix2 r k)
      = (V c main_arg0 : Vec Ideal S500000x128 .f32) (ix2 (tileRow (pt t) r) k) := by
  obtain ⟨⟨e0, e1⟩, -⟩ := idx_rows t
  unfold iblk0
  rw [View.read_apply]
  show V c main_arg0 _ = V c main_arg0 _
  congr 1
  funext a
  apply Fin.ext
  match a with
  | ⟨0, _⟩ => show win0_0.index t (0 : Fin 2) * 10000 + 1 * r.val = 10000 * t.val + r.val; rw [e0]; omega
  | ⟨1, _⟩ => show win0_0.index t (1 : Fin 2) * 128 + 1 * k.val = k.val; rw [e1]; omega

/-- Rows `10000 t … 10000 t + 9999` of the destination features. -/
theorem blk1_apply (c : Dev nD) (t : Fin cfg0.N) (r : Fin 10000) (k : Fin 128) :
    (iblk0 (F := Ideal) V c 1 t : Vec Ideal S10000x128 .f32) (ix2 r k)
      = (V c main_arg1 : Vec Ideal S500000x128 .f32) (ix2 (tileRow (pt t) r) k) := by
  obtain ⟨-, ⟨e0, e1⟩, -⟩ := idx_rows t
  unfold iblk0
  rw [View.read_apply]
  show V c main_arg1 _ = V c main_arg1 _
  congr 1
  funext a
  apply Fin.ext
  match a with
  | ⟨0, _⟩ => show win0_1.index t (0 : Fin 2) * 10000 + 1 * r.val = 10000 * t.val + r.val; rw [e0]; omega
  | ⟨1, _⟩ => show win0_1.index t (1 : Fin 2) * 128 + 1 * k.val = k.val; rw [e1]; omega

/-- Rows `10000 t … 10000 t + 9999` of the edge attributes. -/
theorem blk2_apply (c : Dev nD) (t : Fin cfg0.N) (r : Fin 10000) (k : Fin 64) :
    (iblk0 (F := Ideal) V c 2 t : Vec Ideal S10000x64 .f32) (ix2 r k)
      = (V c main_arg2 : Vec Ideal S500000x64 .f32) (ix2 (tileRow (pt t) r) k) := by
  obtain ⟨-, -, ⟨e0, e1⟩, -⟩ := idx_rows t
  unfold iblk0
  rw [View.read_apply]
  show V c main_arg2 _ = V c main_arg2 _
  congr 1
  funext a
  apply Fin.ext
  match a with
  | ⟨0, _⟩ => show win0_2.index t (0 : Fin 2) * 10000 + 1 * r.val = 10000 * t.val + r.val; rw [e0]; omega
  | ⟨1, _⟩ => show win0_2.index t (1 : Fin 2) * 64 + 1 * k.val = k.val; rw [e1]; omega

/-- Rows `10000 t … 10000 t + 9999` of the graph ids. -/
theorem blk3_apply (c : Dev nD) (t : Fin cfg0.N) (r : Fin 10000) :
    (iblk0 (F := Ideal) V c 3 t : IVec S10000x1 32) (ix2 r 0)
      = (V c main_v0 : IVec S500000x1 32) (ix2 (tileRow (pt t) r) 0) := by
  obtain ⟨-, -, -, ⟨e0, e1⟩⟩ := idx_rows t
  unfold iblk0
  rw [View.read_apply]
  show V c main_v0 _ = V c main_v0 _
  congr 1
  funext a
  apply Fin.ext
  match a with
  | ⟨0, _⟩ => show win0_3.index t (0 : Fin 2) * 10000 + 1 * r.val = 10000 * t.val + r.val; rw [e0]; omega
  | ⟨1, _⟩ => show win0_3.index t (1 : Fin 2) * 1 + 1 * 0 = 0; rw [e1]

/-- The global features' block is the whole array at every point. -/
theorem blk4_eq (c : Dev nD) (t : Fin cfg0.N) :
    (iblk0 (F := Ideal) V c 4 t : Vec Ideal S64x64 .f32) = (V c main_arg3 : Vec Ideal S64x64 .f32) := by
  obtain ⟨⟨e0, e1⟩, -⟩ := idx_whole t
  funext y
  unfold iblk0
  rw [View.read_apply]
  show V c main_arg3 _ = V c main_arg3 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The first weight block (rows of the source features) is the whole array at every point. -/
theorem blk5_eq (c : Dev nD) (t : Fin cfg0.N) :
    (iblk0 (F := Ideal) V c 5 t : Vec Ideal S128x256 .f32) = (V c main_v1 : Vec Ideal S128x256 .f32) := by
  obtain ⟨-, ⟨e0, e1⟩, -⟩ := idx_whole t
  funext y
  unfold iblk0
  rw [View.read_apply]
  show V c main_v1 _ = V c main_v1 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega

/-- The second weight block is the whole array at every point. -/
theorem blk6_eq (c : Dev nD) (t : Fin cfg0.N) :
    (iblk0 (F := Ideal) V c 6 t : Vec Ideal S128x256 .f32) = (V c main_v2 : Vec Ideal S128x256 .f32) := by
  obtain ⟨-, -, ⟨e0, e1⟩, -⟩ := idx_whole t
  funext y
  unfold iblk0
  rw [View.read_apply]
  show V c main_v2 _ = V c main_v2 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 256 + 1 * (y 1).val = (y 1).val; rw [e1]; omega

/-- The third weight block is the whole array at every point. -/
theorem blk7_eq (c : Dev nD) (t : Fin cfg0.N) :
    (iblk0 (F := Ideal) V c 7 t : Vec Ideal S64x256 .f32) = (V c main_v3 : Vec Ideal S64x256 .f32) := by
  obtain ⟨-, -, -, ⟨e0, e1⟩, -⟩ := idx_whole t
  funext y
  unfold iblk0
  rw [View.read_apply]
  show V c main_v3 _ = V c main_v3 _
  congr 1
  funext a
  apply Fin.ext
  match a with
  | ⟨0, _⟩ => show win0_7.index t (0 : Fin 2) * 64 + 1 * (y 0).val = (y 0).val; rw [e0]; omega
  | ⟨1, _⟩ => show win0_7.index t (1 : Fin 2) * 256 + 1 * (y 1).val = (y 1).val; rw [e1]; omega

/-- The fourth weight block is the whole array at every point. -/
theorem blk8_eq (c : Dev nD) (t : Fin cfg0.N) :
    (iblk0 (F := Ideal) V c 8 t : Vec Ideal S64x256 .f32) = (V c main_v4 : Vec Ideal S64x256 .f32) := by
  obtain ⟨-, -, -, -, ⟨e0, e1⟩, -⟩ := idx_whole t
  funext y
  unfold iblk0
  rw [View.read_apply]
  show V c main_v4 _ = V c main_v4 _
  congr 1
  funext a
  apply Fin.ext
  match a with
  | ⟨0, _⟩ => show win0_8.index t (0 : Fin 2) * 64 + 1 * (y 0).val = (y 0).val; rw [e0]; omega
  | ⟨1, _⟩ => show win0_8.index t (1 : Fin 2) * 256 + 1 * (y 1).val = (y 1).val; rw [e1]; omega

/-- The bias row is the whole array at every point. -/
theorem blk9_eq (c : Dev nD) (t : Fin cfg0.N) :
    (iblk0 (F := Ideal) V c 9 t : Vec Ideal S1x256 .f32) = (V c main_v5 : Vec Ideal S1x256 .f32) := by
  obtain ⟨-, -, -, -, -, ⟨e0, e1⟩⟩ := idx_whole t
  funext y
  unfold iblk0
  rw [View.read_apply]
  show V c main_v5 _ = V c main_v5 _
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 256 + 1 * (y 1).val = (y 1).val; rw [e1]; omega

/-! ## The results' blocks of a whole-array function -/

/-- Tile `t`'s block of a function of (row, column) is the function at the tile's rows. -/
theorem read_blk10 (t : Fin cfg0.N) (H : Mat 500000 256) :
    (((cfg0.win 10).blk t).view.read (Elt Ideal) (fun i => H (i 0) (i 1) : S500000x256.Idx → EReal) : S10000x256.Idx → EReal)
      = fun j => H (tileRow (pt t) (j 0)) (j 1) := by
  obtain ⟨⟨e0, e1⟩, -⟩ := idx_out t
  funext j
  rw [View.read_apply]
  show H _ _ = H _ _
  refine congrArg₂ H (Fin.ext ?_) (Fin.ext ?_)
  · show win0_10.index t (0 : Fin 2) * 10000 + 1 * (j 0).val = 10000 * t.val + (j 0).val; rw [e0]; omega
  · show win0_10.index t (1 : Fin 2) * 256 + 1 * (j 1).val = (j 1).val; rw [e1]; omega

/-- Tile `t`'s block of a function of (tile, column) of the first statistic's array is the function at tile `t`. -/
theorem read_blk11 (t : Fin cfg0.N) (S : Fin 50 → Fin 256 → EReal) :
    (((cfg0.win 11).blk t).view.read (Elt Ideal) (fun i => S (i 0) (i 2) : S50x1x256.Idx → EReal) : S1x1x256.Idx → EReal)
      = fun j => S (pt t) (j 2) := by
  obtain ⟨-, ⟨e0, e1, e2⟩, -⟩ := idx_out t
  funext j
  rw [View.read_apply]
  show S _ _ = S _ _
  refine congrArg₂ S (Fin.ext ?_) (Fin.ext ?_)
  · show win0_11.index t (0 : Fin 3) * 1 + 1 * (j 0).val = t.val
    have hj : (j 0).val < 1 := (j 0).isLt
    rw [e0]; omega
  · show win0_11.index t (2 : Fin 3) * 256 + 1 * (j 2).val = (j 2).val; rw [e2]; omega

/-- The same for the second statistic's array. -/
theorem read_blk12 (t : Fin cfg0.N) (S : Fin 50 → Fin 256 → EReal) :
    (((cfg0.win 12).blk t).view.read (Elt Ideal) (fun i => S (i 0) (i 2) : S50x1x256.Idx → EReal) : S1x1x256.Idx → EReal)
      = fun j => S (pt t) (j 2) := by
  obtain ⟨-, -, ⟨e0, e1, e2⟩⟩ := idx_out t
  funext j
  rw [View.read_apply]
  show S _ _ = S _ _
  refine congrArg₂ S (Fin.ext ?_) (Fin.ext ?_)
  · show win0_12.index t (0 : Fin 3) * 1 + 1 * (j 0).val = t.val
    have hj : (j 0).val < 1 := (j 0).isLt
    rw [e0]; omega
  · show win0_12.index t (2 : Fin 3) * 256 + 1 * (j 2).val = (j 2).val; rw [e2]; omega

/-! ## One tile's arithmetic -/

/-- The layer's output on a tile's blocks, at `(r, q)`, is the layer on the whole arrays at row `r` of the tile. -/
theorem tile_h1 (c : Dev nD) (T : Fin 50)
    (x0 x1 : Vec Ideal S10000x128 .f32) (x2 : Vec Ideal S10000x64 .f32) (x3 : IVec S10000x1 32)
    (x4 : Vec Ideal S64x64 .f32) (x5 x6 : Vec Ideal S128x256 .f32) (x7 x8 : Vec Ideal S64x256 .f32) (x9 : Vec Ideal S1x256 .f32)
    (e0 : ∀ r k, x0 (ix2 r k) = (V c main_arg0 : Vec Ideal S500000x128 .f32) (ix2 (tileRow T r) k))
    (e1 : ∀ r k, x1 (ix2 r k) = (V c main_arg1 : Vec Ideal S500000x128 .f32) (ix2 (tileRow T r) k))
    (e2 : ∀ r k, x2 (ix2 r k) = (V c main_arg2 : Vec Ideal S500000x64 .f32) (ix2 (tileRow T r) k))
    (e3 : ∀ r, x3 (ix2 r 0) = (V c main_v0 : IVec S500000x1 32) (ix2 (tileRow T r) 0))
    (e4 : x4 = (V c main_arg3 : Vec Ideal S64x64 .f32)) (e5 : x5 = (V c main_v1 : Vec Ideal S128x256 .f32))
    (e6 : x6 = (V c main_v2 : Vec Ideal S128x256 .f32)) (e7 : x7 = (V c main_v3 : Vec Ideal S64x256 .f32))
    (e8 : x8 = (V c main_v4 : Vec Ideal S64x256 .f32)) (e9 : x9 = (V c main_v5 : Vec Ideal S1x256 .f32))
    (r : Fin 10000) (q : Fin 256) :
    k0_pay3 (F := Ideal) x3 x4 x0 x5 x1 x6 x2 x7 x8 x9 (ix2 r q) = h1 V c (tileRow T r) q := by
  subst e4 e5 e6 e7 e8 e9
  rw [Pay0.pay3_apply]
  simp only [e0, e1, e2, e3]
  rfl

/-- The stored output of a tile, as a function of the index in the tile. -/
theorem tile_out (c : Dev nD) (T : Fin 50)
    (x0 x1 : Vec Ideal S10000x128 .f32) (x2 : Vec Ideal S10000x64 .f32) (x3 : IVec S10000x1 32)
    (x4 : Vec Ideal S64x64 .f32) (x5 x6 : Vec Ideal S128x256 .f32) (x7 x8 : Vec Ideal S64x256 .f32) (x9 : Vec Ideal S1x256 .f32)
    (e0 : ∀ r k, x0 (ix2 r k) = (V c main_arg0 : Vec Ideal S500000x128 .f32) (ix2 (tileRow T r) k))
    (e1 : ∀ r k, x1 (ix2 r k) = (V c main_arg1 : Vec Ideal S500000x128 .f32) (ix2 (tileRow T r) k))
    (e2 : ∀ r k, x2 (ix2 r k) = (V c main_arg2 : Vec Ideal S500000x64 .f32) (ix2 (tileRow T r) k))
    (e3 : ∀ r, x3 (ix2 r 0) = (V c main_v0 : IVec S500000x1 32) (ix2 (tileRow T r) 0))
    (e4 : x4 = (V c main_arg3 : Vec Ideal S64x64 .f32)) (e5 : x5 = (V c main_v1 : Vec Ideal S128x256 .f32))
    (e6 : x6 = (V c main_v2 : Vec Ideal S128x256 .f32)) (e7 : x7 = (V c main_v3 : Vec Ideal S64x256 .f32))
    (e8 : x8 = (V c main_v4 : Vec Ideal S64x256 .f32)) (e9 : x9 = (V c main_v5 : Vec Ideal S1x256 .f32)) :
    (k0_pay4 (F := Ideal) x3 x4 x0 x5 x1 x6 x2 x7 x8 x9 : S10000x256.Idx → EReal)
      = fun j => h1 V c (tileRow T (j 0)) (j 1) := by
  funext j
  obtain ⟨r, q, rfl⟩ : ∃ (r : Fin 10000) (q : Fin 256), j = ix2 r q := ⟨j 0, j 1, eq_ix2 j⟩
  rw [Pay0.pay4_eq]
  exact tile_h1 V c T x0 x1 x2 x3 x4 x5 x6 x7 x8 x9 e0 e1 e2 e3 e4 e5 e6 e7 e8 e9 r q

/-- The first statistic of a tile: the column sums of the layer's output over the tile's rows. -/
theorem tile_sum (c : Dev nD) (T : Fin 50)
    (x0 x1 : Vec Ideal S10000x128 .f32) (x2 : Vec Ideal S10000x64 .f32) (x3 : IVec S10000x1 32)
    (x4 : Vec Ideal S64x64 .f32) (x5 x6 : Vec Ideal S128x256 .f32) (x7 x8 : Vec Ideal S64x256 .f32) (x9 : Vec Ideal S1x256 .f32)
    (e0 : ∀ r k, x0 (ix2 r k) = (V c main_arg0 : Vec Ideal S500000x128 .f32) (ix2 (tileRow T r) k))
    (e1 : ∀ r k, x1 (ix2 r k) = (V c main_arg1 : Vec Ideal S500000x128 .f32) (ix2 (tileRow T r) k))
    (e2 : ∀ r k, x2 (ix2 r k) = (V c main_arg2 : Vec Ideal S500000x64 .f32) (ix2 (tileRow T r) k))
    (e3 : ∀ r, x3 (ix2 r 0) = (V c main_v0 : IVec S500000x1 32) (ix2 (tileRow T r) 0))
    (e4 : x4 = (V c main_arg3 : Vec Ideal S64x64 .f32)) (e5 : x5 = (V c main_v1 : Vec Ideal S128x256 .f32))
    (e6 : x6 = (V c main_v2 : Vec Ideal S128x256 .f32)) (e7 : x7 = (V c main_v3 : Vec Ideal S64x256 .f32))
    (e8 : x8 = (V c main_v4 : Vec Ideal S64x256 .f32)) (e9 : x9 = (V c main_v5 : Vec Ideal S1x256 .f32)) :
    (k0_pay1 (F := Ideal) (k0_pay3 (F := Ideal) x3 x4 x0 x5 x1 x6 x2 x7 x8 x9) : S1x1x256.Idx → EReal)
      = fun j => tileSum (h1 V c) T (j 2) := by
  funext j
  obtain ⟨a, b, q, rfl⟩ : ∃ (a : Fin 1) (b : Fin 1) (q : Fin 256), j = ix3 a b q := ⟨j 0, j 1, j 2, eq_ix3 j⟩
  obtain rfl : a = 0 := Subsingleton.elim _ _
  obtain rfl : b = 0 := Subsingleton.elim _ _
  rw [Pay0.pay1_apply]
  show _ = tileSum (h1 V c) T q
  unfold tileSum
  exact Finset.sum_congr rfl fun r _ => tile_h1 V c T x0 x1 x2 x3 x4 x5 x6 x7 x8 x9 e0 e1 e2 e3 e4 e5 e6 e7 e8 e9 r q

/-- The second statistic of a tile: the column sums of the squared output over the tile's rows. -/
theorem tile_sumsq (c : Dev nD) (T : Fin 50)
    (x0 x1 : Vec Ideal S10000x128 .f32) (x2 : Vec Ideal S10000x64 .f32) (x3 : IVec S10000x1 32)
    (x4 : Vec Ideal S64x64 .f32) (x5 x6 : Vec Ideal S128x256 .f32) (x7 x8 : Vec Ideal S64x256 .f32) (x9 : Vec Ideal S1x256 .f32)
    (e0 : ∀ r k, x0 (ix2 r k) = (V c main_arg0 : Vec Ideal S500000x128 .f32) (ix2 (tileRow T r) k))
    (e1 : ∀ r k, x1 (ix2 r k) = (V c main_arg1 : Vec Ideal S500000x128 .f32) (ix2 (tileRow T r) k))
    (e2 : ∀ r k, x2 (ix2 r k) = (V c main_arg2 : Vec Ideal S500000x64 .f32) (ix2 (tileRow T r) k))
    (e3 : ∀ r, x3 (ix2 r 0) = (V c main_v0 : IVec S500000x1 32) (ix2 (tileRow T r) 0))
    (e4 : x4 = (V c main_arg3 : Vec Ideal S64x64 .f32)) (e5 : x5 = (V c main_v1 : Vec Ideal S128x256 .f32))
    (e6 : x6 = (V c main_v2 : Vec Ideal S128x256 .f32)) (e7 : x7 = (V c main_v3 : Vec Ideal S64x256 .f32))
    (e8 : x8 = (V c main_v4 : Vec Ideal S64x256 .f32)) (e9 : x9 = (V c main_v5 : Vec Ideal S1x256 .f32)) :
    (k0_pay2 (F := Ideal) (k0_pay3 (F := Ideal) x3 x4 x0 x5 x1 x6 x2 x7 x8 x9) : S1x1x256.Idx → EReal)
      = fun j => tileSum (sq (h1 V c)) T (j 2) := by
  funext j
  obtain ⟨a, b, q, rfl⟩ : ∃ (a : Fin 1) (b : Fin 1) (q : Fin 256), j = ix3 a b q := ⟨j 0, j 1, j 2, eq_ix3 j⟩
  obtain rfl : a = 0 := Subsingleton.elim _ _
  obtain rfl : b = 0 := Subsingleton.elim _ _
  rw [Pay0.pay2_apply]
  show _ = tileSum (sq (h1 V c)) T q
  unfold tileSum EdgeBN.sq
  exact Finset.sum_congr rfl fun r _ => by
    rw [tile_h1 V c T x0 x1 x2 x3 x4 x5 x6 x7 x8 x9 e0 e1 e2 e3 e4 e5 e6 e7 e8 e9 r q]

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back tile `t`'s block of the layer's output. -/
theorem flushed10 (c : Dev nD) (t : Fin cfg0.N) :
    (dat0 (F := Ideal) V c).flushed 10 t
      = ((cfg0.win 10).blk t).view.read (Elt Ideal) (fun i => h1 V c (i 0) (i 1) : S500000x256.Idx → EReal) := by
  show (cfg0.win 10).cut (grid0.coords t) ((dat0 (F := Ideal) V c).after 10 t) = _
  rw [after0_10]
  unfold out0_10
  rw [View.canon_unit_zero hz2]
  simp only [View.ld_unit_zero (S := S10000x128) hz2, View.ld_unit_zero (S := S10000x64) hz2,
    View.ld_unit_zero (S := S10000x1) hz2, View.ld_unit_zero (S := S64x64) hz2, View.ld_unit_zero (S := S128x256) hz2,
    View.ld_unit_zero (S := S64x256) hz2, View.ld_unit_zero (S := S1x256) hz2]
  refine Eq.trans ?_ (read_blk10 t (h1 V c)).symm
  exact tile_out V c (pt t) _ _ _ _ _ _ _ _ _ _ (blk0_apply V c t) (blk1_apply V c t) (blk2_apply V c t) (blk3_apply V c t)
    (blk4_eq V c t) (blk5_eq V c t) (blk6_eq V c t) (blk7_eq V c t) (blk8_eq V c t) (blk9_eq V c t)

/-- Point `t` writes back row `t` of the tiles' column sums. -/
theorem flushed11 (c : Dev nD) (t : Fin cfg0.N) :
    (dat0 (F := Ideal) V c).flushed 11 t
      = ((cfg0.win 11).blk t).view.read (Elt Ideal) (fun i => tileSum (h1 V c) (i 0) (i 2) : S50x1x256.Idx → EReal) := by
  show (cfg0.win 11).cut (grid0.coords t) ((dat0 (F := Ideal) V c).after 11 t) = _
  rw [after0_11]
  unfold out0_11
  rw [View.canon_unit_zero hz3]
  simp only [View.ld_unit_zero (S := S10000x128) hz2, View.ld_unit_zero (S := S10000x64) hz2,
    View.ld_unit_zero (S := S10000x1) hz2, View.ld_unit_zero (S := S64x64) hz2, View.ld_unit_zero (S := S128x256) hz2,
    View.ld_unit_zero (S := S64x256) hz2, View.ld_unit_zero (S := S1x256) hz2]
  refine Eq.trans ?_ (read_blk11 t (tileSum (h1 V c))).symm
  exact tile_sum V c (pt t) _ _ _ _ _ _ _ _ _ _ (blk0_apply V c t) (blk1_apply V c t) (blk2_apply V c t) (blk3_apply V c t)
    (blk4_eq V c t) (blk5_eq V c t) (blk6_eq V c t) (blk7_eq V c t) (blk8_eq V c t) (blk9_eq V c t)

/-- Point `t` writes back row `t` of the tiles' column sums of squares. -/
theorem flushed12 (c : Dev nD) (t : Fin cfg0.N) :
    (dat0 (F := Ideal) V c).flushed 12 t
      = ((cfg0.win 12).blk t).view.read (Elt Ideal) (fun i => tileSum (sq (h1 V c)) (i 0) (i 2) : S50x1x256.Idx → EReal) := by
  show (cfg0.win 12).cut (grid0.coords t) ((dat0 (F := Ideal) V c).after 12 t) = _
  rw [after0_12]
  unfold out0_12
  rw [View.canon_unit_zero hz3]
  simp only [View.ld_unit_zero (S := S10000x128) hz2, View.ld_unit_zero (S := S10000x64) hz2,
    View.ld_unit_zero (S := S10000x1) hz2, View.ld_unit_zero (S := S64x64) hz2, View.ld_unit_zero (S := S128x256) hz2,
    View.ld_unit_zero (S := S64x256) hz2, View.ld_unit_zero (S := S1x256) hz2]
  refine Eq.trans ?_ (read_blk12 t (tileSum (sq (h1 V c)))).symm
  exact tile_sumsq V c (pt t) _ _ _ _ _ _ _ _ _ _ (blk0_apply V c t) (blk1_apply V c t) (blk2_apply V c t) (blk3_apply V c t)
    (blk4_eq V c t) (blk5_eq V c t) (blk6_eq V c t) (blk7_eq V c t) (blk8_eq V c t) (blk9_eq V c t)

/-! ## The blocks cover the arrays -/

/-- An index of the layer's output is in point `t`'s block iff each coordinate is in the block's range. -/
theorem mem_blk10 (t : Fin cfg0.N) (i : S500000x256.Idx) :
    i ∈ ((cfg0.win 10).blk t).view.set ↔ ∀ a : Fin 2, win0_10.index t a * S10000x256.size a ≤ (i a).val
      ∧ (i a).val < win0_10.index t a * S10000x256.size a + S10000x256.size a := by
  show i ∈ ((View.whole main_v7_0).slice (win0_10.rect t)).set ↔ _
  rw [View.set_slice_whole, Rect.mem_set_unit]
  exact Iff.rfl

theorem mem_blk11 (t : Fin cfg0.N) (i : S50x1x256.Idx) :
    i ∈ ((cfg0.win 11).blk t).view.set ↔ ∀ a : Fin 3, win0_11.index t a * S1x1x256.size a ≤ (i a).val
      ∧ (i a).val < win0_11.index t a * S1x1x256.size a + S1x1x256.size a := by
  show i ∈ ((View.whole main_v7_1).slice (win0_11.rect t)).set ↔ _
  rw [View.set_slice_whole, Rect.mem_set_unit]
  exact Iff.rfl

theorem mem_blk12 (t : Fin cfg0.N) (i : S50x1x256.Idx) :
    i ∈ ((cfg0.win 12).blk t).view.set ↔ ∀ a : Fin 3, win0_12.index t a * S1x1x256.size a ≤ (i a).val
      ∧ (i a).val < win0_12.index t a * S1x1x256.size a + S1x1x256.size a := by
  show i ∈ ((View.whole main_v7_2).slice (win0_12.rect t)).set ↔ _
  rw [View.set_slice_whole, Rect.mem_set_unit]
  exact Iff.rfl

/-- Row `e` of the layer's output is written by point `e / 10000`. -/
theorem cover10 (i : S500000x256.Idx) :
    ∃ t : Fin cfg0.N, (cfg0.win 10).flush t = true ∧ i ∈ ((cfg0.win 10).blk t).view.set := by
  have hi0 : (i 0).val < 500000 := (i 0).isLt
  have hi1 : (i 1).val < 256 := (i 1).isLt
  have hN : (i 0).val / 10000 < cfg0.N := by rw [show cfg0.N = 50 from N_0]; omega
  obtain ⟨⟨e0, e1⟩, -⟩ := idx_out ⟨(i 0).val / 10000, hN⟩
  have e0' : win0_10.index ⟨(i 0).val / 10000, hN⟩ (0 : Fin 2) = (i 0).val / 10000 := e0
  refine ⟨⟨(i 0).val / 10000, hN⟩, flush0_10 _, ?_⟩
  rw [mem_blk10]
  intro a
  match a with
  | ⟨0, _⟩ =>
    show win0_10.index _ (0 : Fin 2) * 10000 ≤ (i 0).val ∧ (i 0).val < win0_10.index _ (0 : Fin 2) * 10000 + 10000
    rw [e0']; omega
  | ⟨1, _⟩ =>
    show win0_10.index _ (1 : Fin 2) * 256 ≤ (i 1).val ∧ (i 1).val < win0_10.index _ (1 : Fin 2) * 256 + 256
    rw [e1]; omega

/-- Row `t` of the first statistic's array is written by point `t`. -/
theorem cover11 (i : S50x1x256.Idx) :
    ∃ t : Fin cfg0.N, (cfg0.win 11).flush t = true ∧ i ∈ ((cfg0.win 11).blk t).view.set := by
  have hi0 : (i 0).val < 50 := (i 0).isLt
  have hi1 : (i 1).val < 1 := (i 1).isLt
  have hi2 : (i 2).val < 256 := (i 2).isLt
  have hN : (i 0).val < cfg0.N := by rw [show cfg0.N = 50 from N_0]; omega
  obtain ⟨-, ⟨e0, e1, e2⟩, -⟩ := idx_out ⟨(i 0).val, hN⟩
  have e0' : win0_11.index ⟨(i 0).val, hN⟩ (0 : Fin 3) = (i 0).val := e0
  refine ⟨⟨(i 0).val, hN⟩, flush0_11 _, ?_⟩
  rw [mem_blk11]
  intro a
  match a with
  | ⟨0, _⟩ =>
    show win0_11.index _ (0 : Fin 3) * 1 ≤ (i 0).val ∧ (i 0).val < win0_11.index _ (0 : Fin 3) * 1 + 1
    rw [e0']; omega
  | ⟨1, _⟩ =>
    show win0_11.index _ (1 : Fin 3) * 1 ≤ (i 1).val ∧ (i 1).val < win0_11.index _ (1 : Fin 3) * 1 + 1
    rw [e1]; omega
  | ⟨2, _⟩ =>
    show win0_11.index _ (2 : Fin 3) * 256 ≤ (i 2).val ∧ (i 2).val < win0_11.index _ (2 : Fin 3) * 256 + 256
    rw [e2]; omega

/-- Row `t` of the second statistic's array is written by point `t`. -/
theorem cover12 (i : S50x1x256.Idx) :
    ∃ t : Fin cfg0.N, (cfg0.win 12).flush t = true ∧ i ∈ ((cfg0.win 12).blk t).view.set := by
  have hi0 : (i 0).val < 50 := (i 0).isLt
  have hi1 : (i 1).val < 1 := (i 1).isLt
  have hi2 : (i 2).val < 256 := (i 2).isLt
  have hN : (i 0).val < cfg0.N := by rw [show cfg0.N = 50 from N_0]; omega
  obtain ⟨-, -, ⟨e0, e1, e2⟩⟩ := idx_out ⟨(i 0).val, hN⟩
  have e0' : win0_12.index ⟨(i 0).val, hN⟩ (0 : Fin 3) = (i 0).val := e0
  refine ⟨⟨(i 0).val, hN⟩, flush0_12 _, ?_⟩
  rw [mem_blk12]
  intro a
  match a with
  | ⟨0, _⟩ =>
    show win0_12.index _ (0 : Fin 3) * 1 ≤ (i 0).val ∧ (i 0).val < win0_12.index _ (0 : Fin 3) * 1 + 1
    rw [e0']; omega
  | ⟨1, _⟩ =>
    show win0_12.index _ (1 : Fin 3) * 1 ≤ (i 1).val ∧ (i 1).val < win0_12.index _ (1 : Fin 3) * 1 + 1
    rw [e1]; omega
  | ⟨2, _⟩ =>
    show win0_12.index _ (2 : Fin 3) * 256 ≤ (i 2).val ∧ (i 2).val < win0_12.index _ (2 : Fin 3) * 256 + 256
    rw [e2]; omega

/-! ## The arrays after the pass -/

theorem h1_eq (c : Dev nD) :
    ((dat0 (F := Ideal) V c).arrAt 10 cfg0.N : S500000x256.Idx → EReal) = fun i => h1 V c (i 0) (i 1) :=
  (dat0 (F := Ideal) V c).arrAt_eq_of_cover 10 (fun i => h1 V c (i 0) (i 1)) (fun t _ => flushed10 V c t) cover10

theorem sum_eq (c : Dev nD) :
    ((dat0 (F := Ideal) V c).arrAt 11 cfg0.N : S50x1x256.Idx → EReal) = fun i => tileSum (h1 V c) (i 0) (i 2) :=
  (dat0 (F := Ideal) V c).arrAt_eq_of_cover 11 (fun i => tileSum (h1 V c) (i 0) (i 2)) (fun t _ => flushed11 V c t) cover11

theorem sumsq_eq (c : Dev nD) :
    ((dat0 (F := Ideal) V c).arrAt 12 cfg0.N : S50x1x256.Idx → EReal) = fun i => tileSum (sq (h1 V c)) (i 0) (i 2) :=
  (dat0 (F := Ideal) V c).arrAt_eq_of_cover 12 (fun i => tileSum (sq (h1 V c)) (i 0) (i 2)) (fun t _ => flushed12 V c t) cover12

end Cert.KernelIdeal.Region0

end
-- ==== Proof.Pay12.lean ====
/-
  The second and third passes' arithmetic at an index, over a tile's blocks: the second layer's entry `(r, j)` is the
  product of the normalised, rectified row `r` with column `j` of `W2` plus the bias, and its two statistics rows are column
  sums; the third pass is entrywise `x * scale + shift`.
-/
import proofs.«421816_j83562883711137_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay12

open Idealize.ShloMosaic Idealize.ShloMosaic.TcCoe Idealize.ShloMosaic.ValueIdx Idealize.SL.Sem
open Cert.KernelIdeal Cert.KernelIdeal.Gen

/-! ## The product's operand indices

The product contracts the left operand's axis 1 with the right operand's axis 0; the left operand's axis 0 and the
right operand's axis 1 are the result's two axes. So at the result index `i` and the contraction index `q` the left
operand is read at `(i 0, q)` and the right operand at `(q, i 1)`. -/

theorem lhs_dot_S10000x256_S256x256_S10000x256_1_0_0_1_n_n_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_dot_S10000x256_S256x256_S10000x256_1_0_0_1_n_n_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_dot_S10000x256_S256x256_S10000x256_1_0_0_1_n_n_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_dot_S10000x256_S256x256_S10000x256_1_0_0_1_n_n_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The product into the zero accumulator at `(r, j)`: row `r` of the left operand against column `j` of the right. -/
theorem matmul_zero_apply (x : FVec Ideal S10000x256 .f32) (w : FVec Ideal S256x256 .f32) (r : Fin 10000) (j : Fin 256) :
    matmul dot_S10000x256_S256x256_S10000x256_1_0_0_1_n_n (some .fp32) x w (constant (F := Ideal) S10000x256 .f32 0x00000000#32) (ix2 r j)
      = ∑ k : Fin 256, x (ix2 r k) * w (ix2 k j) := by
  simp only [matmul]
  rw [Ideal.matmul_constant_zero_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 r j) ((ValueIdx.contrEquiv1 dot_S10000x256_S256x256_S10000x256_1_0_0_1_n_n 256 rfl rfl).symm k) = ix2 r k := funext fun a => Fin.ext (by
    match a with
    | ⟨0, _⟩ => exact lhs_dot_S10000x256_S256x256_S10000x256_1_0_0_1_n_n_0 _ _
    | ⟨1, _⟩ => exact (lhs_dot_S10000x256_S256x256_S10000x256_1_0_0_1_n_n_1 _ _).trans hk)
  have er : dot_S10000x256_S256x256_S10000x256_1_0_0_1_n_n.rhsIdx (ix2 r j) ((ValueIdx.contrEquiv1 dot_S10000x256_S256x256_S10000x256_1_0_0_1_n_n 256 rfl rfl).symm k) = ix2 k j := funext fun a => Fin.ext (by
    match a with
    | ⟨0, _⟩ => exact (rhs_dot_S10000x256_S256x256_S10000x256_1_0_0_1_n_n_0 _ _).trans hk
    | ⟨1, _⟩ => exact rhs_dot_S10000x256_S256x256_S10000x256_1_0_0_1_n_n_1 _ _)
  rw [el, er]

/-- The second layer's output at `(r, j)`. -/
theorem k1_pay1_apply (v0 : Vec Ideal S10000x256 .bf16) (v3 v7 : Vec Ideal S1x256 .f32) (v13 : Vec Ideal S256x256 .f32)
    (v15 : Vec Ideal S1x256 .f32) (r : Fin 10000) (j : Fin 256) :
    k1_pay1 (F := Ideal) v0 v3 v7 v13 v15 (ix2 r j)
      = (∑ k : Fin 256, max (v0 (ix2 r k) * v3 (ix2 0 k) + v7 (ix2 0 k)) 0 * v13 (ix2 k j)) + v15 (ix2 0 j) := by
  unfold k1_pay1
  show (addf
      (matmul dot_S10000x256_S256x256_S10000x256_1_0_0_1_n_n (some .fp32)
        (maximumf
          (addf
            (mulf (extf .f32 (shapeCast S10000x256 (v0 : FVec Ideal S10000x256 .bf16) _) _)
              (broadcastTo S10000x256 (shapeCast S1x256 (v3 : FVec Ideal S1x256 .f32) _) _))
            (broadcastTo S10000x256 (shapeCast S1x256 (v7 : FVec Ideal S1x256 .f32) _) _))
          (broadcast S10000x256 (Scalar.ofBits (F := Ideal) .f32 0x00000000#32)))
        (v13 : FVec Ideal S256x256 .f32) (constant (F := Ideal) S10000x256 .f32 0x00000000#32))
      (broadcastTo S10000x256 (shapeCast S1x256 (v15 : FVec Ideal S1x256 .f32) _) _) : FVec Ideal S10000x256 .f32) (ix2 r j) = _
  rw [addf_apply, matmul_zero_apply, broadcastTo_1b_ab_apply]
  simp only [shapeCast_self]
  refine congrArg (· + v15 (ix2 0 j)) (Finset.sum_congr rfl fun k _ => ?_)
  rw [maximumf_apply, addf_apply, mulf_apply, extf_apply, broadcastTo_1b_ab_apply, broadcastTo_1b_ab_apply, broadcast_apply]
  show max _ (Ideal.ofBits .f32 0x00000000#32) * _ = _
  rw [Ideal.ofBits_zero_f32]

/-- The sum over the rows, carried through the two casts that add unit axes, at column `j`. -/
theorem colSum_apply (x : FVec Ideal S10000x256 .f32) (h : S10000x256.Reduces [0] S256) (hφ : FKind.Formats .f32)
    (hacc : (0x00000000#32 : BitVec FTy.f32.bits) = FKind.add.neutral .f32 hφ) (h1 : S256.ShapeCasts S1x256)
    (h2 : S1x256.ShapeCasts S1x1x256) (j : Fin 256) :
    shapeCast S1x1x256 (shapeCast S1x256 (multiReduction (F := Ideal) .add [0] S256 x 0x00000000#32 h hφ hacc) h1) h2 (ix3 0 0 j)
      = ∑ r : Fin 10000, x (ix2 r j) := by
  rw [shapeCast_ab_1ab_apply, shapeCast_a_1a_apply]
  refine (Ideal.multiReduction_add_single x _ h hφ hacc (ix1 j)).trans ?_
  show ∑ r : Fin 10000, x (h.lift (ix1 j) r) = _
  refine Finset.sum_congr rfl fun r _ => congrArg x (funext fun a => Fin.ext ?_)
  match a with
  | ⟨0, _⟩ => rfl
  | ⟨1, _⟩ => rfl

/-- The column sums of a tile of the second layer. -/
theorem k1_pay2_apply (v0 : Vec Ideal S10000x256 .bf16) (v3 v7 : Vec Ideal S1x256 .f32) (v13 : Vec Ideal S256x256 .f32)
    (v15 : Vec Ideal S1x256 .f32) (j : Fin 256) :
    k1_pay2 (F := Ideal) v0 v3 v7 v13 v15 (ix3 0 0 j) = ∑ r : Fin 10000, k1_pay1 (F := Ideal) v0 v3 v7 v13 v15 (ix2 r j) := by
  unfold k1_pay2
  exact colSum_apply (k1_pay1 (F := Ideal) v0 v3 v7 v13 v15) _ _ _ _ _ j

/-- The column sums of a tile's squares. -/
theorem k1_pay3_apply (v0 : Vec Ideal S10000x256 .bf16) (v3 v7 : Vec Ideal S1x256 .f32) (v13 : Vec Ideal S256x256 .f32)
    (v15 : Vec Ideal S1x256 .f32) (j : Fin 256) :
    k1_pay3 (F := Ideal) v0 v3 v7 v13 v15 (ix3 0 0 j)
      = ∑ r : Fin 10000, k1_pay1 (F := Ideal) v0 v3 v7 v13 v15 (ix2 r j) * k1_pay1 (F := Ideal) v0 v3 v7 v13 v15 (ix2 r j) := by
  unfold k1_pay3
  refine (colSum_apply (mulf (k1_pay1 (F := Ideal) v0 v3 v7 v13 v15) (k1_pay1 (F := Ideal) v0 v3 v7 v13 v15)) _ _ _ _ _ j).trans ?_
  exact Finset.sum_congr rfl fun r _ => mulf_apply _ _ _

/-- The third pass at `(r, j)`. -/
theorem k2_pay1_apply (v0 : Vec Ideal S10000x256 .f32) (v2 v6 : Vec Ideal S1x256 .f32) (r : Fin 10000) (j : Fin 256) :
    k2_pay1 (F := Ideal) v0 v2 v6 (ix2 r j) = v0 (ix2 r j) * v2 (ix2 0 j) + v6 (ix2 0 j) := by
  unfold k2_pay1
  show (addf (mulf (shapeCast S10000x256 (v0 : FVec Ideal S10000x256 .f32) _)
        (broadcastTo S10000x256 (shapeCast S1x256 (v2 : FVec Ideal S1x256 .f32) _) _))
      (broadcastTo S10000x256 (shapeCast S1x256 (v6 : FVec Ideal S1x256 .f32) _) _) : FVec Ideal S10000x256 .f32) (ix2 r j) = _
  rw [addf_apply, mulf_apply, broadcastTo_1b_ab_apply, broadcastTo_1b_ab_apply]
  simp only [shapeCast_self]

end Cert.KernelIdeal.Pay12

end
-- ==== Proof.Region1.lean ====
/-
  The second pass, at any contents `V` of the buffers when it is entered: per tile, the normalised and rectified
  first layer times `W2` plus the bias, and that tile's column sums of the result and of its square.
-/
import proofs.«421816_j83562883711137_2_alg».proof.Proof.Gen.KernelIdeal.Frame
import proofs.«421816_j83562883711137_2_alg».proof.Proof.Forms
import proofs.«421816_j83562883711137_2_alg».proof.Proof.Pay12
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.EdgeBN
variable (V : (c : Dev nD) → (b : Ref sig .tc) → Buf (Elt Ideal) ((c : Thread nD τ).loc b))

abbrev xin (c : Dev nD) : Vec Ideal S500000x256 .bf16 := V c main_v7_0
abbrev scl (c : Dev nD) : Vec Ideal S1x256 .f32 := V c main_v20
abbrev sft (c : Dev nD) : Vec Ideal S1x256 .f32 := V c main_v23
abbrev w2 (c : Dev nD) : Vec Ideal S256x256 .f32 := V c main_arg8
abbrev b2r (c : Dev nD) : Vec Ideal S1x256 .f32 := V c main_v6

/-- The second layer's output as a function of the arrays the pass finds. -/
def h2 (c : Dev nD) : Mat 500000 256 :=
  lin2 (relu (affine (cur2 (xin V c)) (row (scl V c)) (row (sft V c)))) (cur2 (w2 V c)) (row (b2r V c))

/-- The zero offsets of a rank-2 and of a rank-3 block. -/
theorem zero2 : (![0, 0] : Fin 2 → Nat) = fun _ => 0 := funext fun a => by fin_cases a <;> rfl
theorem zero3 : (![0, 0, 0] : Fin 3 → Nat) = fun _ => 0 := funext fun a => by fin_cases a <;> rfl

/-! ## The block index maps over the 50 tiles

The first layer's output and the second layer's sit at block row `t`; the scale, shift and bias rows and the weight
matrix at block (0, 0) at every tile; each statistics array at its row `t`. -/

theorem idx_in0 : ∀ t : Fin cfg1.N, win1_0.index t (0 : Fin 2) = t.val ∧ win1_0.index t (1 : Fin 2) = 0 :=
  (by decide +kernel : ∀ t : Fin grid1.N, _)
theorem idx_in1 : ∀ t : Fin cfg1.N, win1_1.index t (0 : Fin 2) = 0 ∧ win1_1.index t (1 : Fin 2) = 0 :=
  (by decide +kernel : ∀ t : Fin grid1.N, _)
theorem idx_in2 : ∀ t : Fin cfg1.N, win1_2.index t (0 : Fin 2) = 0 ∧ win1_2.index t (1 : Fin 2) = 0 :=
  (by decide +kernel : ∀ t : Fin grid1.N, _)
theorem idx_in3 : ∀ t : Fin cfg1.N, win1_3.index t (0 : Fin 2) = 0 ∧ win1_3.index t (1 : Fin 2) = 0 :=
  (by decide +kernel : ∀ t : Fin grid1.N, _)
theorem idx_in4 : ∀ t : Fin cfg1.N, win1_4.index t (0 : Fin 2) = 0 ∧ win1_4.index t (1 : Fin 2) = 0 :=
  (by decide +kernel : ∀ t : Fin grid1.N, _)
theorem idx_out5 : ∀ t : Fin cfg1.N, win1_5.index t (0 : Fin 2) = t.val ∧ win1_5.index t (1 : Fin 2) = 0 :=
  (by decide +kernel : ∀ t : Fin grid1.N, _)
theorem idx_out6 : ∀ t : Fin cfg1.N, win1_6.index t (0 : Fin 3) = t.val ∧ win1_6.index t (1 : Fin 3) = 0
    ∧ win1_6.index t (2 : Fin 3) = 0 :=
  (by decide +kernel : ∀ t : Fin grid1.N, _)
theorem idx_out7 : ∀ t : Fin cfg1.N, win1_7.index t (0 : Fin 3) = t.val ∧ win1_7.index t (1 : Fin 3) = 0
    ∧ win1_7.index t (2 : Fin 3) = 0 :=
  (by decide +kernel : ∀ t : Fin grid1.N, _)

/-! ## The input blocks as entries of the arrays -/

/-- Tile `t`'s block of the first layer: block entry `y` is the array's entry at row `10000 t + y 0`, column `y 1`. -/
theorem xin_blk (c : Dev nD) (t : Fin cfg1.N) (y : S10000x256.Idx) (k : S500000x256.Idx)
    (hk0 : (k 0).val = 10000 * t.val + (y 0).val) (hk1 : (k 1).val = (y 1).val) :
    (iblk1 (F := Ideal) V c 0 t : Vec Ideal S10000x256 .bf16) y = xin V c k := by
  obtain ⟨e0, e1⟩ := idx_in0 t
  unfold iblk1
  rw [View.read_apply]
  show V c main_v7_0 _ = V c main_v7_0 _
  congr 1
  funext a
  apply Fin.ext
  match a with
  | ⟨0, _⟩ => show win1_0.index t (0 : Fin 2) * 10000 + 1 * (y 0).val = (k 0).val; rw [e0, hk0]; omega
  | ⟨1, _⟩ => show win1_0.index t (1 : Fin 2) * 256 + 1 * (y 1).val = (k 1).val; rw [e1, hk1]; omega

/-- The scale row's block at every tile is the row itself. -/
theorem scl_blk (c : Dev nD) (t : Fin cfg1.N) (q : Fin 256) :
    (iblk1 (F := Ideal) V c 1 t : Vec Ideal S1x256 .f32) (ix2 0 q) = scl V c (ix2 0 q) := by
  obtain ⟨e0, e1⟩ := idx_in1 t
  unfold iblk1
  rw [View.read_apply]
  show V c main_v20 _ = V c main_v20 _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

/-- The shift row's block at every tile is the row itself. -/
theorem sft_blk (c : Dev nD) (t : Fin cfg1.N) (q : Fin 256) :
    (iblk1 (F := Ideal) V c 2 t : Vec Ideal S1x256 .f32) (ix2 0 q) = sft V c (ix2 0 q) := by
  obtain ⟨e0, e1⟩ := idx_in2 t
  unfold iblk1
  rw [View.read_apply]
  show V c main_v23 _ = V c main_v23 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- The weight matrix's block at every tile is the matrix itself. -/
theorem w2_blk (c : Dev nD) (t : Fin cfg1.N) (k q : Fin 256) :
    (iblk1 (F := Ideal) V c 3 t : Vec Ideal S256x256 .f32) (ix2 k q) = w2 V c (ix2 k q) := by
  obtain ⟨e0, e1⟩ := idx_in3 t
  unfold iblk1
  rw [View.read_apply]
  show V c main_arg8 _ = V c main_arg8 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias row's block at every tile is the row itself. -/
theorem b2_blk (c : Dev nD) (t : Fin cfg1.N) (q : Fin 256) :
    (iblk1 (F := Ideal) V c 4 t : Vec Ideal S1x256 .f32) (ix2 0 q) = b2r V c (ix2 0 q) := by
  obtain ⟨e0, e1⟩ := idx_in4 t
  unfold iblk1
  rw [View.read_apply]
  show V c main_v6 _ = V c main_v6 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-! ## The second layer, tile by tile -/

/-- The second layer at row `e`, column `q`, from five blocks that hold that row of the first layer, the scale, shift
    and bias rows and the weight matrix. -/
theorem h2_of_blocks (c : Dev nD) (x0 : Vec Ideal S10000x256 .bf16) (x1 x2 : Vec Ideal S1x256 .f32)
    (x3 : Vec Ideal S256x256 .f32) (x4 : Vec Ideal S1x256 .f32) (r : Fin 10000) (e : Fin 500000) (q : Fin 256)
    (h0 : ∀ k : Fin 256, x0 (ix2 r k) = xin V c (ix2 e k))
    (h1 : ∀ k : Fin 256, x1 (ix2 0 k) = scl V c (ix2 0 k))
    (h2' : ∀ k : Fin 256, x2 (ix2 0 k) = sft V c (ix2 0 k))
    (h3 : ∀ k : Fin 256, x3 (ix2 k q) = w2 V c (ix2 k q))
    (h4 : x4 (ix2 0 q) = b2r V c (ix2 0 q)) :
    k1_pay1 (F := Ideal) x0 x1 x2 x3 x4 (ix2 r q) = h2 V c e q := by
  rw [Pay12.k1_pay1_apply, h4]
  show _ = (∑ k : Fin 256, max (xin V c (ix2 e k) * scl V c (ix2 0 k) + sft V c (ix2 0 k)) 0 * w2 V c (ix2 k q))
      + b2r V c (ix2 0 q)
  congr 1
  refine Finset.sum_congr rfl fun k _ => ?_
  rw [h0, h1, h2', h3]

/-- Tile `t`'s second-layer block at entry `y` is the second layer at row `10000 t + y 0`, column `y 1`. -/
theorem pay1_blk (c : Dev nD) (t : Fin cfg1.N) (y : S10000x256.Idx) (k : S500000x256.Idx)
    (hk0 : (k 0).val = 10000 * t.val + (y 0).val) (hk1 : (k 1).val = (y 1).val) :
    k1_pay1 (F := Ideal) (iblk1 V c 0 t) (iblk1 V c 1 t) (iblk1 V c 2 t) (iblk1 V c 3 t) (iblk1 V c 4 t) y
      = h2 V c (k 0) (k 1) := by
  obtain ⟨r, j, rfl⟩ : ∃ (r : Fin 10000) (j : Fin 256), y = ix2 r j := ⟨y 0, y 1, eq_ix2 y⟩
  obtain ⟨e, q, rfl⟩ : ∃ (e : Fin 500000) (q : Fin 256), k = ix2 e q := ⟨k 0, k 1, eq_ix2 k⟩
  obtain rfl : q = j := Fin.ext hk1
  have he : e.val = 10000 * t.val + r.val := hk0
  exact h2_of_blocks V c _ _ _ _ _ r e q
    (fun k => xin_blk V c t (ix2 r k) (ix2 e k) he rfl) (fun k => scl_blk V c t k) (fun k => sft_blk V c t k)
    (fun k => w2_blk V c t k q) (b2_blk V c t q)

/-- The second layer's whole array. -/
def G5 (c : Dev nD) : Vec Ideal S500000x256 .f32 := fun i => h2 V c (i 0) (i 1)

/-- What tile `t` writes back to the second layer's array is block `t` of it. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 (F := Ideal) V c).after 5 t) = _
  rw [after1_5]
  unfold out1_5
  rw [View.canon_unit_zero zero2]
  simp only [View.ld_unit_zero (S := S10000x256) zero2, View.ld_unit_zero (S := S1x256) zero2,
    View.ld_unit_zero (S := S256x256) zero2]
  obtain ⟨e0, e1⟩ := idx_out5 t
  funext y
  show k1_pay1 (F := Ideal) (iblk1 V c 0 t) (iblk1 V c 1 t) (iblk1 V c 2 t) (iblk1 V c 3 t) (iblk1 V c 4 t) y
    = G5 V c (((cfg1.win 5).blk t).view.emb y)
  have hk0 : ((((cfg1.win 5).blk t).view.emb y) 0).val = 10000 * t.val + (y 0).val := by
    show win1_5.index t (0 : Fin 2) * 10000 + 1 * (y 0).val = _
    rw [e0]; omega
  have hk1 : ((((cfg1.win 5).blk t).view.emb y) 1).val = (y 1).val := by
    show win1_5.index t (1 : Fin 2) * 256 + 1 * (y 1).val = _
    rw [e1]; omega
  exact pay1_blk V c t y _ hk0 hk1

/-- An index of the second layer's array is in tile `t`'s block iff each coordinate is in the block's range on its axis. -/
theorem mem_blk5 (t : Fin cfg1.N) (i : S500000x256.Idx) :
    i ∈ ((cfg1.win 5).blk t).view.set ↔ ∀ a : Fin 2, win1_5.index t a * S10000x256.size a ≤ (i a).val
      ∧ (i a).val < win1_5.index t a * S10000x256.size a + S10000x256.size a := by
  show i ∈ ((View.whole main_v24_0).slice (win1_5.rect t)).set ↔ _
  rw [View.set_slice_whole, Rect.mem_set_unit]
  exact Iff.rfl

/-- Row `e` of the second layer's array is written by tile `e / 10000`. -/
theorem cover5 (i : S500000x256.Idx) :
    ∃ t : Fin cfg1.N, (cfg1.win 5).flush t = true ∧ i ∈ ((cfg1.win 5).blk t).view.set := by
  have hi0 : (i 0).val < 500000 := (i 0).isLt
  have hi1 : (i 1).val < 256 := (i 1).isLt
  have hN : cfg1.N = 50 := N_1
  obtain ⟨t, ht⟩ : ∃ t : Fin cfg1.N, t.val = (i 0).val / 10000 := ⟨⟨(i 0).val / 10000, by omega⟩, rfl⟩
  obtain ⟨e0, e1⟩ := idx_out5 t
  refine ⟨t, flush1_5 t, ?_⟩
  rw [mem_blk5]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 256 ≤ (i 1).val ∧ (i 1).val < win1_5.index t (1 : Fin 2) * 256 + 256
    rw [e1]; omega

theorem h2_eq (c : Dev nD) :
    ((dat1 (F := Ideal) V c).arrAt 5 cfg1.N : S500000x256.Idx → EReal) = fun i => h2 V c (i 0) (i 1) :=
  (dat1 (F := Ideal) V c).arrAt_eq_of_cover 5 (G5 V c) (fun t _ => flushed5_eq V c t) cover5

/-! ## The tiles' column sums -/

/-- Tile `t`'s row of column sums at entry `y` is the second layer's column sum over the tile, at column `y 2`. -/
theorem pay2_blk (c : Dev nD) (t : Fin cfg1.N) (y : S1x1x256.Idx) (k : S50x1x256.Idx)
    (hk0 : (k 0).val = t.val) (hk2 : (k 2).val = (y 2).val) :
    k1_pay2 (F := Ideal) (iblk1 V c 0 t) (iblk1 V c 1 t) (iblk1 V c 2 t) (iblk1 V c 3 t) (iblk1 V c 4 t) y
      = tileSum (h2 V c) (k 0) (k 2) := by
  obtain ⟨a, b, j, rfl⟩ : ∃ (a b : Fin 1) (j : Fin 256), y = ix3 a b j := ⟨y 0, y 1, y 2, eq_ix3 y⟩
  obtain rfl : a = 0 := Subsingleton.elim _ _
  obtain rfl : b = 0 := Subsingleton.elim _ _
  obtain ⟨tt, b', q, rfl⟩ : ∃ (tt : Fin 50) (b' : Fin 1) (q : Fin 256), k = ix3 tt b' q := ⟨k 0, k 1, k 2, eq_ix3 k⟩
  obtain rfl : q = j := Fin.ext hk2
  have ht : tt.val = t.val := hk0
  refine (Pay12.k1_pay2_apply _ _ _ _ _ q).trans ?_
  show _ = ∑ r : Fin 10000, h2 V c (tileRow tt r) q
  refine Finset.sum_congr rfl fun r _ => ?_
  exact pay1_blk V c t (ix2 r q) (ix2 (tileRow tt r) q)
    (by show 10000 * tt.val + r.val = 10000 * t.val + r.val; rw [ht]) rfl

/-- Tile `t`'s row of column sums of squares, likewise. -/
theorem pay3_blk (c : Dev nD) (t : Fin cfg1.N) (y : S1x1x256.Idx) (k : S50x1x256.Idx)
    (hk0 : (k 0).val = t.val) (hk2 : (k 2).val = (y 2).val) :
    k1_pay3 (F := Ideal) (iblk1 V c 0 t) (iblk1 V c 1 t) (iblk1 V c 2 t) (iblk1 V c 3 t) (iblk1 V c 4 t) y
      = tileSum (Cert.EdgeBN.sq (h2 V c)) (k 0) (k 2) := by
  obtain ⟨a, b, j, rfl⟩ : ∃ (a b : Fin 1) (j : Fin 256), y = ix3 a b j := ⟨y 0, y 1, y 2, eq_ix3 y⟩
  obtain rfl : a = 0 := Subsingleton.elim _ _
  obtain rfl : b = 0 := Subsingleton.elim _ _
  obtain ⟨tt, b', q, rfl⟩ : ∃ (tt : Fin 50) (b' : Fin 1) (q : Fin 256), k = ix3 tt b' q := ⟨k 0, k 1, k 2, eq_ix3 k⟩
  obtain rfl : q = j := Fin.ext hk2
  have ht : tt.val = t.val := hk0
  refine (Pay12.k1_pay3_apply _ _ _ _ _ q).trans ?_
  show _ = ∑ r : Fin 10000, h2 V c (tileRow tt r) q * h2 V c (tileRow tt r) q
  refine Finset.sum_congr rfl fun r _ => ?_
  have e := pay1_blk V c t (ix2 r q) (ix2 (tileRow tt r) q)
    (by show 10000 * tt.val + r.val = 10000 * t.val + r.val; rw [ht]) rfl
  exact congrArg₂ (· * ·) e e

/-- The tiles' column sums of the second layer, and of its square, as whole arrays. -/
def G6 (c : Dev nD) : Vec Ideal S50x1x256 .f32 := fun i => tileSum (h2 V c) (i 0) (i 2)
def G7 (c : Dev nD) : Vec Ideal S50x1x256 .f32 := fun i => tileSum (Cert.EdgeBN.sq (h2 V c)) (i 0) (i 2)

/-- What tile `t` writes back to the column sums' array is row `t` of it. -/
theorem flushed6_eq (c : Dev nD) (t : Fin cfg1.N) :
    (dat1 (F := Ideal) V c).flushed 6 t = ((cfg1.win 6).blk t).view.read (Elt Ideal) (G6 V c) := by
  show (cfg1.win 6).cut (grid1.coords t) ((dat1 (F := Ideal) V c).after 6 t) = _
  rw [after1_6]
  unfold out1_6
  rw [View.canon_unit_zero zero3]
  simp only [View.ld_unit_zero (S := S10000x256) zero2, View.ld_unit_zero (S := S1x256) zero2,
    View.ld_unit_zero (S := S256x256) zero2]
  obtain ⟨e0, e1, e2⟩ := idx_out6 t
  funext y
  show k1_pay2 (F := Ideal) (iblk1 V c 0 t) (iblk1 V c 1 t) (iblk1 V c 2 t) (iblk1 V c 3 t) (iblk1 V c 4 t) y
    = G6 V c (((cfg1.win 6).blk t).view.emb y)
  have hy0 : (y 0).val < 1 := (y 0).isLt
  have hk0 : ((((cfg1.win 6).blk t).view.emb y) 0).val = t.val := by
    show win1_6.index t (0 : Fin 3) * 1 + 1 * (y 0).val = _
    rw [e0]; omega
  have hk2 : ((((cfg1.win 6).blk t).view.emb y) 2).val = (y 2).val := by
    show win1_6.index t (2 : Fin 3) * 256 + 1 * (y 2).val = _
    rw [e2]; omega
  exact pay2_blk V c t y _ hk0 hk2

/-- An index of the statistics array is in tile `t`'s block iff each coordinate is in the block's range on its axis. -/
theorem mem_blk6 (t : Fin cfg1.N) (i : S50x1x256.Idx) :
    i ∈ ((cfg1.win 6).blk t).view.set ↔ ∀ a : Fin 3, win1_6.index t a * S1x1x256.size a ≤ (i a).val
      ∧ (i a).val < win1_6.index t a * S1x1x256.size a + S1x1x256.size a := by
  show i ∈ ((View.whole main_v24_1).slice (win1_6.rect t)).set ↔ _
  rw [View.set_slice_whole, Rect.mem_set_unit]
  exact Iff.rfl

/-- Row `t` of the statistics array is written by tile `t`. -/
theorem cover6 (i : S50x1x256.Idx) :
    ∃ t : Fin cfg1.N, (cfg1.win 6).flush t = true ∧ i ∈ ((cfg1.win 6).blk t).view.set := by
  have hi0 : (i 0).val < 50 := (i 0).isLt
  have hi1 : (i 1).val < 1 := (i 1).isLt
  have hi2 : (i 2).val < 256 := (i 2).isLt
  have hN : cfg1.N = 50 := N_1
  obtain ⟨t, ht⟩ : ∃ t : Fin cfg1.N, t.val = (i 0).val := ⟨⟨(i 0).val, by omega⟩, rfl⟩
  obtain ⟨e0, e1, e2⟩ := idx_out6 t
  refine ⟨t, flush1_6 t, ?_⟩
  rw [mem_blk6]
  intro a
  match a with
  | ⟨0, _⟩ =>
    show win1_6.index t (0 : Fin 3) * 1 ≤ (i 0).val ∧ (i 0).val < win1_6.index t (0 : Fin 3) * 1 + 1
    rw [e0, ht]; omega
  | ⟨1, _⟩ =>
    show win1_6.index t (1 : Fin 3) * 1 ≤ (i 1).val ∧ (i 1).val < win1_6.index t (1 : Fin 3) * 1 + 1
    rw [e1]; omega
  | ⟨2, _⟩ =>
    show win1_6.index t (2 : Fin 3) * 256 ≤ (i 2).val ∧ (i 2).val < win1_6.index t (2 : Fin 3) * 256 + 256
    rw [e2]; omega

theorem sum_eq (c : Dev nD) :
    ((dat1 (F := Ideal) V c).arrAt 6 cfg1.N : S50x1x256.Idx → EReal) = fun i => tileSum (h2 V c) (i 0) (i 2) :=
  (dat1 (F := Ideal) V c).arrAt_eq_of_cover 6 (G6 V c) (fun t _ => flushed6_eq V c t) cover6

/-- What tile `t` writes back to the squares' column sums' array is row `t` of it. -/
theorem flushed7_eq (c : Dev nD) (t : Fin cfg1.N) :
    (dat1 (F := Ideal) V c).flushed 7 t = ((cfg1.win 7).blk t).view.read (Elt Ideal) (G7 V c) := by
  show (cfg1.win 7).cut (grid1.coords t) ((dat1 (F := Ideal) V c).after 7 t) = _
  rw [after1_7]
  unfold out1_7
  rw [View.canon_unit_zero zero3]
  simp only [View.ld_unit_zero (S := S10000x256) zero2, View.ld_unit_zero (S := S1x256) zero2,
    View.ld_unit_zero (S := S256x256) zero2]
  obtain ⟨e0, e1, e2⟩ := idx_out7 t
  funext y
  show k1_pay3 (F := Ideal) (iblk1 V c 0 t) (iblk1 V c 1 t) (iblk1 V c 2 t) (iblk1 V c 3 t) (iblk1 V c 4 t) y
    = G7 V c (((cfg1.win 7).blk t).view.emb y)
  have hy0 : (y 0).val < 1 := (y 0).isLt
  have hk0 : ((((cfg1.win 7).blk t).view.emb y) 0).val = t.val := by
    show win1_7.index t (0 : Fin 3) * 1 + 1 * (y 0).val = _
    rw [e0]; omega
  have hk2 : ((((cfg1.win 7).blk t).view.emb y) 2).val = (y 2).val := by
    show win1_7.index t (2 : Fin 3) * 256 + 1 * (y 2).val = _
    rw [e2]; omega
  exact pay3_blk V c t y _ hk0 hk2

/-- An index of the statistics array is in tile `t`'s block iff each coordinate is in the block's range on its axis. -/
theorem mem_blk7 (t : Fin cfg1.N) (i : S50x1x256.Idx) :
    i ∈ ((cfg1.win 7).blk t).view.set ↔ ∀ a : Fin 3, win1_7.index t a * S1x1x256.size a ≤ (i a).val
      ∧ (i a).val < win1_7.index t a * S1x1x256.size a + S1x1x256.size a := by
  show i ∈ ((View.whole main_v24_2).slice (win1_7.rect t)).set ↔ _
  rw [View.set_slice_whole, Rect.mem_set_unit]
  exact Iff.rfl

/-- Row `t` of the statistics array is written by tile `t`. -/
theorem cover7 (i : S50x1x256.Idx) :
    ∃ t : Fin cfg1.N, (cfg1.win 7).flush t = true ∧ i ∈ ((cfg1.win 7).blk t).view.set := by
  have hi0 : (i 0).val < 50 := (i 0).isLt
  have hi1 : (i 1).val < 1 := (i 1).isLt
  have hi2 : (i 2).val < 256 := (i 2).isLt
  have hN : cfg1.N = 50 := N_1
  obtain ⟨t, ht⟩ : ∃ t : Fin cfg1.N, t.val = (i 0).val := ⟨⟨(i 0).val, by omega⟩, rfl⟩
  obtain ⟨e0, e1, e2⟩ := idx_out7 t
  refine ⟨t, flush1_7 t, ?_⟩
  rw [mem_blk7]
  intro a
  match a with
  | ⟨0, _⟩ =>
    show win1_7.index t (0 : Fin 3) * 1 ≤ (i 0).val ∧ (i 0).val < win1_7.index t (0 : Fin 3) * 1 + 1
    rw [e0, ht]; omega
  | ⟨1, _⟩ =>
    show win1_7.index t (1 : Fin 3) * 1 ≤ (i 1).val ∧ (i 1).val < win1_7.index t (1 : Fin 3) * 1 + 1
    rw [e1]; omega
  | ⟨2, _⟩ =>
    show win1_7.index t (2 : Fin 3) * 256 ≤ (i 2).val ∧ (i 2).val < win1_7.index t (2 : Fin 3) * 256 + 256
    rw [e2]; omega

theorem sumsq_eq (c : Dev nD) :
    ((dat1 (F := Ideal) V c).arrAt 7 cfg1.N : S50x1x256.Idx → EReal) = fun i => tileSum (sq (h2 V c)) (i 0) (i 2) :=
  (dat1 (F := Ideal) V c).arrAt_eq_of_cover 7 (G7 V c) (fun t _ => flushed7_eq V c t) cover7

end Cert.KernelIdeal.Region1

end
-- ==== Proof.Region2.lean ====
/-
  The third pass, at any contents `V` of the buffers when it is entered: tile `t` of the result is tile `t` of its
  input times the scale row plus the shift row, so the whole result array is `affine` of the input array.
-/
import proofs.«421816_j83562883711137_2_alg».proof.Proof.Gen.KernelIdeal.Frame
import proofs.«421816_j83562883711137_2_alg».proof.Proof.Forms
import proofs.«421816_j83562883711137_2_alg».proof.Proof.Pay12
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.EdgeBN
variable (V : (c : Dev nD) → (b : Ref sig .tc) → Buf (Elt Ideal) ((c : Thread nD τ).loc b))

/-- The input array, the scale row and the shift row as the pass finds them. -/
abbrev xin (c : Dev nD) : Vec Ideal S500000x256 .f32 := V c main_v24_0
abbrev scl (c : Dev nD) : Vec Ideal S1x256 .f32 := V c main_v37
abbrev sft (c : Dev nD) : Vec Ideal S1x256 .f32 := V c main_v40

/-- The zero offset of a rank-2 block. -/
theorem zero2 : (![0, 0] : Fin 2 → Nat) = fun _ => 0 := funext fun a => by fin_cases a <;> rfl

/-- The whole result array: `x * scale + shift`, entry by entry. -/
def G (c : Dev nD) : Vec Ideal S500000x256 .f32 :=
  fun i => affine (cur2 (xin V c)) (row (scl V c)) (row (sft V c)) (i 0) (i 1)

/-- The block index maps over the 50 tiles: the input and the result sit at block row `t`, block column 0;
    the scale and shift rows at block (0, 0) at every tile. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The pass's arithmetic at any block index, the two rows read at their one row. -/
theorem pay_at (x0 : Vec Ideal S10000x256 .f32) (x1 x2 : Vec Ideal S1x256 .f32) (y : S10000x256.Idx) :
    k2_pay1 (F := Ideal) x0 x1 x2 y = x0 y * x1 (ix2 0 (y 1)) + x2 (ix2 0 (y 1)) := by
  obtain ⟨r, j, rfl⟩ : ∃ (r : Fin 10000) (j : Fin 256), y = ix2 r j := ⟨y 0, y 1, eq_ix2 y⟩
  exact Pay12.k2_pay1_apply x0 x1 x2 r j

/-- Tile `t`'s block of the input: block entry `y` is the array's entry at row `10000 t + y 0`, column `y 1`. -/
theorem xin_blk (c : Dev nD) (t : Fin cfg2.N) (y : S10000x256.Idx) (k : S500000x256.Idx)
    (hk0 : (k 0).val = 10000 * t.val + (y 0).val) (hk1 : (k 1).val = (y 1).val) :
    (iblk2 (F := Ideal) V c 0 t : Vec Ideal S10000x256 .f32) y = xin V c k := by
  obtain ⟨e0, e1, -⟩ := idx_facts t
  unfold iblk2
  rw [View.read_apply]
  show V c main_v24_0 _ = V c main_v24_0 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 256 + 1 * (y 1).val = (k 1).val; rw [e1, hk1]; omega

/-- The scale row's block at every tile is the row itself. -/
theorem scl_blk (c : Dev nD) (t : Fin cfg2.N) (q : Fin 256) :
    (iblk2 (F := Ideal) V c 1 t : Vec Ideal S1x256 .f32) (ix2 0 q) = scl V c (ix2 0 q) := by
  obtain ⟨-, -, e2, e3, -⟩ := idx_facts t
  unfold iblk2
  rw [View.read_apply]
  show V c main_v37 _ = V c main_v37 _
  congr 1
  funext a
  apply Fin.ext
  match a with
  | ⟨0, _⟩ => show win2_1.index t (0 : Fin 2) * 1 + 1 * 0 = 0; rw [e2]
  | ⟨1, _⟩ => show win2_1.index t (1 : Fin 2) * 256 + 1 * q.val = q.val; rw [e3]; omega

/-- The shift row's block at every tile is the row itself. -/
theorem sft_blk (c : Dev nD) (t : Fin cfg2.N) (q : Fin 256) :
    (iblk2 (F := Ideal) V c 2 t : Vec Ideal S1x256 .f32) (ix2 0 q) = sft V c (ix2 0 q) := by
  obtain ⟨-, -, -, -, e4, e5, -⟩ := idx_facts t
  unfold iblk2
  rw [View.read_apply]
  show V c main_v40 _ = V c main_v40 _
  congr 1
  funext a
  apply Fin.ext
  match a with
  | ⟨0, _⟩ => show win2_2.index t (0 : Fin 2) * 1 + 1 * 0 = 0; rw [e4]
  | ⟨1, _⟩ => show win2_2.index t (1 : Fin 2) * 256 + 1 * q.val = q.val; rw [e5]; omega

/-- `G` at an index whose column is `q`. -/
theorem G_at (c : Dev nD) (k : S500000x256.Idx) (q : Fin 256) (hq : (k 1).val = q.val) :
    xin V c k * scl V c (ix2 0 q) + sft V c (ix2 0 q) = G V c k := by
  obtain ⟨e, q', rfl⟩ : ∃ (e : Fin 500000) (q' : Fin 256), k = ix2 e q' := ⟨k 0, k 1, eq_ix2 k⟩
  obtain rfl : q' = q := Fin.ext hq
  rfl

/-- What tile `t` writes back is block `t` of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero zero2]
  simp only [View.ld_unit_zero (S := S10000x256) zero2, View.ld_unit_zero (S := S1x256) zero2]
  obtain ⟨-, -, -, -, -, -, e6, e7⟩ := idx_facts t
  funext y
  show k2_pay1 (F := Ideal) (iblk2 V c 0 t) (iblk2 V c 1 t) (iblk2 V c 2 t) y = G V c (((cfg2.win 3).blk t).view.emb y)
  have hk0 : ((((cfg2.win 3).blk t).view.emb y) 0).val = 10000 * t.val + (y 0).val := by
    show win2_3.index t (0 : Fin 2) * 10000 + 1 * (y 0).val = _
    rw [e6]; omega
  have hk1 : ((((cfg2.win 3).blk t).view.emb y) 1).val = (y 1).val := by
    show win2_3.index t (1 : Fin 2) * 256 + 1 * (y 1).val = _
    rw [e7]; omega
  refine (pay_at _ _ _ y).trans ?_
  rw [xin_blk V c t y _ hk0 hk1, scl_blk V c t (y 1), sft_blk V c t (y 1)]
  exact G_at V c _ (y 1) hk1

/-- An index of the result array is in tile `t`'s block iff each coordinate is in the block's range on its axis. -/
theorem mem_blk (t : Fin cfg2.N) (i : S500000x256.Idx) :
    i ∈ ((cfg2.win 3).blk t).view.set ↔ ∀ a : Fin 2, win2_3.index t a * S10000x256.size a ≤ (i a).val
      ∧ (i a).val < win2_3.index t a * S10000x256.size a + S10000x256.size a := by
  show i ∈ ((View.whole main_v41).slice (win2_3.rect t)).set ↔ _
  rw [View.set_slice_whole, Rect.mem_set_unit]
  exact Iff.rfl

/-- Row `e` of the result is written by tile `e / 10000`. -/
theorem cover (i : S500000x256.Idx) :
    ∃ t : Fin cfg2.N, (cfg2.win 3).flush t = true ∧ i ∈ ((cfg2.win 3).blk t).view.set := by
  have hi0 : (i 0).val < 500000 := (i 0).isLt
  have hi1 : (i 1).val < 256 := (i 1).isLt
  have hN : cfg2.N = 50 := N_2
  obtain ⟨t, ht⟩ : ∃ t : Fin cfg2.N, t.val = (i 0).val / 10000 := ⟨⟨(i 0).val / 10000, by omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [e6, ht]; omega
  | ⟨1, _⟩ =>
    show win2_3.index t (1 : Fin 2) * 256 ≤ (i 1).val ∧ (i 1).val < win2_3.index t (1 : Fin 2) * 256 + 256
    rw [e7]; omega

/-- The pass's result array after its 50 tiles. -/
theorem out_eq (c : Dev nD) :
    ((dat2 (F := Ideal) V c).arrAt 3 cfg2.N : S500000x256.Idx → EReal)
      = fun i => affine (cur2 (xin V c)) (row (scl V c)) (row (sft V c)) (i 0) (i 1) :=
  (dat2 (F := Ideal) V c).arrAt_eq_of_cover 3 (G V c) (fun t _ => flushed_eq V c t) cover

end Cert.KernelIdeal.Region2

end
-- ==== Proof.HostGlue.lean ====
/-
  The three stretches of host operations of the kernel's program, each read at an index from ANY buffer contents `W`
  it starts from: the first re-lays the graph ids, the four row blocks of `W1` and the two biases; the second and the
  third turn a layer's per-tile sums into the normalisation's scale and shift rows
  (mean = S / n, var = Q / n - mean², scale = g / sqrt (var + eps), shift = be - mean * scale).
  A buffer no operation of a stretch writes keeps its contents.
-/
import proofs.«421816_j83562883711137_2_alg».proof.Proof.Gen.KernelIdeal.Frame
import proofs.«421816_j83562883711137_2_alg».proof.Proof.Forms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HostGlue

open Idealize.ShloMosaic Idealize.ShloMosaic.TcCoe Idealize.ShloMosaic.ValueIdx Idealize.SL.Sem
open Cert.KernelIdeal Cert.KernelIdeal.Gen Cert.EdgeBN

/-! ## Layout operations read at a coordinate -/

/-- A vector of 256 entries re-laid as a `1 × 256` array and read as a row is the vector. -/
theorem row_reshape (x : Vec Ideal S256 .f32) (h : S256.ShapeCasts S1x256) :
    row (shapeCast S1x256 x h) = cur1 x :=
  funext fun q => shapeCast_a_1a_apply x h 0 q

/-- The ids re-laid as a `500000 × 1` array and read as a column are the ids. -/
theorem colI_reshape (x : IVec S500000 32) (h : S500000.ShapeCasts S500000x1) :
    colI (shapeCast S500000x1 x h) = cur1i x :=
  funext fun p => shapeCast_apply x h (ix2 p 0) (ix1 p) (by
    rw [Shape.rowMajor_val_two, Shape.rowMajor_val_one]
    show p.val = p.val * 1 + 0
    omega)

/-- Rows `o … o + a - 1` cut out of the `384 × 256` weight, entry by entry. -/
theorem cur2_slice {a : Nat} (o : Nat) (X : Vec Ideal S384x256 .f32)
    (h : S384x256.Slices ![o, 0] ⟨2, ![a, 256]⟩) (ho : o + a ≤ 384) :
    cur2 (extractStridedSlice ⟨2, ![a, 256]⟩ ![o, 0] X h) = sliceRows (cur2 X) o ho :=
  funext fun k => funext fun j =>
    slice2_axis0_apply o X h k j ⟨o + k.val, by have := k.isLt; omega⟩ rfl

/-! ## The host's normalisation chain as pure functions of the tiles' sums

The second and the third stretch apply the same operations to different buffers: with `S` the tiles' sums of a layer's
output, `Q` those of its square, `g` and `be` the normalisation's weight and bias,
`mean = (Σ_t S) / n`, `var = (Σ_t Q) / n - mean * mean`, `scale = g / sqrt (var + eps)`, `shift = be - mean * scale`. -/

/-- The tiles' partial sums added up from zero. -/
def sumT (X : FVec Ideal S50x1x256 .f32) : FVec Ideal S1x256 .f32 :=
  Host.reduceAdd (F := Ideal) X (constant (F := Ideal) S_ .f32 0x00000000#32) reducesTo_S50x1x256_S1x256_d0 h_S_

/-- A float word spread over a `1 × 256` array. -/
def splatT (w : BitVec 32) : FVec Ideal S1x256 .f32 :=
  broadcastInDim S1x256 ![] bcast_S_S1x256 (constant (F := Ideal) S_ .f32 w)

/-- The tiles' total divided by the number of edges. -/
def meanT (X : FVec Ideal S50x1x256 .f32) : FVec Ideal S1x256 .f32 :=
  Host.divf (F := Ideal) (sumT X) (splatT 0x48F42400#32)

/-- The mean of squares minus the squared mean. -/
def varT (S Q : FVec Ideal S50x1x256 .f32) : FVec Ideal S1x256 .f32 :=
  subf (meanT Q) (mulf (meanT S) (meanT S))

/-- The weight over the square root of the variance plus epsilon. -/
def scaleT (S Q : FVec Ideal S50x1x256 .f32) (g : FVec Ideal S256 .f32) : FVec Ideal S1x256 .f32 :=
  Host.divf (F := Ideal) (shapeCast S1x256 g shapeCasts_S256_S1x256)
    (Host.sqrt (F := Ideal) (addf (varT S Q) (splatT 0x3727C5AC#32)))

/-- The bias minus the mean times the scale. -/
def shiftT (S Q : FVec Ideal S50x1x256 .f32) (g be : FVec Ideal S256 .f32) : FVec Ideal S1x256 .f32 :=
  subf (shapeCast S1x256 be shapeCasts_S256_S1x256) (mulf (meanT S) (scaleT S Q g))

/-- The host's sum over the tile axis, at column `q`, is the sum over the 50 tiles: the initial word is zero. -/
theorem sumT_apply (X : FVec Ideal S50x1x256 .f32) (q : Fin 256) : sumT X (ix2 0 q) = tiles X q := by
  unfold sumT tiles
  simp only [Host.reduceAdd, Ideal.hostReduceAdd_def]
  rw [Ideal.hostReduceAdd_single reducesTo_S50x1x256_S1x256_d0 (by decide), constant_apply, Ideal.ofBits_zero_f32,
    zero_add]
  refine Finset.sum_congr rfl fun t _ => ?_
  exact congrArg X (funext fun a => Fin.ext (by match a with | ⟨0, _⟩ => rfl | ⟨1, _⟩ => rfl | ⟨2, _⟩ => rfl))

/-- A spread word reads the word's value everywhere. -/
theorem splatT_apply (w : BitVec 32) (i : S1x256.Idx) : splatT w i = Ideal.ofBits .f32 w := by
  unfold splatT
  exact (broadcastInDim_apply _ bcast_S_S1x256 _ i ix0 (fun a => a.elim0)).trans
    (constant_apply (s := S_) (φ := .f32) w ix0)

theorem meanT_row (X : FVec Ideal S50x1x256 .f32) : row (meanT X) = meanOf (tiles X) nW := funext fun q => by
  show Ideal.div (sumT X (ix2 0 q)) (splatT 0x48F42400#32 (ix2 0 q)) = Ideal.div (tiles X q) nW
  rw [sumT_apply, splatT_apply]

theorem varT_row (S Q : FVec Ideal S50x1x256 .f32) : row (varT S Q) = varK (tiles S) (tiles Q) nW := funext fun q => by
  show row (meanT Q) q - row (meanT S) q * row (meanT S) q
    = Ideal.div (tiles Q q) nW - meanOf (tiles S) nW q * meanOf (tiles S) nW q
  rw [meanT_row, meanT_row]; rfl

theorem scaleT_row (S Q : FVec Ideal S50x1x256 .f32) (g : FVec Ideal S256 .f32) :
    row (scaleT S Q g) = scaleOf (cur1 g) (varK (tiles S) (tiles Q) nW) epsW := funext fun q => by
  show Ideal.div (row (shapeCast S1x256 g shapeCasts_S256_S1x256) q)
      (Ideal.sqrt (row (varT S Q) q + splatT 0x3727C5AC#32 (ix2 0 q)))
    = Ideal.div (cur1 g q) (Ideal.sqrt (varK (tiles S) (tiles Q) nW q + epsW))
  rw [row_reshape, varT_row, splatT_apply]

theorem shiftT_row (S Q : FVec Ideal S50x1x256 .f32) (g be : FVec Ideal S256 .f32) :
    row (shiftT S Q g be)
      = shiftK (cur1 be) (meanOf (tiles S) nW) (scaleOf (cur1 g) (varK (tiles S) (tiles Q) nW) epsW) := funext fun q => by
  show row (shapeCast S1x256 be shapeCasts_S256_S1x256) q - row (meanT S) q * row (scaleT S Q g) q
    = cur1 be q - meanOf (tiles S) nW q * scaleOf (cur1 g) (varK (tiles S) (tiles Q) nW) epsW q
  rw [row_reshape, meanT_row, scaleT_row]

variable (W : Valuation τ sig (Elt Ideal))

/-! ## The first stretch -/

theorem ops0_bt : colI (StableHlo.after hostOps0 W (Proc.devRef .tc main_v0) : IVec S500000x1 32)
    = cur1i (W (Proc.devRef .tc main_arg12) : IVec S500000 32) := by
  have e : (StableHlo.after hostOps0 W (Proc.devRef .tc main_v0) : IVec S500000x1 32)
      = shapeCast S500000x1 (W (Proc.devRef .tc main_arg12) : IVec S500000 32) shapeCasts_S500000_S500000x1 := by
    show StableHlo.after hostOps0 W (Proc.devRef .tc main_v0) = _
    after_results; rfl
  rw [e]; exact colI_reshape _ _
theorem ops0_ws : cur2 (StableHlo.after hostOps0 W (Proc.devRef .tc main_v1) : Vec Ideal S128x256 .f32)
    = sliceRows (cur2 (W (Proc.devRef .tc main_arg4) : Vec Ideal S384x256 .f32)) 0 (by omega) := by
  have e : (StableHlo.after hostOps0 W (Proc.devRef .tc main_v1) : Vec Ideal S128x256 .f32)
      = extractStridedSlice S128x256 ![0, 0] (W (Proc.devRef .tc main_arg4) : Vec Ideal S384x256 .f32)
          slices_S384x256_S128x256_0_0 := by
    show StableHlo.after hostOps0 W (Proc.devRef .tc main_v1) = _
    after_results
  rw [e]; exact cur2_slice 0 _ _ _
theorem ops0_wd : cur2 (StableHlo.after hostOps0 W (Proc.devRef .tc main_v2) : Vec Ideal S128x256 .f32)
    = sliceRows (cur2 (W (Proc.devRef .tc main_arg4) : Vec Ideal S384x256 .f32)) 128 (by omega) := by
  have e : (StableHlo.after hostOps0 W (Proc.devRef .tc main_v2) : Vec Ideal S128x256 .f32)
      = extractStridedSlice S128x256 ![128, 0] (W (Proc.devRef .tc main_arg4) : Vec Ideal S384x256 .f32)
          slices_S384x256_S128x256_128_0 := by
    show StableHlo.after hostOps0 W (Proc.devRef .tc main_v2) = _
    after_results
  rw [e]; exact cur2_slice 128 _ _ _
theorem ops0_we : cur2 (StableHlo.after hostOps0 W (Proc.devRef .tc main_v3) : Vec Ideal S64x256 .f32)
    = sliceRows (cur2 (W (Proc.devRef .tc main_arg4) : Vec Ideal S384x256 .f32)) 256 (by omega) := by
  have e : (StableHlo.after hostOps0 W (Proc.devRef .tc main_v3) : Vec Ideal S64x256 .f32)
      = extractStridedSlice S64x256 ![256, 0] (W (Proc.devRef .tc main_arg4) : Vec Ideal S384x256 .f32)
          slices_S384x256_S64x256_256_0 := by
    show StableHlo.after hostOps0 W (Proc.devRef .tc main_v3) = _
    after_results
  rw [e]; exact cur2_slice 256 _ _ _
theorem ops0_wu : cur2 (StableHlo.after hostOps0 W (Proc.devRef .tc main_v4) : Vec Ideal S64x256 .f32)
    = sliceRows (cur2 (W (Proc.devRef .tc main_arg4) : Vec Ideal S384x256 .f32)) 320 (by omega) := by
  have e : (StableHlo.after hostOps0 W (Proc.devRef .tc main_v4) : Vec Ideal S64x256 .f32)
      = extractStridedSlice S64x256 ![320, 0] (W (Proc.devRef .tc main_arg4) : Vec Ideal S384x256 .f32)
          slices_S384x256_S64x256_320_0 := by
    show StableHlo.after hostOps0 W (Proc.devRef .tc main_v4) = _
    after_results
  rw [e]; exact cur2_slice 320 _ _ _
theorem ops0_b1 : row (StableHlo.after hostOps0 W (Proc.devRef .tc main_v5) : Vec Ideal S1x256 .f32)
    = cur1 (W (Proc.devRef .tc main_arg5) : Vec Ideal S256 .f32) := by
  have e : (StableHlo.after hostOps0 W (Proc.devRef .tc main_v5) : Vec Ideal S1x256 .f32)
      = shapeCast S1x256 (W (Proc.devRef .tc main_arg5) : Vec Ideal S256 .f32) shapeCasts_S256_S1x256 := by
    show StableHlo.after hostOps0 W (Proc.devRef .tc main_v5) = _
    after_results; rfl
  rw [e]; exact row_reshape _ _
theorem ops0_b2 : row (StableHlo.after hostOps0 W (Proc.devRef .tc main_v6) : Vec Ideal S1x256 .f32)
    = cur1 (W (Proc.devRef .tc main_arg9) : Vec Ideal S256 .f32) := by
  have e : (StableHlo.after hostOps0 W (Proc.devRef .tc main_v6) : Vec Ideal S1x256 .f32)
      = shapeCast S1x256 (W (Proc.devRef .tc main_arg9) : Vec Ideal S256 .f32) shapeCasts_S256_S1x256 := by
    show StableHlo.after hostOps0 W (Proc.devRef .tc main_v6) = _
    after_results; rfl
  rw [e]; exact row_reshape _ _
/-- The first stretch writes `main_v0 … main_v6` only. -/
theorem ops0_keep (b : Ref sig .tc)
    (hb : b ≠ main_v0 ∧ b ≠ main_v1 ∧ b ≠ main_v2 ∧ b ≠ main_v3 ∧ b ≠ main_v4 ∧ b ≠ main_v5 ∧ b ≠ main_v6) :
    StableHlo.after hostOps0 W (Proc.devRef .tc b) = W (Proc.devRef .tc b) := by
  obtain ⟨h0, h1, h2, h3, h4, h5, h6⟩ := hb
  refine StableHlo.after_of_forall_not_mem (b := Proc.devRef .tc b) _ _ (List.forall_iff_forall_mem.mp ?_)
  simp only [hostOps0, List.Forall, StableHlo.unary_writes, StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6⟩

/-! ## The second stretch: the first normalisation's scale and shift -/

theorem ops1_scale : row (StableHlo.after hostOps1 W (Proc.devRef .tc main_v20) : Vec Ideal S1x256 .f32)
    = scaleOf (cur1 (W (Proc.devRef .tc main_arg6) : Vec Ideal S256 .f32))
        (varK (tiles (W (Proc.devRef .tc main_v7_1) : Vec Ideal S50x1x256 .f32))
          (tiles (W (Proc.devRef .tc main_v7_2) : Vec Ideal S50x1x256 .f32)) nW) epsW := by
  have e : (StableHlo.after hostOps1 W (Proc.devRef .tc main_v20) : Vec Ideal S1x256 .f32)
      = scaleT (W (Proc.devRef .tc main_v7_1)) (W (Proc.devRef .tc main_v7_2)) (W (Proc.devRef .tc main_arg6)) := by
    show StableHlo.after hostOps1 W (Proc.devRef .tc main_v20) = _
    after_results; rfl
  rw [e]; exact scaleT_row _ _ _
theorem ops1_shift : row (StableHlo.after hostOps1 W (Proc.devRef .tc main_v23) : Vec Ideal S1x256 .f32)
    = shiftK (cur1 (W (Proc.devRef .tc main_arg7) : Vec Ideal S256 .f32))
        (meanOf (tiles (W (Proc.devRef .tc main_v7_1) : Vec Ideal S50x1x256 .f32)) nW)
        (scaleOf (cur1 (W (Proc.devRef .tc main_arg6) : Vec Ideal S256 .f32))
          (varK (tiles (W (Proc.devRef .tc main_v7_1) : Vec Ideal S50x1x256 .f32))
            (tiles (W (Proc.devRef .tc main_v7_2) : Vec Ideal S50x1x256 .f32)) nW) epsW) := by
  have e : (StableHlo.after hostOps1 W (Proc.devRef .tc main_v23) : Vec Ideal S1x256 .f32)
      = shiftT (W (Proc.devRef .tc main_v7_1)) (W (Proc.devRef .tc main_v7_2)) (W (Proc.devRef .tc main_arg6))
          (W (Proc.devRef .tc main_arg7)) := by
    show StableHlo.after hostOps1 W (Proc.devRef .tc main_v23) = _
    after_results; rfl
  rw [e]; exact shiftT_row _ _ _ _
/-- The second stretch writes none of the buffers the second pass reads besides its scale and shift, and no argument. -/
theorem ops1_keep (b : Ref sig .tc)
    (hb : b = main_v7_0 ∨ b = main_v6 ∨ b = main_arg8 ∨ b = main_arg10 ∨ b = main_arg11) :
    StableHlo.after hostOps1 W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.reshape_writes, Finset.mem_singleton]
  rcases hb with rfl | rfl | rfl | rfl | rfl <;>
  · repeat' apply And.intro
    all_goals exact StableHlo.devRef_ne_of_ne (by decide)

/-! ## The third stretch: the second normalisation's scale and shift -/

theorem ops2_scale : row (StableHlo.after hostOps2 W (Proc.devRef .tc main_v37) : Vec Ideal S1x256 .f32)
    = scaleOf (cur1 (W (Proc.devRef .tc main_arg10) : Vec Ideal S256 .f32))
        (varK (tiles (W (Proc.devRef .tc main_v24_1) : Vec Ideal S50x1x256 .f32))
          (tiles (W (Proc.devRef .tc main_v24_2) : Vec Ideal S50x1x256 .f32)) nW) epsW := by
  have e : (StableHlo.after hostOps2 W (Proc.devRef .tc main_v37) : Vec Ideal S1x256 .f32)
      = scaleT (W (Proc.devRef .tc main_v24_1)) (W (Proc.devRef .tc main_v24_2)) (W (Proc.devRef .tc main_arg10)) := by
    show StableHlo.after hostOps2 W (Proc.devRef .tc main_v37) = _
    after_results; rfl
  rw [e]; exact scaleT_row _ _ _
theorem ops2_shift : row (StableHlo.after hostOps2 W (Proc.devRef .tc main_v40) : Vec Ideal S1x256 .f32)
    = shiftK (cur1 (W (Proc.devRef .tc main_arg11) : Vec Ideal S256 .f32))
        (meanOf (tiles (W (Proc.devRef .tc main_v24_1) : Vec Ideal S50x1x256 .f32)) nW)
        (scaleOf (cur1 (W (Proc.devRef .tc main_arg10) : Vec Ideal S256 .f32))
          (varK (tiles (W (Proc.devRef .tc main_v24_1) : Vec Ideal S50x1x256 .f32))
            (tiles (W (Proc.devRef .tc main_v24_2) : Vec Ideal S50x1x256 .f32)) nW) epsW) := by
  have e : (StableHlo.after hostOps2 W (Proc.devRef .tc main_v40) : Vec Ideal S1x256 .f32)
      = shiftT (W (Proc.devRef .tc main_v24_1)) (W (Proc.devRef .tc main_v24_2)) (W (Proc.devRef .tc main_arg10))
          (W (Proc.devRef .tc main_arg11)) := by
    show StableHlo.after hostOps2 W (Proc.devRef .tc main_v40) = _
    after_results; rfl
  rw [e]; exact shiftT_row _ _ _ _
theorem ops2_keep (b : Ref sig .tc) (hb : b = main_v24_0) :
    StableHlo.after hostOps2 W (Proc.devRef .tc b) = W (Proc.devRef .tc b) := by
  subst hb
  refine StableHlo.after_of_forall_not_mem (b := Proc.devRef .tc main_v24_0) _ _ (List.forall_iff_forall_mem.mp ?_)
  simp only [hostOps2, List.Forall, StableHlo.nullary_writes, StableHlo.unary_writes, StableHlo.binary_writes,
    StableHlo.reshape_writes, Finset.mem_singleton]
  repeat' apply And.intro
  all_goals exact StableHlo.devRef_ne_of_ne (by decide)

end Cert.KernelIdeal.HostGlue

end
-- ==== Proof.KernelValue.lean ====
/-
  The kernel program's result buffer after the run, read back through the three passes and the host operations
  between them, is `outK` of the argument arrays.

  The run is a fold: the launch memory; the first stretch of host operations; the first pass; the second stretch;
  the second pass; the third stretch; the third pass. Each pass is a function of the buffers it finds, each stretch
  a function of the buffers it starts from, and a buffer nothing writes keeps its contents. Reading the fold from the
  launch forwards gives, in turn, the first layer `h1K`, the second layer `h2K` of it, and the normalisation of that.
-/
import proofs.«421816_j83562883711137_2_alg».proof.Proof.Region0
import proofs.«421816_j83562883711137_2_alg».proof.Proof.Region1
import proofs.«421816_j83562883711137_2_alg».proof.Proof.Region2
import proofs.«421816_j83562883711137_2_alg».proof.Proof.HostGlue

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.EdgeBN Cert.KernelIdeal.HostGlue

variable (m : (ℓ : Loc nD τ sig) → Buf (Elt Ideal) ℓ) (ρ : Dev nD → PrngReg)

/-! ## The argument arrays, curried, and the two layers as functions of them -/

abbrev aSrc (c : Dev nD) : Mat 500000 128 := cur2 (m ((c.tc : Thread nD τ).loc main_arg0) : Vec Ideal S500000x128 .f32)
abbrev aDst (c : Dev nD) : Mat 500000 128 := cur2 (m ((c.tc : Thread nD τ).loc main_arg1) : Vec Ideal S500000x128 .f32)
abbrev aEa (c : Dev nD) : Mat 500000 64 := cur2 (m ((c.tc : Thread nD τ).loc main_arg2) : Vec Ideal S500000x64 .f32)
abbrev aU (c : Dev nD) : Mat 64 64 := cur2 (m ((c.tc : Thread nD τ).loc main_arg3) : Vec Ideal S64x64 .f32)
abbrev aW1 (c : Dev nD) : Mat 384 256 := cur2 (m ((c.tc : Thread nD τ).loc main_arg4) : Vec Ideal S384x256 .f32)
abbrev aB1 (c : Dev nD) : Row 256 := cur1 (m ((c.tc : Thread nD τ).loc main_arg5) : Vec Ideal S256 .f32)
abbrev aG1 (c : Dev nD) : Row 256 := cur1 (m ((c.tc : Thread nD τ).loc main_arg6) : Vec Ideal S256 .f32)
abbrev aBe1 (c : Dev nD) : Row 256 := cur1 (m ((c.tc : Thread nD τ).loc main_arg7) : Vec Ideal S256 .f32)
abbrev aW2 (c : Dev nD) : Mat 256 256 := cur2 (m ((c.tc : Thread nD τ).loc main_arg8) : Vec Ideal S256x256 .f32)
abbrev aB2 (c : Dev nD) : Row 256 := cur1 (m ((c.tc : Thread nD τ).loc main_arg9) : Vec Ideal S256 .f32)
abbrev aG2 (c : Dev nD) : Row 256 := cur1 (m ((c.tc : Thread nD τ).loc main_arg10) : Vec Ideal S256 .f32)
abbrev aBe2 (c : Dev nD) : Row 256 := cur1 (m ((c.tc : Thread nD τ).loc main_arg11) : Vec Ideal S256 .f32)
abbrev aBt (c : Dev nD) : Fin 500000 → BitVec 32 := cur1i (m ((c.tc : Thread nD τ).loc main_arg12) : IVec S500000 32)

/-- The first layer of the launch memory's arguments. -/
def L1 (c : Dev nD) : Mat 500000 256 :=
  h1K (aSrc m c) (aDst m c) (aEa m c) (aU m c) (aW1 m c) (aB1 m c) (aBt m c)

/-- The second layer of the launch memory's arguments. -/
def L2 (c : Dev nD) : Mat 500000 256 :=
  h2K (L1 m c) (aG1 m c) (aBe1 m c) (aW2 m c) (aB2 m c) nW epsW

/-! ## The first stretch and the first pass -/

/-- A buffer the first stretch does not write holds the launch memory's contents when the first pass starts. -/
theorem entry0_keep (c : Dev nD) (b : Ref sig .tc)
    (hb : b ≠ main_v0 ∧ b ≠ main_v1 ∧ b ≠ main_v2 ∧ b ≠ main_v3 ∧ b ≠ main_v4 ∧ b ≠ main_v5 ∧ b ≠ main_v6) :
    W1 m ρ c (Proc.devRef .tc b) = m ((c.tc : Thread nD τ).loc b) :=
  ops0_keep (W0 m ρ c) b hb

/-- The first pass's layer is the first layer of the arguments. -/
theorem first_layer (c : Dev nD) : Region0.h1 (V1 m ρ) c = L1 m c := by
  have a0 : Region0.asrc (V1 m ρ) c = m ((c.tc : Thread nD τ).loc main_arg0) := entry0_keep m ρ c main_arg0 (by decide)
  have a1 : Region0.adst (V1 m ρ) c = m ((c.tc : Thread nD τ).loc main_arg1) := entry0_keep m ρ c main_arg1 (by decide)
  have a2 : Region0.aea (V1 m ρ) c = m ((c.tc : Thread nD τ).loc main_arg2) := entry0_keep m ρ c main_arg2 (by decide)
  have a3 : Region0.au (V1 m ρ) c = m ((c.tc : Thread nD τ).loc main_arg3) := entry0_keep m ρ c main_arg3 (by decide)
  have ebt : colI (Region0.abt (V1 m ρ) c) = aBt m c := ops0_bt (W0 m ρ c)
  have ews : cur2 (Region0.aws (V1 m ρ) c) = sliceRows (aW1 m c) 0 (by omega) := ops0_ws (W0 m ρ c)
  have ewd : cur2 (Region0.awd (V1 m ρ) c) = sliceRows (aW1 m c) 128 (by omega) := ops0_wd (W0 m ρ c)
  have ewe : cur2 (Region0.awe (V1 m ρ) c) = sliceRows (aW1 m c) 256 (by omega) := ops0_we (W0 m ρ c)
  have ewu : cur2 (Region0.awu (V1 m ρ) c) = sliceRows (aW1 m c) 320 (by omega) := ops0_wu (W0 m ρ c)
  have eb1 : row (Region0.ab1 (V1 m ρ) c) = aB1 m c := ops0_b1 (W0 m ρ c)
  unfold Region0.h1 L1 h1K
  rw [a0, a1, a2, a3, ebt, ews, ewd, ewe, ewu, eb1]

/-- The first pass leaves the first layer and, tile by tile, its column sums and those of its square. -/
theorem exit0_layer (c : Dev nD) :
    cur2 (W2 m ρ c (Proc.devRef .tc main_v7_0) : Vec Ideal S500000x256 .bf16) = L1 m c := by
  have e : (W2 m ρ c (Proc.devRef .tc main_v7_0) : S500000x256.Idx → EReal) = fun i => L1 m c (i 0) (i 1) := by
    rw [← first_layer m ρ c]
    exact (W2_arr m ρ c 10).trans (Region0.h1_eq (V1 m ρ) c)
  rw [e]; rfl

theorem exit0_sum (c : Dev nD) :
    tiles (W2 m ρ c (Proc.devRef .tc main_v7_1) : Vec Ideal S50x1x256 .f32) = colSumK (L1 m c) := by
  have e : (W2 m ρ c (Proc.devRef .tc main_v7_1) : S50x1x256.Idx → EReal)
      = fun i => tileSum (L1 m c) (i 0) (i 2) := by
    rw [← first_layer m ρ c]
    exact (W2_arr m ρ c 11).trans (Region0.sum_eq (V1 m ρ) c)
  rw [e]; rfl

theorem exit0_sumsq (c : Dev nD) :
    tiles (W2 m ρ c (Proc.devRef .tc main_v7_2) : Vec Ideal S50x1x256 .f32) = colSumK (sq (L1 m c)) := by
  have e : (W2 m ρ c (Proc.devRef .tc main_v7_2) : S50x1x256.Idx → EReal)
      = fun i => tileSum (sq (L1 m c)) (i 0) (i 2) := by
    rw [← first_layer m ρ c]
    exact (W2_arr m ρ c 12).trans (Region0.sumsq_eq (V1 m ρ) c)
  rw [e]; rfl

/-- A buffer that is no array of the first pass and that the first stretch does not write still holds the launch
    memory's contents after the first pass. -/
theorem exit0_keep (c : Dev nD) (b : Ref sig .tc) (h0 : ∀ w, Pipeline.arrRef spec0 w ≠ b)
    (hb : b ≠ main_v0 ∧ b ≠ main_v1 ∧ b ≠ main_v2 ∧ b ≠ main_v3 ∧ b ≠ main_v4 ∧ b ≠ main_v5 ∧ b ≠ main_v6) :
    W2 m ρ c (Proc.devRef .tc b) = m ((c.tc : Thread nD τ).loc b) :=
  (W2_of_ne m ρ c b h0).trans (entry0_keep m ρ c b hb)

/-! ## The second stretch and the second pass -/

/-- The scale row the second pass finds is the first normalisation's scale. -/
theorem entry1_scale (c : Dev nD) : row (Region1.scl (V3 m ρ) c) = scaleK (L1 m c) (aG1 m c) nW epsW := by
  have h := ops1_scale (W2 m ρ c)
  rw [exit0_keep m ρ c main_arg6 (by decide) (by decide), exit0_sum m ρ c, exit0_sumsq m ρ c] at h
  exact h

/-- The shift row the second pass finds is the first normalisation's shift. -/
theorem entry1_shift (c : Dev nD) :
    row (Region1.sft (V3 m ρ) c) = shiftOfK (L1 m c) (aG1 m c) (aBe1 m c) nW epsW := by
  have h := ops1_shift (W2 m ρ c)
  rw [exit0_keep m ρ c main_arg6 (by decide) (by decide), exit0_keep m ρ c main_arg7 (by decide) (by decide),
    exit0_sum m ρ c, exit0_sumsq m ρ c] at h
  exact h

/-- The second pass's layer is the second layer of the arguments. -/
theorem second_layer (c : Dev nD) : Region1.h2 (V3 m ρ) c = L2 m c := by
  have x : cur2 (Region1.xin (V3 m ρ) c) = L1 m c := by
    have e : Region1.xin (V3 m ρ) c = W2 m ρ c (Proc.devRef .tc main_v7_0) :=
      ops1_keep (W2 m ρ c) main_v7_0 (Or.inl rfl)
    rw [e]; exact exit0_layer m ρ c
  have w : Region1.w2 (V3 m ρ) c = m ((c.tc : Thread nD τ).loc main_arg8) :=
    (ops1_keep (W2 m ρ c) main_arg8 (Or.inr (Or.inr (Or.inl rfl)))).trans
      (exit0_keep m ρ c main_arg8 (by decide) (by decide))
  have b : row (Region1.b2r (V3 m ρ) c) = aB2 m c := by
    have e : Region1.b2r (V3 m ρ) c = W1 m ρ c (Proc.devRef .tc main_v6) :=
      (ops1_keep (W2 m ρ c) main_v6 (Or.inr (Or.inl rfl))).trans (W2_of_ne m ρ c main_v6 (by decide))
    rw [e]; exact ops0_b2 (W0 m ρ c)
  unfold Region1.h2 L2 h2K bnK
  rw [x, entry1_scale m ρ c, entry1_shift m ρ c, w, b]

/-- The second pass leaves the second layer and, tile by tile, its column sums and those of its square. -/
theorem exit1_layer (c : Dev nD) :
    cur2 (W4 m ρ c (Proc.devRef .tc main_v24_0) : Vec Ideal S500000x256 .f32) = L2 m c := by
  have e : (W4 m ρ c (Proc.devRef .tc main_v24_0) : S500000x256.Idx → EReal) = fun i => L2 m c (i 0) (i 1) := by
    rw [← second_layer m ρ c]
    exact (W4_arr m ρ c 5).trans (Region1.h2_eq (V3 m ρ) c)
  rw [e]; rfl

theorem exit1_sum (c : Dev nD) :
    tiles (W4 m ρ c (Proc.devRef .tc main_v24_1) : Vec Ideal S50x1x256 .f32) = colSumK (L2 m c) := by
  have e : (W4 m ρ c (Proc.devRef .tc main_v24_1) : S50x1x256.Idx → EReal)
      = fun i => tileSum (L2 m c) (i 0) (i 2) := by
    rw [← second_layer m ρ c]
    exact (W4_arr m ρ c 6).trans (Region1.sum_eq (V3 m ρ) c)
  rw [e]; rfl

theorem exit1_sumsq (c : Dev nD) :
    tiles (W4 m ρ c (Proc.devRef .tc main_v24_2) : Vec Ideal S50x1x256 .f32) = colSumK (sq (L2 m c)) := by
  have e : (W4 m ρ c (Proc.devRef .tc main_v24_2) : S50x1x256.Idx → EReal)
      = fun i => tileSum (sq (L2 m c)) (i 0) (i 2) := by
    rw [← second_layer m ρ c]
    exact (W4_arr m ρ c 7).trans (Region1.sumsq_eq (V3 m ρ) c)
  rw [e]; rfl

/-- A buffer that is no array of the first two passes and that neither of the first two stretches writes still
    holds the launch memory's contents after the second pass (so the second normalisation's weight and bias do). -/
theorem exit1_keep (c : Dev nD) (b : Ref sig .tc) (h1 : ∀ w, Pipeline.arrRef spec1 w ≠ b)
    (hk : b = main_v7_0 ∨ b = main_v6 ∨ b = main_arg8 ∨ b = main_arg10 ∨ b = main_arg11)
    (h0 : ∀ w, Pipeline.arrRef spec0 w ≠ b)
    (hb : b ≠ main_v0 ∧ b ≠ main_v1 ∧ b ≠ main_v2 ∧ b ≠ main_v3 ∧ b ≠ main_v4 ∧ b ≠ main_v5 ∧ b ≠ main_v6) :
    W4 m ρ c (Proc.devRef .tc b) = m ((c.tc : Thread nD τ).loc b) :=
  (W4_of_ne m ρ c b h1).trans ((ops1_keep (W2 m ρ c) b hk).trans (exit0_keep m ρ c b h0 hb))

/-! ## The third stretch and the third pass -/

/-- The scale row the third pass finds is the second normalisation's scale. -/
theorem entry2_scale (c : Dev nD) : row (Region2.scl (V5 m ρ) c) = scaleK (L2 m c) (aG2 m c) nW epsW := by
  have h := ops2_scale (W4 m ρ c)
  rw [exit1_keep m ρ c main_arg10 (by decide) (Or.inr (Or.inr (Or.inr (Or.inl rfl)))) (by decide) (by decide),
    exit1_sum m ρ c, exit1_sumsq m ρ c] at h
  exact h

/-- The shift row the third pass finds is the second normalisation's shift. -/
theorem entry2_shift (c : Dev nD) :
    row (Region2.sft (V5 m ρ) c) = shiftOfK (L2 m c) (aG2 m c) (aBe2 m c) nW epsW := by
  have h := ops2_shift (W4 m ρ c)
  rw [exit1_keep m ρ c main_arg10 (by decide) (Or.inr (Or.inr (Or.inr (Or.inl rfl)))) (by decide) (by decide),
    exit1_keep m ρ c main_arg11 (by decide) (Or.inr (Or.inr (Or.inr (Or.inr rfl)))) (by decide) (by decide),
    exit1_sum m ρ c, exit1_sumsq m ρ c] at h
  exact h

/-- The array the third pass reads is the second layer. -/
theorem entry2_layer (c : Dev nD) : cur2 (Region2.xin (V5 m ρ) c) = L2 m c := by
  have e : Region2.xin (V5 m ρ) c = W4 m ρ c (Proc.devRef .tc main_v24_0) :=
    ops2_keep (W4 m ρ c) main_v24_0 rfl
  rw [e]; exact exit1_layer m ρ c

/-- The result array as the last pass leaves it, from the launch memory. -/
theorem result (c : Dev nD) :
    (W6 m ρ c (Proc.devRef .tc main_v41) : S500000x256.Idx → EReal)
      = fun i => outK
          (cur2 (m ((c.tc : Thread nD τ).loc main_arg0) : Vec Ideal S500000x128 .f32))
          (cur2 (m ((c.tc : Thread nD τ).loc main_arg1) : Vec Ideal S500000x128 .f32))
          (cur2 (m ((c.tc : Thread nD τ).loc main_arg2) : Vec Ideal S500000x64 .f32))
          (cur2 (m ((c.tc : Thread nD τ).loc main_arg3) : Vec Ideal S64x64 .f32))
          (cur2 (m ((c.tc : Thread nD τ).loc main_arg4) : Vec Ideal S384x256 .f32))
          (cur1 (m ((c.tc : Thread nD τ).loc main_arg5) : Vec Ideal S256 .f32))
          (cur1 (m ((c.tc : Thread nD τ).loc main_arg6) : Vec Ideal S256 .f32))
          (cur1 (m ((c.tc : Thread nD τ).loc main_arg7) : Vec Ideal S256 .f32))
          (cur2 (m ((c.tc : Thread nD τ).loc main_arg8) : Vec Ideal S256x256 .f32))
          (cur1 (m ((c.tc : Thread nD τ).loc main_arg9) : Vec Ideal S256 .f32))
          (cur1 (m ((c.tc : Thread nD τ).loc main_arg10) : Vec Ideal S256 .f32))
          (cur1 (m ((c.tc : Thread nD τ).loc main_arg11) : Vec Ideal S256 .f32))
          (cur1i (m ((c.tc : Thread nD τ).loc main_arg12) : IVec S500000 32))
          nW epsW (i 0) (i 1) := by
  have h := (W6_arr m ρ c 3).trans (Region2.out_eq (V5 m ρ) c)
  rw [entry2_layer m ρ c, entry2_scale m ρ c, entry2_shift m ρ c] at h
  exact h

end Cert.KernelIdeal.KernelValue

end
-- ==== Proof.RefValue.lean ====
/-
  The reference's result, read off its run one operation at a time, is `outR` of the argument arrays, with the
  gathered features `gathR`: row `graph e` of `u` when the graph id is in range.

  Each operation is read at an index: a broadcast at the coordinate it copies, a column sum as the sum over the edges,
  a product with a weight matrix as the sum over the contracted coordinate, the concatenation as the piece whose span
  of columns holds the coordinate, and the gather as the row its start index names. The stages then compose to `outR`.
-/
import proofs.«421816_j83562883711137_2_alg».proof.Proof.Gen.ReferenceIdeal.Run
import proofs.«421816_j83562883711137_2_alg».proof.Proof.Gen.ReferenceIdeal.Read
import proofs.«421816_j83562883711137_2_alg».proof.Proof.Forms
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.EdgeBN

/-! ## The index maps of the broadcasts, sums and products at explicit coordinates -/

theorem idx_v10 (e : Fin 500000) (j : Fin 256) : Read.idx_main_v10 (ix2 e j) = ix2 (0 : Fin 1) j :=
  funext fun a => Fin.ext (by match a with | ⟨0, _⟩ => rfl | ⟨1, _⟩ => rfl)
theorem idx_v16 (e : Fin 500000) (j : Fin 256) : Read.idx_main_v16 (ix2 e j) = ix2 (0 : Fin 1) j :=
  funext fun a => Fin.ext (by match a with | ⟨0, _⟩ => rfl | ⟨1, _⟩ => rfl)
theorem idx_v23 (e : Fin 500000) (j : Fin 256) : Read.idx_main_v23 (ix2 e j) = ix2 (0 : Fin 1) j :=
  funext fun a => Fin.ext (by match a with | ⟨0, _⟩ => rfl | ⟨1, _⟩ => rfl)
theorem idx_v30 (e : Fin 500000) (j : Fin 256) : Read.idx_main_v30 (ix2 e j) = ix2 (0 : Fin 1) j :=
  funext fun a => Fin.ext (by match a with | ⟨0, _⟩ => rfl | ⟨1, _⟩ => rfl)
theorem idx_v33 (e : Fin 500000) (j : Fin 256) : Read.idx_main_v33 (ix2 e j) = ix2 (0 : Fin 1) j :=
  funext fun a => Fin.ext (by match a with | ⟨0, _⟩ => rfl | ⟨1, _⟩ => rfl)
theorem idx_v38 (e : Fin 500000) (j : Fin 256) : Read.idx_main_v38 (ix2 e j) = ix2 (0 : Fin 1) j :=
  funext fun a => Fin.ext (by match a with | ⟨0, _⟩ => rfl | ⟨1, _⟩ => rfl)
theorem idx_v44 (e : Fin 500000) (j : Fin 256) : Read.idx_main_v44 (ix2 e j) = ix2 (0 : Fin 1) j :=
  funext fun a => Fin.ext (by match a with | ⟨0, _⟩ => rfl | ⟨1, _⟩ => rfl)
theorem idx_v51 (e : Fin 500000) (j : Fin 256) : Read.idx_main_v51 (ix2 e j) = ix2 (0 : Fin 1) j :=
  funext fun a => Fin.ext (by match a with | ⟨0, _⟩ => rfl | ⟨1, _⟩ => rfl)
theorem idx_v58 (e : Fin 500000) (j : Fin 256) : Read.idx_main_v58 (ix2 e j) = ix2 (0 : Fin 1) j :=
  funext fun a => Fin.ext (by match a with | ⟨0, _⟩ => rfl | ⟨1, _⟩ => rfl)
theorem idx_v61 (e : Fin 500000) (j : Fin 256) : Read.idx_main_v61 (ix2 e j) = ix2 (0 : Fin 1) j :=
  funext fun a => Fin.ext (by match a with | ⟨0, _⟩ => rfl | ⟨1, _⟩ => rfl)
theorem idx_v9 (z : Fin 1) (j : Fin 256) : Read.idx_main_v9 (ix2 z j) = ix1 j :=
  funext fun a => Fin.ext (by match a with | ⟨0, _⟩ => rfl)
theorem idx_v15 (z : Fin 1) (j : Fin 256) : Read.idx_main_v15 (ix2 z j) = ix1 j :=
  funext fun a => Fin.ext (by match a with | ⟨0, _⟩ => rfl)
theorem idx_v22 (z : Fin 1) (j : Fin 256) : Read.idx_main_v22 (ix2 z j) = ix1 j :=
  funext fun a => Fin.ext (by match a with | ⟨0, _⟩ => rfl)
theorem idx_v29 (z : Fin 1) (j : Fin 256) : Read.idx_main_v29 (ix2 z j) = ix1 j :=
  funext fun a => Fin.ext (by match a with | ⟨0, _⟩ => rfl)
theorem idx_v32 (z : Fin 1) (j : Fin 256) : Read.idx_main_v32 (ix2 z j) = ix1 j :=
  funext fun a => Fin.ext (by match a with | ⟨0, _⟩ => rfl)
theorem idx_v37 (z : Fin 1) (j : Fin 256) : Read.idx_main_v37 (ix2 z j) = ix1 j :=
  funext fun a => Fin.ext (by match a with | ⟨0, _⟩ => rfl)
theorem idx_v43 (z : Fin 1) (j : Fin 256) : Read.idx_main_v43 (ix2 z j) = ix1 j :=
  funext fun a => Fin.ext (by match a with | ⟨0, _⟩ => rfl)
theorem idx_v50 (z : Fin 1) (j : Fin 256) : Read.idx_main_v50 (ix2 z j) = ix1 j :=
  funext fun a => Fin.ext (by match a with | ⟨0, _⟩ => rfl)
theorem idx_v57 (z : Fin 1) (j : Fin 256) : Read.idx_main_v57 (ix2 z j) = ix1 j :=
  funext fun a => Fin.ext (by match a with | ⟨0, _⟩ => rfl)
theorem idx_v60 (z : Fin 1) (j : Fin 256) : Read.idx_main_v60 (ix2 z j) = ix1 j :=
  funext fun a => Fin.ext (by match a with | ⟨0, _⟩ => rfl)
theorem idx_v12 (j : Fin 256) (k : Fin 500000) : Read.idx_main_v12 (ix1 j) k = ix2 k j :=
  funext fun a => Fin.ext (by match a with | ⟨0, _⟩ => rfl | ⟨1, _⟩ => rfl)
theorem idx_v19 (j : Fin 256) (k : Fin 500000) : Read.idx_main_v19 (ix1 j) k = ix2 k j :=
  funext fun a => Fin.ext (by match a with | ⟨0, _⟩ => rfl | ⟨1, _⟩ => rfl)
theorem idx_v40 (j : Fin 256) (k : Fin 500000) : Read.idx_main_v40 (ix1 j) k = ix2 k j :=
  funext fun a => Fin.ext (by match a with | ⟨0, _⟩ => rfl | ⟨1, _⟩ => rfl)
theorem idx_v47 (j : Fin 256) (k : Fin 500000) : Read.idx_main_v47 (ix1 j) k = ix2 k j :=
  funext fun a => Fin.ext (by match a with | ⟨0, _⟩ => rfl | ⟨1, _⟩ => rfl)
theorem lidx_v8 (e : Fin 500000) (j : Fin 256) (k : Fin 384) : Read.lidx_main_v8 (ix2 e j) k = ix2 e k :=
  funext fun a => Fin.ext (by match a with | ⟨0, _⟩ => rfl | ⟨1, _⟩ => rfl)
theorem ridx_v8 (e : Fin 500000) (j : Fin 256) (k : Fin 384) : Read.ridx_main_v8 (ix2 e j) k = ix2 k j :=
  funext fun a => Fin.ext (by match a with | ⟨0, _⟩ => rfl | ⟨1, _⟩ => rfl)
theorem lidx_v36 (e : Fin 500000) (j : Fin 256) (k : Fin 256) : Read.lidx_main_v36 (ix2 e j) k = ix2 e k :=
  funext fun a => Fin.ext (by match a with | ⟨0, _⟩ => rfl | ⟨1, _⟩ => rfl)
theorem ridx_v36 (e : Fin 500000) (j : Fin 256) (k : Fin 256) : Read.ridx_main_v36 (ix2 e j) k = ix2 k j :=
  funext fun a => Fin.ext (by match a with | ⟨0, _⟩ => rfl | ⟨1, _⟩ => rfl)
theorem idx_v5 (e : Fin 500000) (z : Fin 1) : Read.idx_main_v5 (ix2 e z) = ix1 e :=
  funext fun a => Fin.ext (by match a with | ⟨0, _⟩ => rfl)

/-! ## The gather -/

/-- A take of rows: the gather of a matrix at a column of start indices reads, at `(e, k)`, the row named by the
    start index of `e` (read signed, clamped into the table) at column `k`. -/
theorem gather_rows (u : Vec Ideal S64x64 .f32) (idx : IVec S500000x1 32) (e : Fin 500000) (k : Fin 64) :
    Host.gather gather_S64x64_S500000x1_S500000x64_1_0_n_n_0_1_164 u idx (ix2 e k)
      = u (ix2 ⟨min (idx (ix2 e 0)).toInt.toNat 63, by omega⟩ k) := by
  unfold Host.gather
  congr 1
  funext a
  refine Fin.ext ?_
  match a with
  | ⟨0, _⟩ =>
    show gather_S64x64_S500000x1_S500000x64_1_0_n_n_0_1_164.start (ix2 e k) idx 0
      + gather_S64x64_S500000x1_S500000x64_1_0_n_n_0_1_164.batchCoord (ix2 e k) 0
      + gather_S64x64_S500000x1_S500000x64_1_0_n_n_0_1_164.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x64_S500000x1_S500000x64_1_0_n_n_0_1_164.startIndexMap from List.mem_singleton.mpr rfl)]
    have hsi : gather_S64x64_S500000x1_S500000x64_1_0_n_n_0_1_164.siIdx (ix2 e k)
        ⟨List.idxOf (0 : Fin 2) gather_S64x64_S500000x1_S500000x64_1_0_n_n_0_1_164.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S64x64_S500000x1_S500000x64_1_0_n_n_0_1_164.start (ix2 e k) idx 1
      + gather_S64x64_S500000x1_S500000x64_1_0_n_n_0_1_164.batchCoord (ix2 e k) 1
      + gather_S64x64_S500000x1_S500000x64_1_0_n_n_0_1_164.offCoord (ix2 e k) 1 = _
    rw [GatherDims.batchCoord_eq_zero _ _ _ List.not_mem_nil]
    unfold GatherDims.start
    rw [dif_neg (show ¬ (1 : Fin 2) ∈ gather_S64x64_S500000x1_S500000x64_1_0_n_n_0_1_164.startIndexMap from by decide)]
    simp only [Nat.add_zero, Nat.zero_add]
    rfl

/-- A word below 64 is not negative: its signed compare with zero is the bit 0. -/
theorem slt_zero_of_small (x : BitVec 32) (h : x.toNat < 64) : IntOp.cmpi .slt x 0#32 = 0#1 := by
  have e := BitVec.toInt_eq_toNat_cond x
  have hx : x.toInt = x.toNat := by omega
  show BitVec.ofBool (x.slt 0#32) = 0#1
  have : x.slt 0#32 = false := by
    rw [BitVec.slt]; simp only [BitVec.toInt_zero]; rw [hx]; simp
  rw [this]; rfl

/-- A word below 64, read signed and clamped into `[0, 63]`, is itself. -/
theorem clamp_small (x : BitVec 32) (h : x.toNat < 64) : min x.toInt.toNat 63 = x.toNat := by
  have e := BitVec.toInt_eq_toNat_cond x
  omega

/-- The reference's gathered features: `u` at the row its gather reads for edge `e` (a negative id wrapped, then
    clamped into the table). -/
def gathR (u : Vec Ideal S64x64 .f32) (bt : IVec S500000 32) : Mat 500000 64 :=
  fun e k => (Read.val_main_v6 (F := Ideal) u bt) (ix2 e k)

/-- With the graph id in range the gather reads that row. -/
theorem gathR_eq (u : Vec Ideal S64x64 .f32) (bt : IVec S500000 32) (e : Fin 500000) (k : Fin 64)
    (h : (bt (ix1 e)).toNat < 64) : gathR u bt e k = u (ix2 ⟨(bt (ix1 e)).toNat, h⟩ k) := by
  have hv : Read.val_main_v5 (F := Ideal) bt (ix2 e 0) = bt (ix1 e) := by
    rw [Read.val_main_v5_apply, idx_v5, Read.val_main_v4_apply, Read.val_main_v1_apply, Read.val_main_v0_apply,
      Read.val_main_c_apply, slt_zero_of_small _ h, select_zero]
  unfold gathR Read.val_main_v6
  rw [gather_rows]
  refine congrArg (fun r => u (ix2 r k)) (Fin.ext ?_)
  show min (Read.val_main_v5 (F := Ideal) bt (ix2 e 0)).toInt.toNat 63 = (bt (ix1 e)).toNat
  rw [hv]
  exact clamp_small _ h

/-! ## The stages -/

section Stages
variable (x0 x1 : Vec Ideal S500000x128 .f32) (x2 : Vec Ideal S500000x64 .f32) (x3 : Vec Ideal S64x64 .f32)
  (x4 : Vec Ideal S384x256 .f32) (x5 x6 x7 : Vec Ideal S256 .f32) (x8 : Vec Ideal S256x256 .f32)
  (x9 x10 x11 : Vec Ideal S256 .f32) (x12 : IVec S500000 32)

/-- The concatenation along the columns, read at `(e, k)`: the piece whose span of columns holds `k`. -/
theorem feats_apply (e : Fin 500000) (k : Fin 384) :
    Read.val_main_v7 (F := Ideal) x0 x1 x2 x3 x12 (ix2 e k)
      = featsR (cur2 x0) (cur2 x1) (cur2 x2) (gathR x3 x12) e k := by
  unfold Read.val_main_v7 featsR
  by_cases h : k.val < 128
  · rw [dif_pos h]
    refine concatenate_apply_piece (1 : Fin 2) _ _ (ix2 e k) 0 ?hk S500000x128 x0 rfl rfl 0 rfl
      (ix2 e ⟨k.val - 0, by omega⟩) ?hi ?ha
    case hk => show (0 : Nat) < 4; omega
    case hi => exact fun b hb => by match b with | ⟨0, _⟩ => rfl | ⟨1, _⟩ => exact absurd rfl hb
    case ha => show 0 + (k.val - 0) = k.val; omega
  rw [dif_neg h]
  by_cases h2 : k.val < 256
  · rw [dif_pos h2]
    refine concatenate_apply_piece (1 : Fin 2) _ _ (ix2 e k) 1 ?hk S500000x128 x1 rfl rfl 128 rfl
      (ix2 e ⟨k.val - 128, by omega⟩) ?hi ?ha
    case hk => show (1 : Nat) < 4; omega
    case hi => exact fun b hb => by match b with | ⟨0, _⟩ => rfl | ⟨1, _⟩ => exact absurd rfl hb
    case ha => show 128 + (k.val - 128) = k.val; omega
  rw [dif_neg h2]
  by_cases h3 : k.val < 320
  · rw [dif_pos h3]
    refine concatenate_apply_piece (1 : Fin 2) _ _ (ix2 e k) 2 ?hk S500000x64 x2 rfl rfl 256 rfl
      (ix2 e ⟨k.val - 256, by omega⟩) ?hi ?ha
    case hk => show (2 : Nat) < 4; omega
    case hi => exact fun b hb => by match b with | ⟨0, _⟩ => rfl | ⟨1, _⟩ => exact absurd rfl hb
    case ha => show 256 + (k.val - 256) = k.val; omega
  rw [dif_neg h3]
  · refine concatenate_apply_piece (1 : Fin 2) _ _ (ix2 e k) 3 ?hk S500000x64 (Read.val_main_v6 (F := Ideal) x3 x12) rfl rfl 320 rfl
      (ix2 e ⟨k.val - 320, by have := k.isLt; omega⟩) ?hi ?ha
    case hk => show (3 : Nat) < 4; omega
    case hi => exact fun b hb => by match b with | ⟨0, _⟩ => rfl | ⟨1, _⟩ => exact absurd rfl hb
    case ha => show 320 + (k.val - 320) = k.val; omega

/-- The first linear layer: the features times `W1`, plus the bias. -/
theorem lin1_apply (e : Fin 500000) (j : Fin 256) :
    Read.val_main_v11 (F := Ideal) x0 x1 x2 x3 x4 x5 x12 (ix2 e j)
      = lin1R (cur2 x0) (cur2 x1) (cur2 x2) (gathR x3 x12) (cur2 x4) (cur1 x5) e j := by
  simp only [Read.val_main_v11_apply, Read.val_main_v8_apply, Read.val_main_v10_apply, Read.val_main_v9_apply, idx_v10, idx_v9, lidx_v8, ridx_v8, feats_apply, Ideal.addf_def]
  rfl

/-- The column mean: the sum over the edges divided by their number. -/
theorem mean1_apply (j : Fin 256) :
    Read.val_main_v14 (F := Ideal) x0 x1 x2 x3 x4 x5 x12 (ix1 j) = meanOf (colSumR (cur2 (Read.val_main_v11 (F := Ideal) x0 x1 x2 x3 x4 x5 x12))) nW j := by
  simp only [Read.val_main_v14_apply, Read.val_main_v12_apply, Read.val_main_v13_apply, Read.val_main_cst_apply, Read.val_main_cst_1_apply, idx_v12,
    Ideal.hostDivf_def, Ideal.ofBits_def, Ideal.ofBits_zero_f32, zero_add]
  rfl

/-- The column variance: the mean of the squared deviations from the column mean. -/
theorem var1_apply (j : Fin 256) :
    Read.val_main_v21 (F := Ideal) x0 x1 x2 x3 x4 x5 x12 (ix1 j) = varR (cur2 (Read.val_main_v11 (F := Ideal) x0 x1 x2 x3 x4 x5 x12)) nW j := by
  simp only [Read.val_main_v21_apply, Read.val_main_v19_apply, Read.val_main_v20_apply, Read.val_main_cst_2_apply, Read.val_main_cst_3_apply, Read.val_main_v18_apply, Read.val_main_v17_apply, Read.val_main_v16_apply, Read.val_main_v15_apply,
    idx_v19, idx_v16, idx_v15, mean1_apply,
    Ideal.hostDivf_def, Ideal.mulf_def, Ideal.subf_def, Ideal.ofBits_def, Ideal.ofBits_zero_f32, zero_add]
  rfl

/-- The normalisation: the deviation from the mean times `g / sqrt (var + eps)`, plus `be`. -/
theorem bn1_apply (e : Fin 500000) (j : Fin 256) :
    Read.val_main_v34 (F := Ideal) x0 x1 x2 x3 x4 x5 x6 x7 x12 (ix2 e j) = bnR (cur2 (Read.val_main_v11 (F := Ideal) x0 x1 x2 x3 x4 x5 x12)) (cur1 x6) (cur1 x7) nW epsW e j := by
  simp only [Read.val_main_v34_apply, Read.val_main_v31_apply, Read.val_main_v24_apply, Read.val_main_v23_apply, Read.val_main_v22_apply, Read.val_main_v30_apply, Read.val_main_v29_apply, Read.val_main_v28_apply, Read.val_main_v27_apply, Read.val_main_v26_apply, Read.val_main_v25_apply, Read.val_main_cst_4_apply, Read.val_main_v33_apply, Read.val_main_v32_apply,
    idx_v23, idx_v22, idx_v30, idx_v29, idx_v33, idx_v32, mean1_apply, var1_apply,
    Ideal.addf_def, Ideal.mulf_def, Ideal.subf_def, Ideal.hostDivf_def, Ideal.hostUnary_sqrt_def, Ideal.ofBits_def]
  rfl

/-- The rectifier: the maximum with zero. -/
theorem relu_apply (e : Fin 500000) (j : Fin 256) :
    Read.val_main_v35 (F := Ideal) x0 x1 x2 x3 x4 x5 x6 x7 x12 (ix2 e j) = relu (cur2 (Read.val_main_v34 (F := Ideal) x0 x1 x2 x3 x4 x5 x6 x7 x12)) e j := by
  simp only [Read.val_main_v35_apply, Read.val_main_call0_v0_apply, Read.val_main_call0_cst_apply, Ideal.maximumf_def, Ideal.ofBits_def, Ideal.ofBits_zero_f32]
  rfl

/-- The second linear layer. -/
theorem lin2_apply (e : Fin 500000) (j : Fin 256) :
    Read.val_main_v39 (F := Ideal) x0 x1 x2 x3 x4 x5 x6 x7 x8 x9 x12 (ix2 e j) = lin2 (cur2 (Read.val_main_v35 (F := Ideal) x0 x1 x2 x3 x4 x5 x6 x7 x12)) (cur2 x8) (cur1 x9) e j := by
  simp only [Read.val_main_v39_apply, Read.val_main_v36_apply, Read.val_main_v38_apply, Read.val_main_v37_apply, idx_v38, idx_v37, lidx_v36, ridx_v36, Ideal.addf_def]
  rfl

/-- The column mean: the sum over the edges divided by their number. -/
theorem mean2_apply (j : Fin 256) :
    Read.val_main_v42 (F := Ideal) x0 x1 x2 x3 x4 x5 x6 x7 x8 x9 x12 (ix1 j) = meanOf (colSumR (cur2 (Read.val_main_v39 (F := Ideal) x0 x1 x2 x3 x4 x5 x6 x7 x8 x9 x12))) nW j := by
  simp only [Read.val_main_v42_apply, Read.val_main_v40_apply, Read.val_main_v41_apply, Read.val_main_cst_5_apply, Read.val_main_cst_6_apply, idx_v40,
    Ideal.hostDivf_def, Ideal.ofBits_def, Ideal.ofBits_zero_f32, zero_add]
  rfl

/-- The column variance: the mean of the squared deviations from the column mean. -/
theorem var2_apply (j : Fin 256) :
    Read.val_main_v49 (F := Ideal) x0 x1 x2 x3 x4 x5 x6 x7 x8 x9 x12 (ix1 j) = varR (cur2 (Read.val_main_v39 (F := Ideal) x0 x1 x2 x3 x4 x5 x6 x7 x8 x9 x12)) nW j := by
  simp only [Read.val_main_v49_apply, Read.val_main_v47_apply, Read.val_main_v48_apply, Read.val_main_cst_7_apply, Read.val_main_cst_8_apply, Read.val_main_v46_apply, Read.val_main_v45_apply, Read.val_main_v44_apply, Read.val_main_v43_apply,
    idx_v47, idx_v44, idx_v43, mean2_apply,
    Ideal.hostDivf_def, Ideal.mulf_def, Ideal.subf_def, Ideal.ofBits_def, Ideal.ofBits_zero_f32, zero_add]
  rfl

/-- The normalisation: the deviation from the mean times `g / sqrt (var + eps)`, plus `be`. -/
theorem bn2_apply (e : Fin 500000) (j : Fin 256) :
    Read.val_main_v62 (F := Ideal) x0 x1 x2 x3 x4 x5 x6 x7 x8 x9 x10 x11 x12 (ix2 e j) = bnR (cur2 (Read.val_main_v39 (F := Ideal) x0 x1 x2 x3 x4 x5 x6 x7 x8 x9 x12)) (cur1 x10) (cur1 x11) nW epsW e j := by
  simp only [Read.val_main_v62_apply, Read.val_main_v59_apply, Read.val_main_v52_apply, Read.val_main_v51_apply, Read.val_main_v50_apply, Read.val_main_v58_apply, Read.val_main_v57_apply, Read.val_main_v56_apply, Read.val_main_v55_apply, Read.val_main_v54_apply, Read.val_main_v53_apply, Read.val_main_cst_9_apply, Read.val_main_v61_apply, Read.val_main_v60_apply,
    idx_v51, idx_v50, idx_v58, idx_v57, idx_v61, idx_v60, mean2_apply, var2_apply,
    Ideal.addf_def, Ideal.mulf_def, Ideal.subf_def, Ideal.hostDivf_def, Ideal.hostUnary_sqrt_def, Ideal.ofBits_def]
  rfl

/-- The last stage at `(e, j)` is `outR` of the arguments. -/
theorem out_apply (e : Fin 500000) (j : Fin 256) :
    Read.val_main_v62 (F := Ideal) x0 x1 x2 x3 x4 x5 x6 x7 x8 x9 x10 x11 x12 (ix2 e j)
      = outR (cur2 x0) (cur2 x1) (cur2 x2) (gathR x3 x12) (cur2 x4) (cur1 x5) (cur1 x6) (cur1 x7) (cur2 x8) (cur1 x9)
          (cur1 x10) (cur1 x11) nW epsW e j := by
  have H11 : cur2 (Read.val_main_v11 (F := Ideal) x0 x1 x2 x3 x4 x5 x12)
      = lin1R (cur2 x0) (cur2 x1) (cur2 x2) (gathR x3 x12) (cur2 x4) (cur1 x5) :=
    funext fun e => funext fun j => lin1_apply x0 x1 x2 x3 x4 x5 x12 e j
  have H34 : cur2 (Read.val_main_v34 (F := Ideal) x0 x1 x2 x3 x4 x5 x6 x7 x12)
      = bnR (lin1R (cur2 x0) (cur2 x1) (cur2 x2) (gathR x3 x12) (cur2 x4) (cur1 x5)) (cur1 x6) (cur1 x7) nW epsW :=
    funext fun e => funext fun j => (bn1_apply x0 x1 x2 x3 x4 x5 x6 x7 x12 e j).trans (by rw [H11])
  have H35 : cur2 (Read.val_main_v35 (F := Ideal) x0 x1 x2 x3 x4 x5 x6 x7 x12)
      = relu (bnR (lin1R (cur2 x0) (cur2 x1) (cur2 x2) (gathR x3 x12) (cur2 x4) (cur1 x5)) (cur1 x6) (cur1 x7) nW epsW) :=
    funext fun e => funext fun j => (relu_apply x0 x1 x2 x3 x4 x5 x6 x7 x12 e j).trans (by rw [H34])
  have H39 : cur2 (Read.val_main_v39 (F := Ideal) x0 x1 x2 x3 x4 x5 x6 x7 x8 x9 x12)
      = lin2 (relu (bnR (lin1R (cur2 x0) (cur2 x1) (cur2 x2) (gathR x3 x12) (cur2 x4) (cur1 x5)) (cur1 x6) (cur1 x7) nW epsW))
          (cur2 x8) (cur1 x9) :=
    funext fun e => funext fun j => (lin2_apply x0 x1 x2 x3 x4 x5 x6 x7 x8 x9 x12 e j).trans (by rw [H35])
  rw [bn2_apply, H39]
  rfl

end Stages

/-- The reference run's result term is `outR` of the arguments. -/
theorem result (m : (ℓ : Loc nD τ sig) → Buf (Elt Ideal) ℓ) (c : Dev nD) :
    (Value.res_main_v62 (F := Ideal) m c : S500000x256.Idx → EReal)
      = fun i => outR
          (cur2 (m ((c.tc : Thread nD τ).loc main_arg0) : Vec Ideal S500000x128 .f32))
          (cur2 (m ((c.tc : Thread nD τ).loc main_arg1) : Vec Ideal S500000x128 .f32))
          (cur2 (m ((c.tc : Thread nD τ).loc main_arg2) : Vec Ideal S500000x64 .f32))
          (gathR (m ((c.tc : Thread nD τ).loc main_arg3)) (m ((c.tc : Thread nD τ).loc main_arg12)))
          (cur2 (m ((c.tc : Thread nD τ).loc main_arg4) : Vec Ideal S384x256 .f32))
          (cur1 (m ((c.tc : Thread nD τ).loc main_arg5) : Vec Ideal S256 .f32))
          (cur1 (m ((c.tc : Thread nD τ).loc main_arg6) : Vec Ideal S256 .f32))
          (cur1 (m ((c.tc : Thread nD τ).loc main_arg7) : Vec Ideal S256 .f32))
          (cur2 (m ((c.tc : Thread nD τ).loc main_arg8) : Vec Ideal S256x256 .f32))
          (cur1 (m ((c.tc : Thread nD τ).loc main_arg9) : Vec Ideal S256 .f32))
          (cur1 (m ((c.tc : Thread nD τ).loc main_arg10) : Vec Ideal S256 .f32))
          (cur1 (m ((c.tc : Thread nD τ).loc main_arg11) : Vec Ideal S256 .f32))
          nW epsW (i 0) (i 1) := by
  funext i
  rw [Read.val_main_v62_eq]
  exact (congrArg (Read.val_main_v62 (F := Ideal) _ _ _ _ _ _ _ _ _ _ _ _ _) (eq_ix2 i)).trans
    (out_apply _ _ _ _ _ _ _ _ _ _ _ _ _ (i 0) (i 1))

end Cert.ReferenceIdeal.RefValue

end
-- ==== Proof.PreFacts.lean ====
/-
  What the precondition says of the arguments: every entry of the twelve float arrays is a real number, and every
  graph id lies in [0, 64).

  The precondition is a conjunction of fourteen scalars, each the "and" over all entries of an elementwise test: for a
  float array the test |x| < +∞, for the graph ids the signed tests 0 ≤ x and x < 64. A conjunction that is 1 has both
  conjuncts 1; an "and" over all entries that is 1 has every entry 1; and the test at one entry is read as a fact about
  that entry: in the extended reals |x| = max(x, −x) is +∞ at both infinities, so |x| < +∞ leaves only the reals; and a
  32-bit word whose signed value lies in [0, 64) has that same unsigned value.
-/
import proofs.«421816_j83562883711137_2_alg».proof.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.Pre_finite_inputs.PreFacts

open Idealize.ShloMosaic Idealize.ShloMosaic.ValueIdx Cert.Pre_finite_inputs

/-- Every entry of a float array is a real number. -/
def Fin' {s : Shape} (x : FVec Ideal s .f32) : Prop := ∀ i, ∃ r : ℝ, x i = (r : EReal)

/-- The precondition's content. -/
structure Holds (x0 x1 : FVec Ideal S500000x128 .f32) (x2 : FVec Ideal S500000x64 .f32) (x3 : FVec Ideal S64x64 .f32)
    (x4 : FVec Ideal S384x256 .f32) (x5 x6 x7 : FVec Ideal S256 .f32) (x8 : FVec Ideal S256x256 .f32)
    (x9 x10 x11 : FVec Ideal S256 .f32) (x12 : IVec S500000 32) : Prop where
  f0 : Fin' x0
  f1 : Fin' x1
  f2 : Fin' x2
  f3 : Fin' x3
  f4 : Fin' x4
  f5 : Fin' x5
  f6 : Fin' x6
  f7 : Fin' x7
  f8 : Fin' x8
  f9 : Fin' x9
  f10 : Fin' x10
  f11 : Fin' x11
  ids : ∀ i, (x12 i).toNat < 64

/-- The scalar shape has exactly one index. -/
instance : Subsingleton S_.Idx := ⟨fun a b => funext fun d => d.elim0⟩

/-- An extended real whose absolute value max(x, −x) lies strictly below +∞ is a real number: at −∞ and at +∞ the
    absolute value is +∞ itself. The word 0x7F800000 is the pattern of +∞ (exponent all ones, fraction zero, sign
    clear). -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

/-- A 32-bit word a with 0 ≤ a and a < 64 as signed integers has unsigned value below 64: the signed value of a word
    is its unsigned value when that is below 2³¹ and is negative otherwise, so 0 ≤ a rules the second case out. -/
theorem toNat_lt_of_signed (a : BitVec 32) (h0 : IntOp.cmpi .sge a 0#32 = 1#1) (h1 : IntOp.cmpi .slt a 64#32 = 1#1) :
    a.toNat < 64 := by
  simp only [IntOp.cmpi, StableHlo.Predicate.ofBool_eq_one_iff, BitVec.sle, BitVec.slt, decide_eq_true_eq] at h0 h1
  have e0 : (0#32 : BitVec 32).toInt = 0 := by decide
  have e64 : (64#32 : BitVec 32).toInt = 64 := by decide
  rw [e0] at h0
  rw [e64] at h1
  rw [BitVec.toInt_eq_toNat_cond] at h0 h1
  split at h0 <;> omega

/-- The conjunction of two one-bit scalars is 1 exactly when both are. -/
theorem andi_ix0 (a b : IVec S_ 1) : andi a b ix0 = 1#1 ↔ a ix0 = 1#1 ∧ b ix0 = 1#1 :=
  IntOp.andi_eq_one

/-- For a float array x of any shape: if the "and" over all entries of the mask |x| < +∞ is 1, every entry of x is a
    real number. The mask is 1 at each entry; there the broadcast scalar reads +∞, and the entry fact above applies. -/
theorem fin_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ix0 = 1#1) : Fin' x := by
  intro i
  have e := Host.reduce_andi_all _ _ hr h0 ix0 h i
  rw [cmpf_apply, StableHlo.Predicate.bcast_scalar hb h0, constant_apply] at e
  exact real_of_abs_lt_inf (x i) e

/-- For an array x of 32-bit words of any shape: if the "and" over all entries of the signed test 0 ≤ x is 1 and that
    of the signed test x < 64 is 1, every word of x has unsigned value below 64. -/
theorem ids_of_all {s : Shape} {axes : List (Fin s.rank)} (x : IVec s 32)
    (hb : S_.BroadcastsInDim s (![] : Fin 0 → Fin s.rank)) (hr : s.ReducesTo axes S_) (h0 : 0 < S_.numel)
    (hge : Host.reduce IntOp.andi (cmpi .sge x (broadcastInDim s ![] hb (constantI S_ 32 0#32)))
        (constantI S_ 1 1#1) hr h0 ix0 = 1#1)
    (hlt : Host.reduce IntOp.andi (cmpi .slt x (broadcastInDim s ![] hb (constantI S_ 32 64#32)))
        (constantI S_ 1 1#1) hr h0 ix0 = 1#1) (i : s.Idx) : (x i).toNat < 64 := by
  have e0 := Host.reduce_andi_all _ _ hr h0 ix0 hge i
  have e1 := Host.reduce_andi_all _ _ hr h0 ix0 hlt i
  have b0 : broadcastInDim s ![] hb (constantI S_ 32 0#32) i = 0#32 := StableHlo.Predicate.bcast_scalar hb h0 _ i
  have b1 : broadcastInDim s ![] hb (constantI S_ 32 64#32) i = 64#32 := StableHlo.Predicate.bcast_scalar hb h0 _ i
  have c0 : IntOp.cmpi .sge (x i) 0#32 = 1#1 := by rw [← b0]; exact e0
  have c1 : IntOp.cmpi .slt (x i) 64#32 = 1#1 := by rw [← b1]; exact e1
  exact toNat_lt_of_signed (x i) c0 c1

/-- The printed predicate all ones gives the content: each `jnp.all` conjunct read at an index. -/
theorem holds_of_fn [Cert.Pre_finite_inputs.Facts] (x0 x1 : FVec Ideal S500000x128 .f32) (x2 : FVec Ideal S500000x64 .f32)
    (x3 : FVec Ideal S64x64 .f32) (x4 : FVec Ideal S384x256 .f32) (x5 x6 x7 : FVec Ideal S256 .f32)
    (x8 : FVec Ideal S256x256 .f32) (x9 x10 x11 : FVec Ideal S256 .f32) (x12 : IVec S500000 32)
    (h : Cert.Pre_finite_inputs.fn (F := Ideal) x0 x1 x2 x3 x4 x5 x6 x7 x8 x9 x10 x11 x12 = (fun _ => 1#1)) :
    Holds x0 x1 x2 x3 x4 x5 x6 x7 x8 x9 x10 x11 x12 := by
  have h := congrFun h ix0
  dsimp only [fn, fn_part1, fn_part2, fn_part3] at h
  -- the fourteen conjuncts, peeled from the outside in: the last one (x12 < 64) first, the first two (x0, x1) last
  obtain ⟨h, hlt⟩ := (andi_ix0 _ _).1 h
  obtain ⟨h, hge⟩ := (andi_ix0 _ _).1 h
  obtain ⟨h, h11⟩ := (andi_ix0 _ _).1 h
  obtain ⟨h, h10⟩ := (andi_ix0 _ _).1 h
  obtain ⟨h, h9⟩ := (andi_ix0 _ _).1 h
  obtain ⟨h, h8⟩ := (andi_ix0 _ _).1 h
  obtain ⟨h, h7⟩ := (andi_ix0 _ _).1 h
  obtain ⟨h, h6⟩ := (andi_ix0 _ _).1 h
  obtain ⟨h, h5⟩ := (andi_ix0 _ _).1 h
  obtain ⟨h, h4⟩ := (andi_ix0 _ _).1 h
  obtain ⟨h, h3⟩ := (andi_ix0 _ _).1 h
  obtain ⟨h, h2⟩ := (andi_ix0 _ _).1 h
  obtain ⟨h0, h1⟩ := (andi_ix0 _ _).1 h
  exact
    { f0 := fin_of_all x0 _ _ _ h0
      f1 := fin_of_all x1 _ _ _ h1
      f2 := fin_of_all x2 _ _ _ h2
      f3 := fin_of_all x3 _ _ _ h3
      f4 := fin_of_all x4 _ _ _ h4
      f5 := fin_of_all x5 _ _ _ h5
      f6 := fin_of_all x6 _ _ _ h6
      f7 := fin_of_all x7 _ _ _ h7
      f8 := fin_of_all x8 _ _ _ h8
      f9 := fin_of_all x9 _ _ _ h9
      f10 := fin_of_all x10 _ _ _ h10
      f11 := fin_of_all x11 _ _ _ h11
      ids := ids_of_all x12 _ _ _ hge hlt }

end Cert.Pre_finite_inputs.PreFacts

end
-- ==== Proof.BridgeLin.lean ====
/-
  The first layer two ways: with every graph id in range the one-hot product is the gathered row of `u`, and the four
  partial products over the row blocks of `W1` are the product with the concatenated features. Sums and products of
  real entries are real.
-/
import proofs.«421816_j83562883711137_2_alg».proof.Proof.Forms
import Mathlib.Algebra.BigOperators.Fin
import Mathlib.Data.EReal.Basic

noncomputable section

namespace Cert.EdgeBN

open Idealize.ShloMosaic

/-! ## The one-hot product -/

/-- A 32-bit word below 64 is the word of exactly one of the 64 graph ids: its own value. -/
theorem word_eq_iff (x : BitVec 32) (hx : x.toNat < 64) (b : Fin 64) :
    x = BitVec.ofNat 32 b.val ↔ b = ⟨x.toNat, hx⟩ := by
  constructor
  · intro h
    apply Fin.ext
    have hb : b.val % 2 ^ 32 = b.val := Nat.mod_eq_of_lt (by have := b.isLt; omega)
    have : x.toNat = b.val := by rw [h, BitVec.toNat_ofNat, hb]
    exact this.symm
  · intro h
    rw [h]
    apply BitVec.eq_of_toNat_eq
    rw [BitVec.toNat_ofNat]
    exact (Nat.mod_eq_of_lt x.isLt).symm

/-- The one-hot product picks the row of the graph id. -/
theorem gathK_eq (u : Mat 64 64) (bt : Fin 500000 → BitVec 32) (hbt : ∀ e, (bt e).toNat < 64) :
    gathK u bt = fun e k => u ⟨(bt e).toNat, hbt e⟩ k := by
  funext e k
  unfold gathK
  -- only the term of the graph id itself is not zero
  rw [Finset.sum_eq_single (⟨(bt e).toNat, hbt e⟩ : Fin 64)]
  · have h1 : oneHot bt e ⟨(bt e).toNat, hbt e⟩ = 1 := by
      unfold oneHot
      rw [if_pos ((word_eq_iff (bt e) (hbt e) _).mpr rfl)]
    rw [h1, one_mul]
  · intro b _ hb
    have h0 : oneHot bt e b = 0 := by
      unfold oneHot
      rw [if_neg (fun h => hb ((word_eq_iff (bt e) (hbt e) b).mp h))]
    rw [h0, zero_mul]
  · intro h
    exact absurd (Finset.mem_univ _) h

/-! ## Regrouping the 384 columns as 128 + 128 + 64 + 64 -/

/-- A sum over 384 indices is the sum of its four consecutive blocks of 128, 128, 64 and 64 indices. -/
theorem sum_blocks (f : Fin 384 → EReal) :
    ∑ k : Fin 384, f k =
      (((∑ k : Fin 128, f ⟨k.val, by omega⟩) + ∑ k : Fin 128, f ⟨128 + k.val, by omega⟩)
        + ∑ k : Fin 64, f ⟨256 + k.val, by omega⟩) + ∑ k : Fin 64, f ⟨320 + k.val, by omega⟩ := by
  show ∑ k : Fin (((128 + 128) + 64) + 64), f k = _
  rw [Fin.sum_univ_add, Fin.sum_univ_add, Fin.sum_univ_add]
  rfl

variable (src dst : Mat 500000 128) (ea ug : Mat 500000 64)

theorem featsR_block0 (e : Fin 500000) (k : Fin 128) :
    featsR src dst ea ug e ⟨k.val, by omega⟩ = src e k := by
  have h : k.val < 128 := k.isLt
  show (if h : k.val < 128 then src e ⟨k.val, h⟩ else _) = _
  rw [dif_pos h]

theorem featsR_block1 (e : Fin 500000) (k : Fin 128) :
    featsR src dst ea ug e ⟨128 + k.val, by omega⟩ = dst e k := by
  have h1 : ¬ (128 + k.val < 128) := by omega
  have h2 : 128 + k.val < 256 := by omega
  show (if h : 128 + k.val < 128 then _ else if h2 : 128 + k.val < 256 then dst e ⟨128 + k.val - 128, _⟩ else _) = _
  rw [dif_neg h1, dif_pos h2]
  congr 1
  exact Fin.ext (by show 128 + k.val - 128 = k.val; omega)

theorem featsR_block2 (e : Fin 500000) (k : Fin 64) :
    featsR src dst ea ug e ⟨256 + k.val, by omega⟩ = ea e k := by
  have h1 : ¬ (256 + k.val < 128) := by omega
  have h2 : ¬ (256 + k.val < 256) := by omega
  have h3 : 256 + k.val < 320 := by omega
  show (if h : 256 + k.val < 128 then _ else if h2 : 256 + k.val < 256 then _
    else if h3 : 256 + k.val < 320 then ea e ⟨256 + k.val - 256, _⟩ else _) = _
  rw [dif_neg h1, dif_neg h2, dif_pos h3]
  congr 1
  exact Fin.ext (by show 256 + k.val - 256 = k.val; omega)

theorem featsR_block3 (e : Fin 500000) (k : Fin 64) :
    featsR src dst ea ug e ⟨320 + k.val, by omega⟩ = ug e k := by
  have h1 : ¬ (320 + k.val < 128) := by omega
  have h2 : ¬ (320 + k.val < 256) := by omega
  have h3 : ¬ (320 + k.val < 320) := by omega
  show (if h : 320 + k.val < 128 then _ else if h2 : 320 + k.val < 256 then _
    else if h3 : 320 + k.val < 320 then _ else ug e ⟨320 + k.val - 320, _⟩) = _
  rw [dif_neg h1, dif_neg h2, dif_neg h3]
  congr 1
  exact Fin.ext (by show 320 + k.val - 320 = k.val; omega)

/-- The kernel's first layer is the reference's, on the gathered rows. -/
theorem h1K_eq_lin1R (src dst : Mat 500000 128) (ea : Mat 500000 64) (u : Mat 64 64) (W1 : Mat 384 256) (b1 : Row 256)
    (bt : Fin 500000 → BitVec 32) (hbt : ∀ e, (bt e).toNat < 64) :
    h1K src dst ea u W1 b1 bt = lin1R src dst ea (fun e k => u ⟨(bt e).toNat, hbt e⟩ k) W1 b1 := by
  funext e j
  unfold h1K lin1K lin1R
  rw [gathK_eq u bt hbt, sum_blocks]
  refine congrArg (fun s => s + b1 j) ?_
  -- block by block the concatenated row is the block's own array, and the weight's row is the slice's
  have e0 : ∀ k : Fin 128, src e k * sliceRows W1 0 (by omega) k j
      = featsR src dst ea (fun e k => u ⟨(bt e).toNat, hbt e⟩ k) e ⟨k.val, by omega⟩ * W1 ⟨k.val, by omega⟩ j := by
    intro k
    rw [featsR_block0]
    have hk : (⟨0 + k.val, by omega⟩ : Fin 384) = ⟨k.val, by omega⟩ := Fin.ext (Nat.zero_add _)
    show src e k * W1 ⟨0 + k.val, _⟩ j = _
    rw [hk]
  have e1 : ∀ k : Fin 128, dst e k * sliceRows W1 128 (by omega) k j
      = featsR src dst ea (fun e k => u ⟨(bt e).toNat, hbt e⟩ k) e ⟨128 + k.val, by omega⟩ * W1 ⟨128 + k.val, by omega⟩ j := by
    intro k
    rw [featsR_block1]
    rfl
  have e2 : ∀ k : Fin 64, ea e k * sliceRows W1 256 (by omega) k j
      = featsR src dst ea (fun e k => u ⟨(bt e).toNat, hbt e⟩ k) e ⟨256 + k.val, by omega⟩ * W1 ⟨256 + k.val, by omega⟩ j := by
    intro k
    rw [featsR_block2]
    rfl
  have e3 : ∀ k : Fin 64, u ⟨(bt e).toNat, hbt e⟩ k * sliceRows W1 320 (by omega) k j
      = featsR src dst ea (fun e k => u ⟨(bt e).toNat, hbt e⟩ k) e ⟨320 + k.val, by omega⟩ * W1 ⟨320 + k.val, by omega⟩ j := by
    intro k
    rw [featsR_block3]
    rfl
  rw [Finset.sum_congr rfl (fun k _ => e0 k), Finset.sum_congr rfl (fun k _ => e1 k),
    Finset.sum_congr rfl (fun k _ => e2 k), Finset.sum_congr rfl (fun k _ => e3 k)]

/-! ## Real entries stay real -/

/-- An extended real that is a real number. -/
def IsR (x : EReal) : Prop := ∃ r : ℝ, x = (r : EReal)

theorem isR_add {x y : EReal} (hx : IsR x) (hy : IsR y) : IsR (x + y) := by
  obtain ⟨a, rfl⟩ := hx
  obtain ⟨b, rfl⟩ := hy
  exact ⟨a + b, (EReal.coe_add a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

theorem isR_zero : IsR 0 := ⟨0, EReal.coe_zero.symm⟩

/-- A finite sum of real numbers is a real number. -/
theorem isR_sum {ι : Type} (s : Finset ι) (f : ι → EReal) (h : ∀ i ∈ s, IsR (f i)) : IsR (∑ i ∈ s, f i) :=
  Finset.sum_induction f IsR (fun _ _ => isR_add) isR_zero h

/-- The larger of a real number and zero is a real number. -/
theorem isR_max_zero {x : EReal} (hx : IsR x) : IsR (max x 0) := by
  obtain ⟨a, rfl⟩ := hx
  rcases le_total a 0 with h | h
  · exact ⟨0, by rw [max_eq_right (EReal.coe_nonpos.mpr h), EReal.coe_zero]⟩
  · exact ⟨a, max_eq_left (EReal.coe_nonneg.mpr h)⟩

theorem isR_featsR (hsrc : FinM src) (hdst : FinM dst) (hea : FinM ea) (hug : FinM ug) (e : Fin 500000) (k : Fin 384) :
    IsR (featsR src dst ea ug e k) := by
  unfold featsR
  split
  · exact hsrc _ _
  · split
    · exact hdst _ _
    · split
      · exact hea _ _
      · exact hug _ _

/-- The first layer of real entries is real. -/
theorem finM_lin1R (src dst : Mat 500000 128) (ea ug : Mat 500000 64) (W1 : Mat 384 256) (b1 : Row 256)
    (hsrc : FinM src) (hdst : FinM dst) (hea : FinM ea) (hug : FinM ug) (hW1 : FinM W1) (hb1 : FinR b1) :
    FinM (lin1R src dst ea ug W1 b1) := by
  intro e j
  unfold lin1R
  exact isR_add (isR_sum _ _ (fun k _ => isR_mul (isR_featsR src dst ea ug hsrc hdst hea hug e k) (hW1 k j))) (hb1 j)

/-- The second layer of a rectified real matrix is real. -/
theorem finM_lin2_relu (x : Mat 500000 256) (hx : FinM x) (W2 : Mat 256 256) (hW2 : FinM W2) (b2 : Row 256) (hb2 : FinR b2) :
    FinM (lin2 (relu x) W2 b2) := by
  intro e j
  unfold lin2 relu
  exact isR_add (isR_sum _ _ (fun k _ => isR_mul (isR_max_zero (hx e k)) (hW2 k j))) (hb2 j)

end Cert.EdgeBN

end
-- ==== Proof.Consts.lean ====
/-
  The two float words both programs carry: the number of edges and the variance's epsilon, as real numbers.
-/
import Idealize.ShloMosaic.PureOps.Ideal

noncomputable section

namespace Cert.EdgeBN.Consts

open Idealize.ShloMosaic

/-- `0x48F42400` is the f32 pattern of 500000: sign 0, exponent field 145, fraction 7611392, so the value is
    `(2^23 + 7611392) * 2^(145 - 127 - 23) = 16000000 / 32`. -/
theorem ofBits_n : Ideal.ofBits .f32 0x48F42400#32 = ((500000 : ℝ) : EReal) := by
  simp [Ideal.ofBits, Ideal.ieee, -EReal.coe_mul]; norm_num

/-- `0x3727C5AC` is the f32 pattern of a positive real (the f32 nearest 1e-5): sign 0, exponent field 110,
    fraction 2606508, so the value is `(2^23 + 2606508) * 2^(110 - 127 - 23) = 10995116 * 2^(-40)`. -/
theorem ofBits_eps : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

end Cert.EdgeBN.Consts

end
-- ==== Proof.BridgeBN.lean ====
/-
  Batch normalisation two ways over real entries: the tiles' sums are the column sums, `E[x²] - (E x)² = E[(x - E x)²]`,
  and `x * s + (be - mean * s) = (x - mean) * s + be`; the variance is non-negative, so `sqrt (var + eps)` is a positive
  real and the result is real.
-/
import proofs.«421816_j83562883711137_2_alg».proof.Proof.Forms
import proofs.«421816_j83562883711137_2_alg».proof.Proof.Consts
import Mathlib.Data.Fintype.BigOperators
import Mathlib.Logic.Equiv.Fin.Basic
import Mathlib.Algebra.BigOperators.Group.Finset.Basic
import Mathlib.Algebra.Order.BigOperators.Group.Finset
import Mathlib.Analysis.SpecialFunctions.Pow.Real
import Mathlib.Data.EReal.Operations
import Mathlib.Tactic.FieldSimp
import Mathlib.Tactic.Ring
import Mathlib.Tactic.Positivity

noncomputable section

namespace Cert.EdgeBN

open Idealize.ShloMosaic

/-! ## Sums -/

/-- A finite sum of real numbers, read in the extended reals, is the sum of the readings. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Summing tile by tile is summing over all edges: `(t, r) ↦ 10000 t + r` is a bijection of
    `Fin 50 × Fin 10000` with `Fin 500000`. -/
theorem tile_sum (f : Fin 500000 → EReal) :
    ∑ t : Fin 50, ∑ r : Fin 10000, f (tileRow t r) = ∑ e : Fin 500000, f e :=
  (Fintype.sum_prod_type' (fun t r => f (tileRow t r))).symm.trans
    (Fintype.sum_equiv (finProdFinEquiv (m := 50) (n := 10000)) _ f (fun p => congrArg f (Fin.ext (by
      show 10000 * p.1.val + p.2.val = p.2.val + 10000 * p.1.val
      omega))))

/-- The sum of the tiles' sums is the column sum. -/
theorem colSumK_eq_colSumR (x : Mat 500000 256) (j : Fin 256) : colSumK x j = colSumR x j :=
  tile_sum (fun e => x e j)

/-! ## The variance two ways, over the reals -/

/-- With `μ = S / N`: `∑ (a - μ)² = Q - 2 μ S + N μ²`, so `Q / N - μ² = (∑ (a - μ)²) / N`. -/
theorem var_two_ways {ι : Type} [Fintype ι] (a : ι → ℝ) (N : ℝ) (hN : 0 < N) (hcard : (Fintype.card ι : ℝ) = N) :
    (∑ i, a i * a i) * (1 / N) - (∑ i, a i) * (1 / N) * ((∑ i, a i) * (1 / N))
      = (∑ i, (a i - (∑ i, a i) * (1 / N)) * (a i - (∑ i, a i) * (1 / N))) * (1 / N) := by
  have hN' : N ≠ 0 := hN.ne'
  generalize hS : (∑ i, a i) = S
  have hexp : ∑ i, (a i - S * (1 / N)) * (a i - S * (1 / N))
      = (∑ i, a i * a i) - 2 * (S * (1 / N)) * S + N * (S * (1 / N) * (S * (1 / N))) := by
    have h1 : ∀ i, (a i - S * (1 / N)) * (a i - S * (1 / N))
        = a i * a i - 2 * (S * (1 / N)) * a i + S * (1 / N) * (S * (1 / N)) := fun i => by ring
    rw [Finset.sum_congr rfl (fun i _ => h1 i), Finset.sum_add_distrib, Finset.sum_sub_distrib, ← Finset.mul_sum,
      Finset.sum_const, Finset.card_univ, nsmul_eq_mul, hcard, hS]
  rw [hexp]
  field_simp
  ring

/-! ## The real values -/

/-- The column mean of a real matrix. -/
def colMean (xr : Fin 500000 → Fin 256 → ℝ) (j : Fin 256) : ℝ := (∑ e, xr e j) * (1 / 500000)

/-- The column variance of a real matrix: the mean of the squared deviations. -/
def colVar (xr : Fin 500000 → Fin 256 → ℝ) (j : Fin 256) : ℝ :=
  (∑ e, (xr e j - colMean xr j) * (xr e j - colMean xr j)) * (1 / 500000)

/-- The normalised entry. -/
def bnVal (xr : Fin 500000 → Fin 256 → ℝ) (gr ber : Fin 256 → ℝ) (ε : ℝ) (e : Fin 500000) (j : Fin 256) : ℝ :=
  (xr e j - colMean xr j) * (gr j * (1 / Real.sqrt (colVar xr j + ε))) + ber j

/-- A mean of squares is non-negative. -/
theorem colVar_nonneg (xr : Fin 500000 → Fin 256 → ℝ) (j : Fin 256) : 0 ≤ colVar xr j :=
  mul_nonneg (Finset.sum_nonneg (fun e _ => mul_self_nonneg _)) (by norm_num)

/-- The mean of the squares minus the squared mean is the variance. -/
theorem colVar_eq (xr : Fin 500000 → Fin 256 → ℝ) (j : Fin 256) :
    (∑ e, xr e j * xr e j) * (1 / 500000) - (∑ e, xr e j) * (1 / 500000) * ((∑ e, xr e j) * (1 / 500000))
      = colVar xr j :=
  var_two_ways (fun e => xr e j) 500000 (by norm_num) (by rw [Fintype.card_fin]; norm_num)

/-! ## Each piece as a real number -/

theorem meanOf_coe {S : Row 256} {j : Fin 256} {s : ℝ} (h : S j = (s : EReal)) :
    meanOf S ((500000 : ℝ) : EReal) j = ((s * (1 / 500000) : ℝ) : EReal) := by
  show Ideal.div (S j) _ = _
  rw [h, Ideal.div_coe (by norm_num : (500000 : ℝ) ≠ 0), ← EReal.coe_mul]

theorem varK_coe {S Q : Row 256} {j : Fin 256} {s q : ℝ} (hS : S j = (s : EReal)) (hQ : Q j = (q : EReal)) :
    varK S Q ((500000 : ℝ) : EReal) j
      = ((q * (1 / 500000) - s * (1 / 500000) * (s * (1 / 500000)) : ℝ) : EReal) := by
  show Ideal.div (Q j) _ - meanOf S _ j * meanOf S _ j = _
  rw [meanOf_coe hS, hQ, Ideal.div_coe (by norm_num : (500000 : ℝ) ≠ 0), ← EReal.coe_mul, ← EReal.coe_mul,
    ← EReal.coe_sub]

/-- Over a positive real `v + ε` the square root is the real one and positive, and the division is by a non-zero real. -/
theorem scaleOf_coe {g var : Row 256} {j : Fin 256} {γ v ε : ℝ} (hg : g j = (γ : EReal)) (hv : var j = (v : EReal))
    (hpos : 0 < v + ε) :
    scaleOf g var (ε : EReal) j = ((γ * (1 / Real.sqrt (v + ε)) : ℝ) : EReal) := by
  show Ideal.div (g j) (Ideal.sqrt (var j + (ε : EReal))) = _
  rw [hg, hv, ← EReal.coe_add, Ideal.sqrt_coe, if_neg (not_lt.mpr hpos.le),
    Ideal.div_coe (Real.sqrt_pos.mpr hpos).ne', ← EReal.coe_mul]

theorem colSumR_coe {x : Mat 500000 256} {xr : Fin 500000 → Fin 256 → ℝ} (hx : ∀ e j, x e j = (xr e j : EReal))
    (j : Fin 256) : colSumR x j = ((∑ e, xr e j : ℝ) : EReal) := by
  show ∑ e : Fin 500000, x e j = _
  rw [← sum_coe]
  exact Finset.sum_congr rfl (fun e _ => hx e j)

theorem sq_coe {x : Mat 500000 256} {xr : Fin 500000 → Fin 256 → ℝ} (hx : ∀ e j, x e j = (xr e j : EReal))
    (e : Fin 500000) (j : Fin 256) : sq x e j = ((xr e j * xr e j : ℝ) : EReal) := by
  show x e j * x e j = _
  rw [hx, ← EReal.coe_mul]

section Values

variable {x : Mat 500000 256} {g be : Row 256} {xr : Fin 500000 → Fin 256 → ℝ} {gr ber : Fin 256 → ℝ}
  (hx : ∀ e j, x e j = (xr e j : EReal)) (hg : ∀ j, g j = (gr j : EReal)) (hbe : ∀ j, be j = (ber j : EReal))
  {ε : ℝ} (hε : 0 < ε)

include hx in
theorem meanK_coe (j : Fin 256) :
    meanOf (colSumK x) ((500000 : ℝ) : EReal) j = ((colMean xr j : ℝ) : EReal) :=
  meanOf_coe ((colSumK_eq_colSumR x j).trans (colSumR_coe hx j))

include hx in
theorem meanR_coe (j : Fin 256) :
    meanOf (colSumR x) ((500000 : ℝ) : EReal) j = ((colMean xr j : ℝ) : EReal) :=
  meanOf_coe (colSumR_coe hx j)

include hx in
/-- The kernel's variance, from the sums of `x` and of its square, is the variance. -/
theorem varKx_coe (j : Fin 256) :
    varK (colSumK x) (colSumK (sq x)) ((500000 : ℝ) : EReal) j = ((colVar xr j : ℝ) : EReal) := by
  have hS : colSumK x j = ((∑ e, xr e j : ℝ) : EReal) := (colSumK_eq_colSumR x j).trans (colSumR_coe hx j)
  have hQ : colSumK (sq x) j = ((∑ e, xr e j * xr e j : ℝ) : EReal) :=
    (colSumK_eq_colSumR (sq x) j).trans (colSumR_coe (xr := fun e j => xr e j * xr e j) (sq_coe hx) j)
  rw [varK_coe hS hQ, colVar_eq]

include hx in
/-- The reference's variance, the mean of the squared deviations, is the variance. -/
theorem varRx_coe (j : Fin 256) : varR x ((500000 : ℝ) : EReal) j = ((colVar xr j : ℝ) : EReal) := by
  have hsum : ∑ e : Fin 500000, (x e j - meanOf (colSumR x) ((500000 : ℝ) : EReal) j)
        * (x e j - meanOf (colSumR x) ((500000 : ℝ) : EReal) j)
      = ((∑ e, (xr e j - colMean xr j) * (xr e j - colMean xr j) : ℝ) : EReal) := by
    rw [← sum_coe]
    exact Finset.sum_congr rfl (fun e _ => by rw [hx, meanR_coe hx, ← EReal.coe_sub, ← EReal.coe_mul])
  show Ideal.div (∑ e : Fin 500000, (x e j - meanOf (colSumR x) ((500000 : ℝ) : EReal) j)
        * (x e j - meanOf (colSumR x) ((500000 : ℝ) : EReal) j)) _ = _
  rw [hsum, Ideal.div_coe (by norm_num : (500000 : ℝ) ≠ 0), ← EReal.coe_mul]
  rfl

include hx hg hε in
theorem scaleK_coe (j : Fin 256) :
    scaleK x g ((500000 : ℝ) : EReal) (ε : EReal) j
      = ((gr j * (1 / Real.sqrt (colVar xr j + ε)) : ℝ) : EReal) :=
  scaleOf_coe (hg j) (varKx_coe hx j) (add_pos_of_nonneg_of_pos (colVar_nonneg xr j) hε)

include hx hg hε in
theorem scaleR_coe (j : Fin 256) :
    scaleOf g (varR x ((500000 : ℝ) : EReal)) (ε : EReal) j
      = ((gr j * (1 / Real.sqrt (colVar xr j + ε)) : ℝ) : EReal) :=
  scaleOf_coe (hg j) (varRx_coe hx j) (add_pos_of_nonneg_of_pos (colVar_nonneg xr j) hε)

include hx hg hbe hε in
/-- The kernel's entry `x * s + (be - mean * s)` is the normalised entry. -/
theorem bnK_coe (e : Fin 500000) (j : Fin 256) :
    bnK x g be ((500000 : ℝ) : EReal) (ε : EReal) e j = ((bnVal xr gr ber ε e j : ℝ) : EReal) := by
  show x e j * scaleK x g ((500000 : ℝ) : EReal) (ε : EReal) j
      + (be j - meanOf (colSumK x) ((500000 : ℝ) : EReal) j * scaleK x g ((500000 : ℝ) : EReal) (ε : EReal) j) = _
  rw [scaleK_coe hx hg hε, meanK_coe hx, hx, hbe, ← EReal.coe_mul, ← EReal.coe_mul, ← EReal.coe_sub, ← EReal.coe_add]
  congr 1
  unfold bnVal
  ring

include hx hg hbe hε in
/-- The reference's entry `(x - mean) * s + be` is the normalised entry. -/
theorem bnR_coe (e : Fin 500000) (j : Fin 256) :
    bnR x g be ((500000 : ℝ) : EReal) (ε : EReal) e j = ((bnVal xr gr ber ε e j : ℝ) : EReal) := by
  show (x e j - meanOf (colSumR x) ((500000 : ℝ) : EReal) j)
      * scaleOf g (varR x ((500000 : ℝ) : EReal)) (ε : EReal) j + be j = _
  rw [scaleR_coe hx hg hε, meanR_coe hx, hx, hbe, ← EReal.coe_sub, ← EReal.coe_mul, ← EReal.coe_add]
  rfl

end Values

/-! ## The two statements -/

/-- The kernel's normalisation is the reference's on a real matrix with real `g`, `be`. -/
theorem bnK_eq_bnR (x : Mat 500000 256) (hx : FinM x) (g be : Row 256) (hg : FinR g) (hbe : FinR be) :
    bnK x g be nW epsW = bnR x g be nW epsW := by
  have hx' : ∀ e j, ∃ r : ℝ, x e j = (r : EReal) := hx
  have hg' : ∀ j, ∃ r : ℝ, g j = (r : EReal) := hg
  have hbe' : ∀ j, ∃ r : ℝ, be j = (r : EReal) := hbe
  choose xr hxr using hx'
  choose gr hgr using hg'
  choose ber hber using hbe'
  obtain ⟨ε, hε, he⟩ := Consts.ofBits_eps
  have hn : nW = ((500000 : ℝ) : EReal) := Consts.ofBits_n
  have he' : epsW = (ε : EReal) := he
  rw [hn, he']
  funext e j
  rw [bnK_coe hxr hgr hber hε, bnR_coe hxr hgr hber hε]

/-- The normalised matrix is real. -/
theorem finM_bnR (x : Mat 500000 256) (hx : FinM x) (g be : Row 256) (hg : FinR g) (hbe : FinR be) :
    FinM (bnR x g be nW epsW) := by
  have hx' : ∀ e j, ∃ r : ℝ, x e j = (r : EReal) := hx
  have hg' : ∀ j, ∃ r : ℝ, g j = (r : EReal) := hg
  have hbe' : ∀ j, ∃ r : ℝ, be j = (r : EReal) := hbe
  choose xr hxr using hx'
  choose gr hgr using hg'
  choose ber hber using hbe'
  obtain ⟨ε, hε, he⟩ := Consts.ofBits_eps
  have hn : nW = ((500000 : ℝ) : EReal) := Consts.ofBits_n
  have he' : epsW = (ε : EReal) := he
  rw [hn, he']
  exact fun e j => ⟨bnVal xr gr ber ε e j, bnR_coe hxr hgr hber hε e j⟩

end Cert.EdgeBN

end
-- ==== Proof.Bridge.lean ====
/-
  The kernel's and the reference's results are one function of real arguments with every graph id in range: the first
  layers agree (BridgeLin), each normalisation agrees on a real matrix (BridgeBN), and realness passes through the layers.
-/
import proofs.«421816_j83562883711137_2_alg».proof.Proof.Forms
import proofs.«421816_j83562883711137_2_alg».proof.Proof.BridgeLin
import proofs.«421816_j83562883711137_2_alg».proof.Proof.BridgeBN

noncomputable section

namespace Cert.EdgeBN

open Idealize.ShloMosaic

theorem outK_eq_outR (src dst : Mat 500000 128) (ea : Mat 500000 64) (u : Mat 64 64) (W1 : Mat 384 256)
    (b1 g1 be1 : Row 256) (W2 : Mat 256 256) (b2 g2 be2 : Row 256) (bt : Fin 500000 → BitVec 32)
    (hsrc : FinM src) (hdst : FinM dst) (hea : FinM ea) (hu : FinM u) (hW1 : FinM W1) (hb1 : FinR b1) (hg1 : FinR g1)
    (hbe1 : FinR be1) (hW2 : FinM W2) (hb2 : FinR b2) (hg2 : FinR g2) (hbe2 : FinR be2)
    (hbt : ∀ e, (bt e).toNat < 64) :
    outK src dst ea u W1 b1 g1 be1 W2 b2 g2 be2 bt nW epsW
      = outR src dst ea (fun e k => u ⟨(bt e).toNat, hbt e⟩ k) W1 b1 g1 be1 W2 b2 g2 be2 nW epsW := by
  have hug : FinM (fun e k => u ⟨(bt e).toNat, hbt e⟩ k) := fun e k => hu _ _
  have f1 : FinM (lin1R src dst ea (fun e k => u ⟨(bt e).toNat, hbt e⟩ k) W1 b1) :=
    finM_lin1R _ _ _ _ _ _ hsrc hdst hea hug hW1 hb1
  have f2 : FinM (lin2 (relu (bnR (lin1R src dst ea (fun e k => u ⟨(bt e).toNat, hbt e⟩ k) W1 b1) g1 be1 nW epsW)) W2 b2) :=
    finM_lin2_relu _ (finM_bnR _ f1 _ _ hg1 hbe1) _ hW2 _ hb2
  unfold outK outR h2K
  rw [h1K_eq_lin1R src dst ea u W1 b1 bt hbt, bnK_eq_bnR _ f1 g1 be1 hg1 hbe1, bnK_eq_bnR _ f2 g2 be2 hg2 hbe2]

end Cert.EdgeBN

end
-- ==== Proof.lean ====
/-
  An edge model — per edge the concatenated features through a linear layer, batch normalisation over the edges, ReLU,
  a second linear layer and a second batch normalisation — computed by three passes over tiles of 10000 edges, against
  its whole-array jnp form.

  The kernel's value: the three passes' outputs as whole-array functions (Region0, Region1, Region2), the host operations
  between them read at an index (HostGlue), composed back from the result buffer to the arguments (KernelValue) under the
  run of the program (KernelRun). The reference's value: its run read one operation at a time (RefValue). The two are one
  function of finite arguments whose graph ids lie in [0, 64) (Bridge): the one-hot product is the gathered row, the four
  partial products are the product with the concatenated features, the tiles' sums are the column sums, and
  `x * s + (be - mean * s) = (x - mean) * s + be` with `E[x²] - (E x)² = E[(x - E x)²]` over the reals.
  The precondition gives finiteness and the range (PreFacts).
-/
import proofs.«421816_j83562883711137_2_alg».proof.Defs
import proofs.«421816_j83562883711137_2_alg».proof.Proof.Gen.Kernel
import proofs.«421816_j83562883711137_2_alg».proof.Proof.Gen.Kernel.Skeleton
import proofs.«421816_j83562883711137_2_alg».proof.Proof.Gen.Kernel.Launch
import proofs.«421816_j83562883711137_2_alg».proof.Proof.Gen.Kernel.Points
import proofs.«421816_j83562883711137_2_alg».proof.Proof.Gen.Kernel.Frame
import proofs.«421816_j83562883711137_2_alg».proof.Proof.Gen.KernelIdeal
import proofs.«421816_j83562883711137_2_alg».proof.Proof.Gen.KernelIdeal.Skeleton
import proofs.«421816_j83562883711137_2_alg».proof.Proof.Gen.KernelIdeal.Launch
import proofs.«421816_j83562883711137_2_alg».proof.Proof.Gen.KernelIdeal.Points
import proofs.«421816_j83562883711137_2_alg».proof.Proof.Gen.KernelIdeal.Frame
import proofs.«421816_j83562883711137_2_alg».proof.Proof.Gen.ReferenceIdeal
import proofs.«421816_j83562883711137_2_alg».proof.Proof.Gen.ReferenceIdeal.Run
import proofs.«421816_j83562883711137_2_alg».proof.Proof.Gen.Pre_finite_inputs
import proofs.«421816_j83562883711137_2_alg».proof.Proof.KernelRun
import proofs.«421816_j83562883711137_2_alg».proof.Proof.KernelValue
import proofs.«421816_j83562883711137_2_alg».proof.Proof.RefValue
import proofs.«421816_j83562883711137_2_alg».proof.Proof.PreFacts
import proofs.«421816_j83562883711137_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem Cert.EdgeBN

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

variable (m : (ℓ : Loc Cert.KernelIdeal.nD Cert.KernelIdeal.τ Cert.KernelIdeal.sig) → Buf (Elt Ideal) ℓ)

/-- The kernel program's argument arrays in the launch memory. -/
abbrev x0 (c : Dev Cert.KernelIdeal.nD) : Vec Ideal Cert.KernelIdeal.S500000x128 .f32 := m ((c.tc : Thread Cert.KernelIdeal.nD Cert.KernelIdeal.τ).loc Cert.KernelIdeal.main_arg0)
abbrev x1 (c : Dev Cert.KernelIdeal.nD) : Vec Ideal Cert.KernelIdeal.S500000x128 .f32 := m ((c.tc : Thread Cert.KernelIdeal.nD Cert.KernelIdeal.τ).loc Cert.KernelIdeal.main_arg1)
abbrev x2 (c : Dev Cert.KernelIdeal.nD) : Vec Ideal Cert.KernelIdeal.S500000x64 .f32 := m ((c.tc : Thread Cert.KernelIdeal.nD Cert.KernelIdeal.τ).loc Cert.KernelIdeal.main_arg2)
abbrev x3 (c : Dev Cert.KernelIdeal.nD) : Vec Ideal Cert.KernelIdeal.S64x64 .f32 := m ((c.tc : Thread Cert.KernelIdeal.nD Cert.KernelIdeal.τ).loc Cert.KernelIdeal.main_arg3)
abbrev x4 (c : Dev Cert.KernelIdeal.nD) : Vec Ideal Cert.KernelIdeal.S384x256 .f32 := m ((c.tc : Thread Cert.KernelIdeal.nD Cert.KernelIdeal.τ).loc Cert.KernelIdeal.main_arg4)
abbrev x5 (c : Dev Cert.KernelIdeal.nD) : Vec Ideal Cert.KernelIdeal.S256 .f32 := m ((c.tc : Thread Cert.KernelIdeal.nD Cert.KernelIdeal.τ).loc Cert.KernelIdeal.main_arg5)
abbrev x6 (c : Dev Cert.KernelIdeal.nD) : Vec Ideal Cert.KernelIdeal.S256 .f32 := m ((c.tc : Thread Cert.KernelIdeal.nD Cert.KernelIdeal.τ).loc Cert.KernelIdeal.main_arg6)
abbrev x7 (c : Dev Cert.KernelIdeal.nD) : Vec Ideal Cert.KernelIdeal.S256 .f32 := m ((c.tc : Thread Cert.KernelIdeal.nD Cert.KernelIdeal.τ).loc Cert.KernelIdeal.main_arg7)
abbrev x8 (c : Dev Cert.KernelIdeal.nD) : Vec Ideal Cert.KernelIdeal.S256x256 .f32 := m ((c.tc : Thread Cert.KernelIdeal.nD Cert.KernelIdeal.τ).loc Cert.KernelIdeal.main_arg8)
abbrev x9 (c : Dev Cert.KernelIdeal.nD) : Vec Ideal Cert.KernelIdeal.S256 .f32 := m ((c.tc : Thread Cert.KernelIdeal.nD Cert.KernelIdeal.τ).loc Cert.KernelIdeal.main_arg9)
abbrev x10 (c : Dev Cert.KernelIdeal.nD) : Vec Ideal Cert.KernelIdeal.S256 .f32 := m ((c.tc : Thread Cert.KernelIdeal.nD Cert.KernelIdeal.τ).loc Cert.KernelIdeal.main_arg10)
abbrev x11 (c : Dev Cert.KernelIdeal.nD) : Vec Ideal Cert.KernelIdeal.S256 .f32 := m ((c.tc : Thread Cert.KernelIdeal.nD Cert.KernelIdeal.τ).loc Cert.KernelIdeal.main_arg11)
abbrev x12 (c : Dev Cert.KernelIdeal.nD) : IVec Cert.KernelIdeal.S500000 32 := m ((c.tc : Thread Cert.KernelIdeal.nD Cert.KernelIdeal.τ).loc Cert.KernelIdeal.main_arg12)

/-- The common result: the kernel's function `outK` of the argument arrays. -/
def resultOf (c : Dev Cert.KernelIdeal.nD) : Cert.KernelIdeal.S500000x256.Idx → EReal :=
  fun i => outK (cur2 (x0 m c)) (cur2 (x1 m c)) (cur2 (x2 m c)) (cur2 (x3 m c)) (cur2 (x4 m c)) (cur1 (x5 m c)) (cur1 (x6 m c))
    (cur1 (x7 m c)) (cur2 (x8 m c)) (cur1 (x9 m c)) (cur1 (x10 m c)) (cur1 (x11 m c)) (cur1i (x12 m c)) nW epsW (i 0) (i 1)

/-- Under the precondition the reference's function of the same arrays is that result. -/
theorem outR_eq_result [Cert.Pre_finite_inputs.Facts] (c : Dev Cert.KernelIdeal.nD)
    (hpre : Cert.Pre_finite_inputs.fn (F := Ideal) (x0 m c) (x1 m c) (x2 m c) (x3 m c) (x4 m c) (x5 m c) (x6 m c) (x7 m c)
      (x8 m c) (x9 m c) (x10 m c) (x11 m c) (x12 m c) = (fun _ => 1#1)) :
    (fun i : Cert.KernelIdeal.S500000x256.Idx => outR (cur2 (x0 m c)) (cur2 (x1 m c)) (cur2 (x2 m c))
        (Cert.ReferenceIdeal.RefValue.gathR (x3 m c) (x12 m c)) (cur2 (x4 m c)) (cur1 (x5 m c)) (cur1 (x6 m c)) (cur1 (x7 m c))
        (cur2 (x8 m c)) (cur1 (x9 m c)) (cur1 (x10 m c)) (cur1 (x11 m c)) nW epsW (i 0) (i 1))
      = resultOf m c := by
  have P := Cert.Pre_finite_inputs.PreFacts.holds_of_fn _ _ _ _ _ _ _ _ _ _ _ _ _ hpre
  have hbt : ∀ e, ((cur1i (x12 m c)) e).toNat < 64 := fun e => P.ids (ix1 e)
  have hg : Cert.ReferenceIdeal.RefValue.gathR (x3 m c) (x12 m c)
      = fun e k => cur2 (x3 m c) ⟨((cur1i (x12 m c)) e).toNat, hbt e⟩ k :=
    funext fun e => funext fun k => Cert.ReferenceIdeal.RefValue.gathR_eq (x3 m c) (x12 m c) e k (hbt e)
  have hb := outK_eq_outR (cur2 (x0 m c)) (cur2 (x1 m c)) (cur2 (x2 m c)) (cur2 (x3 m c)) (cur2 (x4 m c)) (cur1 (x5 m c))
    (cur1 (x6 m c)) (cur1 (x7 m c)) (cur2 (x8 m c)) (cur1 (x9 m c)) (cur1 (x10 m c)) (cur1 (x11 m c)) (cur1i (x12 m c))
    (fun p q => P.f0 (ix2 p q)) (fun p q => P.f1 (ix2 p q)) (fun p q => P.f2 (ix2 p q)) (fun p q => P.f3 (ix2 p q))
    (fun p q => P.f4 (ix2 p q)) (fun q => P.f5 (ix1 q)) (fun q => P.f6 (ix1 q)) (fun q => P.f7 (ix1 q))
    (fun p q => P.f8 (ix2 p q)) (fun q => P.f9 (ix1 q)) (fun q => P.f10 (ix1 q)) (fun q => P.f11 (ix1 q)) hbt
  unfold resultOf
  rw [hg, hb]

/-- Both runs end with the result at one function of the arguments: the kernel's run (its result buffer read back
    through the passes) and the reference's (its run read one operation at a time), the arguments agreeing. -/
theorem algebraic : Cert.algebraic_KernelIdeal_ReferenceIdeal := by
  intro m ρ m' ρ' hpre hagree
  refine ⟨resultOf m, ?_, ?_⟩
  · exact (θ_run Cert.KernelIdeal.defs _ _).mono
      (fun r h c => ⟨(h c).1.trans (Cert.KernelIdeal.KernelValue.result m ρ c), (h c).2⟩)
      (Cert.KernelIdeal.KernelRun.value_run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.RefValue.result m' c, h0, h1, h2, h3, h4, h5, h6, h7, h8, h9, h10, h11, h12]
    exact outR_eq_result m c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
